-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S100000 : S_.BroadcastsInDim S100000 (![] : Fin 0 → Fin S100000.rank)
  reducesTo_S100000_S_d0 : S100000.ReducesTo [0] S_

variable [Facts]

def fn_part4 {F : FTy → Type} [FloatOps F] (main_arg16 : IVec S100000 32) (main_v63 : IVec S_ 1) (main_v67 : IVec S_ 1) : IVec S_ 1 :=
  let main_v68 : IVec S_ 1 := andi main_v63 main_v67
  let main_c_26 : IVec S_ 32 := constantI S_ 32 0#32
  let main_v69 : IVec S100000 32 := broadcastInDim S100000 ![] bcast_S_S100000 main_c_26
  let main_v70 : IVec S100000 1 := cmpi .sge main_arg16 main_v69
  let main_c_27 : IVec S_ 1 := constantI S_ 1 1#1
  let main_v71 : IVec S_ 1 := (fun x v => Host.reduce IntOp.andi x v reducesTo_S100000_S_d0 h_S_) main_v70 main_c_27
  let main_v72 : IVec S_ 1 := andi main_v68 main_v71
  let main_c_28 : IVec S_ 32 := constantI S_ 32 256#32
  let main_v73 : IVec S100000 32 := broadcastInDim S100000 ![] bcast_S_S100000 main_c_28
  let main_v74 : IVec S100000 1 := cmpi .slt main_arg16 main_v73
  let main_c_29 : IVec S_ 1 := constantI S_ 1 1#1
  let main_v75 : IVec S_ 1 := (fun x v => Host.reduce IntOp.andi x v reducesTo_S100000_S_d0 h_S_) main_v74 main_c_29
  let main_v76 : IVec S_ 1 := andi main_v72 main_v75
  main_v76

def fn_part3 {F : FTy → Type} [FloatOps F] (main_arg11 : FVec F S128 .f32) (main_arg12 : FVec F S128x128 .f32) (main_arg13 : FVec F S128 .f32) (main_arg16 : IVec S100000 32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_v63 main_v67

def fn_part2 {F : FTy → Type} [FloatOps F] (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg16 : IVec S100000 32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg16 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg16 : IVec S100000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg16 main_v33

def fn {F : FTy → Type} [FloatOps F] (main_arg0 : FVec F S100000x128 .f32) (main_arg1 : FVec F S1600000 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : IVec S1600000 32) (main_arg15 : IVec S1600000 32) (main_arg16 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg16 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S100000 : Shape := ⟨1, ![100000]⟩
abbrev S100000x1 : Shape := ⟨2, ![100000, 1]⟩
abbrev S2000x128 : Shape := ⟨2, ![2000, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S256x128 : Shape := ⟨2, ![256, 128]⟩
abbrev S256x1 : Shape := ⟨2, ![256, 1]⟩
abbrev S2000x1 : Shape := ⟨2, ![2000, 1]⟩
abbrev S1x256 : Shape := ⟨2, ![1, 256]⟩
abbrev S2000x256 : Shape := ⟨2, ![2000, 256]⟩
abbrev S256x2000 : Shape := ⟨2, ![256, 2000]⟩

abbrev nBuf : Space → Nat
  | .hbm => 66
  | .vmem => 31
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S1600000, .i32⟩
  | .hbm, ⟨15, _⟩ => ⟨S1600000, .i32⟩
  | .hbm, ⟨16, _⟩ => ⟨S100000, .i32⟩
  | .hbm, ⟨17, _⟩ => ⟨S100000x1, .i32⟩
  | .hbm, ⟨18, _⟩ => ⟨S100000x128, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x128, .f32⟩
  | .hbm, ⟨28, _⟩ => ⟨S1600000x1, .f32⟩
  | .hbm, ⟨29, _⟩ => ⟨S1600000x128, .f32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S1x128, .f32⟩
  | .hbm, ⟨36, _⟩ => ⟨S100000x128, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x128, .f32⟩
  | .hbm, ⟨46, _⟩ => ⟨S1600000x1, .f32⟩
  | .hbm, ⟨47, _⟩ => ⟨S1600000x128, .f32⟩
  | .hbm, ⟨48, _⟩ => ⟨S1600000x128, .f32⟩
  | .hbm, ⟨49, _⟩ => ⟨S_, .f32⟩
  | .hbm, ⟨50, _⟩ => ⟨S100000x128, .f32⟩
  | .hbm, ⟨51, _⟩ => ⟨S1600000x1, .i32⟩
  | .hbm, ⟨52, _⟩ => ⟨S100000x128, .f32⟩
  | .hbm, ⟨53, _⟩ => ⟨S1x128, .f32⟩
  | .hbm, ⟨54, _⟩ => ⟨S256x128, .f32⟩
  | .hbm, ⟨55, _⟩ => ⟨S256x1, .f32⟩
  | .hbm, ⟨56, _⟩ => ⟨S_, .f32⟩
  | .hbm, ⟨57, _⟩ => ⟨S256x1, .f32⟩
  | .hbm, ⟨58, _⟩ => ⟨S256x1, .f32⟩
  | .hbm, ⟨59, _⟩ => ⟨S256x128, .f32⟩
  | .hbm, ⟨60, _⟩ => ⟨S256x128, .f32⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S128x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S1x128, .f32⟩
  | .local _ .vmem, ⟨14, _⟩ => ⟨S2000x1, .i32⟩
  | .local _ .vmem, ⟨15, _⟩ => ⟨S2000x1, .i32⟩
  | .local _ .vmem, ⟨16, _⟩ => ⟨S256x128, .f32⟩
  | .local _ .vmem, ⟨17, _⟩ => ⟨S256x1, .f32⟩
  | .local _ .vmem, ⟨18, _⟩ => ⟨S2000x1, .i32⟩
  | .local _ .vmem, ⟨19, _⟩ => ⟨S2000x1, .i32⟩
  | .local _ .vmem, ⟨20, _⟩ => ⟨S256x128, .f32⟩
  | .local _ .vmem, ⟨21, _⟩ => ⟨S128x128, .f32⟩
  | .local _ .vmem, ⟨22, _⟩ => ⟨S1x128, .f32⟩
  | .local _ .vmem, ⟨23, _⟩ => ⟨S128x128, .f32⟩
  | .local _ .vmem, ⟨24, _⟩ => ⟨S1x128, .f32⟩
  | .local _ .vmem, ⟨25, _⟩ => ⟨S128x128, .f32⟩
  | .local _ .vmem, ⟨26, _⟩ => ⟨S1x128, .f32⟩
  | .local _ .vmem, ⟨27, _⟩ => ⟨S128x128, .f32⟩
  | .local _ .vmem, ⟨28, _⟩ => ⟨S1x128, .f32⟩
  | .local _ .vmem, ⟨29, _⟩ => ⟨S2000x128, .f32⟩
  | .local _ .vmem, ⟨30, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c_1 : Ref sig .tc := ⟨.hbm, 37, rfl⟩
abbrev main_v17 : Ref sig .tc := ⟨.hbm, 38, rfl⟩
abbrev main_v18 : Ref sig .tc := ⟨.hbm, 39, rfl⟩
abbrev main_c_2 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_3 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31_0 : Ref sig .tc := ⟨.hbm, 54, rfl⟩
abbrev main_v31_1 : Ref sig .tc := ⟨.hbm, 55, rfl⟩
abbrev main_cst_4 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg6_0 : Ref sig .tc := ⟨.vmem, 25, rfl⟩
abbrev cc3_stg7_0 : Ref sig .tc := ⟨.vmem, 26, rfl⟩
abbrev cc3_stg8_0 : Ref sig .tc := ⟨.vmem, 27, rfl⟩
abbrev cc3_stg9_0 : Ref sig .tc := ⟨.vmem, 28, rfl⟩
abbrev cc3_stg10_0 : Ref sig .tc := ⟨.vmem, 29, rfl⟩
abbrev cc3_stg10_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem4_0 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem6_0 : DmaSem sig := 25
abbrev cc3_sem7_0 : DmaSem sig := 26
abbrev cc3_sem8_0 : DmaSem sig := 27
abbrev cc3_sem9_0 : DmaSem sig := 28
abbrev cc3_sem10_0 : DmaSem sig := 29
abbrev cc3_sem10_1 : DmaSem sig := 30

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x1 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S2000x128 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

class Facts₀ : Prop where
  shapeCasts_S100000_S100000x1 : S100000.ShapeCasts S100000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S256x128_S256x128_0_0 : ∀ a, (![0, 0] : Fin 2 → Nat) a + S256x128.size a ≤ S256x128.size a
  h_S256x128 : 0 < S256x128.numel
  inb_S256x1_S256x1_0_0 : ∀ a, (![0, 0] : Fin 2 → Nat) a + S256x1.size a ≤ S256x1.size a
  h_S256x1 : 0 < S256x1.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S1x256_d1_w32 : S1x256.Iotas .tc 32 [1]
  broadcasts_S2000x1_S2000x256 : S2000x1.Broadcasts S2000x256
  broadcasts_S1x256_S2000x256 : S1x256.Broadcasts S2000x256
  natLt_1_32 : 1 < 32
  transposes_S2000x256_p1_0_S256x2000 : S2000x256.Transposes [1, 0] S256x2000
  shapeCasts_S256x128_S256x128 : S256x128.ShapeCasts S256x128
  shapeCasts_S256x1_S256x1 : S256x1.ShapeCasts S256x1
  bcast_S_S256x1 : S_.BroadcastsInDim S256x1 (![] : Fin 0 → Fin S256x1.rank)
  bcast_S256x1_S256x128_0_1 : S256x1.BroadcastsInDim S256x128 (![0, 1] : Fin 2 → Fin S256x128.rank)
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S256x2000_S2000x128_S256x128_1_0_0_1_n_n_wf : DotDims.WF S256x2000 S2000x128 S256x128 [1] [0] [0] [1] [] []
  dot_S256x2000_S2000x1_S256x1_1_0_0_1_n_n_wf : DotDims.WF S256x2000 S2000x1 S256x1 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .i32 = 32 ∨ (Rect.block (s := S100000x1) S2000x1.size (cc2_transform_2 i) (hinb2_2 i)).WholeWords (EltTy.packing .i32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .f32 = 32 ∨ (Rect.block (s := S256x128) S256x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x1.size a ≤ S256x1.size a
  hwx2_4 : ∀ i : grid2.Coords, EltTy.bits .f32 = 32 ∨ (Rect.block (s := S256x1) S256x1.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x1.size a ≤ S100000x1.size a
  hwx3_0 : ∀ i : grid3.Coords, EltTy.bits .i32 = 32 ∨ (Rect.block (s := S100000x1) S2000x1.size (cc3_transform_0 i) (hinb3_0 i)).WholeWords (EltTy.packing .i32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S256x128.size a
  hwx3_1 : ∀ i : grid3.Coords, EltTy.bits .f32 = 32 ∨ (Rect.block (s := S256x128) S256x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .f32 = 32 ∨ (Rect.block (s := S128x128) S128x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128x128.size a ≤ S128x128.size a
  hwx3_8 : ∀ i : grid3.Coords, EltTy.bits .f32 = 32 ∨ (Rect.block (s := S128x128) S128x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x128.size a ≤ S1x128.size a
  hwx3_9 : ∀ i : grid3.Coords, EltTy.bits .f32 = 32 ∨ (Rect.block (s := S1x128) S1x128.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S2000x128.size a ≤ S100000x128.size a
  hwx3_10 : ∀ i : grid3.Coords, EltTy.bits .f32 = 32 ∨ (Rect.block (s := S100000x128) S2000x128.size (cc3_transform_10 i) (hinb3_10 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S256x2000_S2000x128_S256x128_1_0_0_1_n_n : DotDims S256x2000 S2000x128 S256x128 where
  lhsContracting := [1]
  rhsContracting := [0]
  lhsNonContracting := [0]
  rhsNonContracting := [1]
  lhsBatch := []
  rhsBatch := []
  wf := dot_S256x2000_S2000x128_S256x128_1_0_0_1_n_n_wf
def dot_S256x2000_S2000x1_S256x1_1_0_0_1_n_n : DotDims S256x2000 S2000x1 S256x1 where
  lhsContracting := [1]
  rhsContracting := [0]
  lhsNonContracting := [0]
  rhsNonContracting := [1]
  lhsBatch := []
  rhsBatch := []
  wf := dot_S256x2000_S2000x1_S256x1_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v29) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v0) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v31_0) S256x128.size cc2_transform_3 reads2_3 true true 1 stage2_3 sem2_3
    hrank2 hreads2_3 hinb2_3 nbuf2_3 (Memref.isWhole_whole _) hwx2_3 hstage2_3

abbrev win2_4 : Pipeline.Window sig grid2 :=
  Pipeline.Window.ofSpec (Memref.whole main_v31_1) S256x1.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v0) S2000x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v35) S256x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg6) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v36) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg8) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v37) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg10) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v38) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg12) S128x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v39) S1x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v40) S2000x128.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S100000 : Shape := ⟨1, ![100000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S256 : Shape := ⟨1, ![256]⟩
abbrev S100000x1 : Shape := ⟨2, ![100000, 1]⟩
abbrev S256x128 : Shape := ⟨2, ![256, 128]⟩
abbrev S256x1 : Shape := ⟨2, ![256, 1]⟩

abbrev nBuf : Space → Nat
  | .hbm => 119
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S1600000, .i32⟩
  | .hbm, ⟨15, _⟩ => ⟨S1600000, .i32⟩
  | .hbm, ⟨16, _⟩ => ⟨S100000, .i32⟩
  | .hbm, ⟨17, _⟩ => ⟨S100000x128, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .f32⟩
  | .hbm, ⟨27, _⟩ => ⟨S1600000x1, .f32⟩
  | .hbm, ⟨28, _⟩ => ⟨S1600000x128, .f32⟩
  | .hbm, ⟨29, _⟩ => ⟨S1600000x128, .f32⟩
  | .hbm, ⟨30, _⟩ => ⟨S_, .f32⟩
  | .hbm, ⟨31, _⟩ => ⟨S100000x128, .f32⟩
  | .hbm, ⟨32, _⟩ => ⟨S1600000x1, .i32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S100000x128, .f32⟩
  | .hbm, ⟨37, _⟩ => ⟨S_, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S1600000x1, .f32⟩
  | .hbm, ⟨51, _⟩ => ⟨S1600000x128, .f32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S1x128, .f32⟩
  | .hbm, ⟨58, _⟩ => ⟨S100000x128, .f32⟩
  | .hbm, ⟨59, _⟩ => ⟨S100000x128, .f32⟩
  | .hbm, ⟨60, _⟩ => ⟨S_, .f32⟩
  | .hbm, ⟨61, _⟩ => ⟨S100000, .f32⟩
  | .hbm, ⟨62, _⟩ => ⟨S_, .f32⟩
  | .hbm, ⟨63, _⟩ => ⟨S256, .f32⟩
  | .hbm, ⟨64, _⟩ => ⟨S100000x1, .i32⟩
  | .hbm, ⟨65, _⟩ => ⟨S256, .f32⟩
  | .hbm, ⟨66, _⟩ => ⟨S_, .f32⟩
  | .hbm, ⟨67, _⟩ => ⟨S256x128, .f32⟩
  | .hbm, ⟨68, _⟩ => ⟨S100000x1, .i32⟩
  | .hbm, ⟨69, _⟩ => ⟨S256x128, .f32⟩
  | .hbm, ⟨70, _⟩ => ⟨S_, .f32⟩
  | .hbm, ⟨71, _⟩ => ⟨S256, .f32⟩
  | .hbm, ⟨72, _⟩ => ⟨S256, .f32⟩
  | .hbm, ⟨73, _⟩ => ⟨S256x1, .f32⟩
  | .hbm, ⟨74, _⟩ => ⟨S256x128, .f32⟩
  | .hbm, ⟨75, _⟩ => ⟨S256x128, .f32⟩
  | .hbm, ⟨76, _⟩ => ⟨S_, .i32⟩
  | .hbm, ⟨77, _⟩ => ⟨S100000, .i32⟩
  | .hbm, ⟨78, _⟩ => ⟨S100000, .i1⟩
  | .hbm, ⟨79, _⟩ => ⟨S_, .i32⟩
  | .hbm, ⟨80, _⟩ => ⟨S100000, .i32⟩
  | .hbm, ⟨81, _⟩ => ⟨S100000, .i32⟩
  | .hbm, ⟨82, _⟩ => ⟨S100000, .i32⟩
  | .hbm, ⟨83, _⟩ => ⟨S100000x1, .i32⟩
  | .hbm, ⟨84, _⟩ => ⟨S100000x128, .f32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | .hbm, ⟨89, _⟩ => ⟨S_, .f32⟩
  | .hbm, ⟨90, _⟩ => ⟨S100000x128, .f32⟩
  | .hbm, ⟨91, _⟩ => ⟨S100000x128, .f32⟩
  | .hbm, ⟨92, _⟩ => ⟨S100000x128, .f32⟩
  | .hbm, ⟨93, _⟩ => ⟨S1x128, .f32⟩
  | .hbm, ⟨94, _⟩ => ⟨S100000x128, .f32⟩
  | .hbm, ⟨95, _⟩ => ⟨S100000x128, .f32⟩
  | .hbm, ⟨96, _⟩ => ⟨S_, .f32⟩
  | .hbm, ⟨97, _⟩ => ⟨S100000x128, .f32⟩
  | .hbm, ⟨98, _⟩ => ⟨S100000x128, .f32⟩
  | .hbm, ⟨99, _⟩ => ⟨S100000x128, .f32⟩
  | .hbm, ⟨100, _⟩ => ⟨S1x128, .f32⟩
  | .hbm, ⟨101, _⟩ => ⟨S100000x128, .f32⟩
  | .hbm, ⟨102, _⟩ => ⟨S100000x128, .f32⟩
  | .hbm, ⟨103, _⟩ => ⟨S_, .f32⟩
  | .hbm, ⟨104, _⟩ => ⟨S100000x128, .f32⟩
  | .hbm, ⟨105, _⟩ => ⟨S100000x128, .f32⟩
  | .hbm, ⟨106, _⟩ => ⟨S100000x128, .f32⟩
  | .hbm, ⟨107, _⟩ => ⟨S1x128, .f32⟩
  | .hbm, ⟨108, _⟩ => ⟨S100000x128, .f32⟩
  | .hbm, ⟨109, _⟩ => ⟨S100000x128, .f32⟩
  | .hbm, ⟨110, _⟩ => ⟨S100000x128, .f32⟩
  | .hbm, ⟨111, _⟩ => ⟨S100000x128, .f32⟩
  | .hbm, ⟨112, _⟩ => ⟨S100000x128, .f32⟩
  | .hbm, ⟨113, _⟩ => ⟨S_, .f32⟩
  | .hbm, ⟨114, _⟩ => ⟨S100000x128, .f32⟩
  | .hbm, ⟨115, _⟩ => ⟨S100000x128, .f32⟩
  | .hbm, ⟨116, _⟩ => ⟨S_, .f32⟩
  | .hbm, ⟨117, _⟩ => ⟨S100000x128, .f32⟩
  | .hbm, ⟨118, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_c : Ref sig .tc := ⟨.hbm, 18, rfl⟩
abbrev main_v1 : Ref sig .tc := ⟨.hbm, 19, rfl⟩
abbrev main_v2 : Ref sig .tc := ⟨.hbm, 20, rfl⟩
abbrev main_c_0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_call0_cst : Ref sig .tc := ⟨.hbm, 37, rfl⟩
abbrev main_call0_v0 : Ref sig .tc := ⟨.hbm, 38, rfl⟩
abbrev main_v17 : Ref sig .tc := ⟨.hbm, 39, rfl⟩
abbrev main_v18 : Ref sig .tc := ⟨.hbm, 40, rfl⟩
abbrev main_c_1 : Ref sig .tc := ⟨.hbm, 41, rfl⟩
abbrev main_v19 : Ref sig .tc := ⟨.hbm, 42, rfl⟩
abbrev main_v20 : Ref sig .tc := ⟨.hbm, 43, rfl⟩
abbrev main_c_2 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_3 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_4 : Ref sig .tc := ⟨.hbm, 60, rfl⟩
abbrev main_v35 : Ref sig .tc := ⟨.hbm, 61, rfl⟩
abbrev main_cst_5 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_6 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_7 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_c_8 : Ref sig .tc := ⟨.hbm, 76, rfl⟩
abbrev main_v47 : Ref sig .tc := ⟨.hbm, 77, rfl⟩
abbrev main_v48 : Ref sig .tc := ⟨.hbm, 78, rfl⟩
abbrev main_c_9 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_call1_cst : Ref sig .tc := ⟨.hbm, 89, rfl⟩
abbrev main_call1_v0 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_call2_cst : Ref sig .tc := ⟨.hbm, 96, rfl⟩
abbrev main_call2_v0 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_call3_cst : Ref sig .tc := ⟨.hbm, 103, rfl⟩
abbrev main_call3_v0 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_10 : Ref sig .tc := ⟨.hbm, 113, rfl⟩
abbrev main_v76 : Ref sig .tc := ⟨.hbm, 114, rfl⟩
abbrev main_v77 : Ref sig .tc := ⟨.hbm, 115, rfl⟩
abbrev main_cst_11 : Ref sig .tc := ⟨.hbm, 116, rfl⟩
abbrev main_v78 : Ref sig .tc := ⟨.hbm, 117, rfl⟩
abbrev main_v79 : Ref sig .tc := ⟨.hbm, 118, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000 : S_.BroadcastsInDim S100000 (![] : Fin 0 → Fin S100000.rank)
  bcast_S_S256 : S_.BroadcastsInDim S256 (![] : Fin 0 → Fin S256.rank)
  bcast_S100000_S100000x1_0 : S100000.BroadcastsInDim S100000x1 (![0] : Fin 1 → Fin S100000x1.rank)
  bcast_S_S256x128 : S_.BroadcastsInDim S256x128 (![] : Fin 0 → Fin S256x128.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S256_S100000x1_S100000_n_0_0_1_wf : ScatterDims.WF S256 S100000x1 S100000 [] [0] [0] 1
  scatter_S256x128_S100000x1_S100000x128_1_0_0_1_wf : ScatterDims.WF S256x128 S100000x1 S100000x128 [1] [0] [0] 1
  gather_S256x128_S100000x1_S100000x128_1_0_n_n_0_1_1128_wf : GatherDims.WF S256x128 S100000x1 S100000x128 [1] [0] [] [0] [] 1 ![1, 128]

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def gather_S256x128_S100000x1_S100000x128_1_0_n_n_0_1_1128 : GatherDims S256x128 S100000x1 S100000x128 where
  offsetDims := [1]
  collapsedSliceDims := [0]
  operandBatchingDims := []
  startIndicesBatchingDims := []
  startIndexMap := [0]
  indexVectorDim := 1
  sliceSizes := ![1, 128]
  wf := gather_S256x128_S100000x1_S100000x128_1_0_n_n_0_1_1128_wf

class Facts : Prop extends Facts₀ where

variable [Facts]
-- ==== Proof.Spec.lean ====
/-
  The function both programs compute, over the extended reals, as one function of the argument arrays.

  Two graph-convolution layers, a per-graph mean readout repeated back to the nodes, a three-layer ReLU
  block with a linear shortcut, and a logistic:
      m₁ = feat · W₁,  s₁ = A m₁,  m₂ = relu (s₁ + b₁) · W₂,  s₂ = A m₂,  h = s₂ + b₂,
      P[g, d] = Σ_r [gid r = g] · h[r, d],   n[g] = Σ_r [gid r = g],   p = P / max n 1,
      hx[r, d] = Σ_g [gid r = g] · p[g, d],
      z = relu (relu (relu (hx·V₁ + c₁)·V₂ + c₂)·V₃ + c₃),   out = 1 / (1 + exp (−(z + hx·Vₛ + cₛ))).
  `A` is the sparse adjacency's action (gather the source rows, weight them, add them up at the
  destination rows). Both programs apply it by the same sequence of operations, so it enters here as a
  parameter: the function is stated for any map `A` of [100000, 128] arrays.
  The indicator [gid r = g] compares the 32-bit word of node r's graph id with the word of g; the sums
  over r and over g are sums of the whole index range, defined for every table of ids.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- Node features: 100000 nodes by 128 channels. -/
abbrev SND : Shape := ⟨2, ![100000, 128]⟩
/-- A weight matrix. -/
abbrev SDD : Shape := ⟨2, ![128, 128]⟩
/-- A bias vector. -/
abbrev SD : Shape := ⟨1, ![128]⟩
/-- One word per node. -/
abbrev SN : Shape := ⟨1, ![100000]⟩
/-- Per-graph features: 256 graphs by 128 channels. -/
abbrev SGD : Shape := ⟨2, ![256, 128]⟩

/-- The float 1.0 and the float 0.0 as the programs spell them. -/
abbrev one : EReal := Ideal.ofBits .f32 0x3F800000#32
abbrev zero : EReal := Ideal.ofBits .f32 0x00000000#32

/-- x · w: entry (r, c) is the sum over k of x (r, k) · w (k, c). -/
def mm (x : SND.Idx → EReal) (w : SDD.Idx → EReal) : SND.Idx → EReal :=
  fun i => ∑ k : Fin 128, x (ix2 (i 0) k) * w (ix2 k (i 1))

theorem mm_apply (x : SND.Idx → EReal) (w : SDD.Idx → EReal) (r : Fin 100000) (c : Fin 128) :
    mm x w (ix2 r c) = ∑ k : Fin 128, x (ix2 r k) * w (ix2 k c) := rfl

/-- A bias vector added along every row. -/
def addRow (x : SND.Idx → EReal) (b : SD.Idx → EReal) : SND.Idx → EReal :=
  fun i => x i + b (ix1 (i 1))

theorem addRow_apply (x : SND.Idx → EReal) (b : SD.Idx → EReal) (r : Fin 100000) (c : Fin 128) :
    addRow x b (ix2 r c) = x (ix2 r c) + b (ix1 c) := rfl

/-- The positive part, entry by entry. -/
def relu (x : SND.Idx → EReal) : SND.Idx → EReal := fun i => max (x i) zero

theorem relu_apply (x : SND.Idx → EReal) (i : SND.Idx) : relu x i = max (x i) zero := rfl

/-- The indicator that node r belongs to graph g. -/
def ind (gid : SN.Idx → BitVec 32) (r : Fin 100000) (g : Fin 256) : EReal :=
  if gid (ix1 r) = BitVec.ofNat 32 g.val then 1 else 0

/-- The per-graph sums of the node rows. -/
def poolSum (gid : SN.Idx → BitVec 32) (h : SND.Idx → EReal) : SGD.Idx → EReal :=
  fun j => ∑ r : Fin 100000, ind gid r (j 0) * h (ix2 r (j 1))

theorem poolSum_apply (gid : SN.Idx → BitVec 32) (h : SND.Idx → EReal) (g : Fin 256) (d : Fin 128) :
    poolSum gid h (ix2 g d) = ∑ r : Fin 100000, ind gid r g * h (ix2 r d) := rfl

/-- The number of nodes of each graph. -/
def count (gid : SN.Idx → BitVec 32) (g : Fin 256) : EReal := ∑ r : Fin 100000, ind gid r g

/-- The per-graph means: the sums over the counts, an empty graph's count read as one. -/
def pooled (gid : SN.Idx → BitVec 32) (h : SND.Idx → EReal) : SGD.Idx → EReal :=
  fun j => Ideal.div (poolSum gid h j) (max (count gid (j 0)) one)

theorem pooled_apply (gid : SN.Idx → BitVec 32) (h : SND.Idx → EReal) (g : Fin 256) (d : Fin 128) :
    pooled gid h (ix2 g d) = Ideal.div (poolSum gid h (ix2 g d)) (max (count gid g) one) := rfl

/-- Each node takes the row of its graph. -/
def expand (gid : SN.Idx → BitVec 32) (p : SGD.Idx → EReal) : SND.Idx → EReal :=
  fun i => ∑ g : Fin 256, ind gid (i 0) g * p (ix2 g (i 1))

theorem expand_apply (gid : SN.Idx → BitVec 32) (p : SGD.Idx → EReal) (r : Fin 100000) (d : Fin 128) :
    expand gid p (ix2 r d) = ∑ g : Fin 256, ind gid r g * p (ix2 g d) := rfl

/-- A linear layer with a bias. -/
def dense (x : SND.Idx → EReal) (w : SDD.Idx → EReal) (b : SD.Idx → EReal) : SND.Idx → EReal :=
  addRow (mm x w) b

/-- The logistic of x, as both programs spell it: 1 / (1 + exp (−x)). -/
def logistic (x : EReal) : EReal := Ideal.div one (one + Ideal.exp (-x))

/-- The three-layer ReLU block with its linear shortcut, then the logistic, entry by entry. -/
def head (hx : SND.Idx → EReal) (V1 : SDD.Idx → EReal) (c1 : SD.Idx → EReal) (V2 : SDD.Idx → EReal) (c2 : SD.Idx → EReal)
    (V3 : SDD.Idx → EReal) (c3 : SD.Idx → EReal) (Vs : SDD.Idx → EReal) (cs : SD.Idx → EReal) : SND.Idx → EReal :=
  fun i => logistic (relu (dense (relu (dense (relu (dense hx V1 c1)) V2 c2)) V3 c3) i + dense hx Vs cs i)

/-- The node rows before the readout: two graph-convolution layers. -/
def layers (A : (SND.Idx → EReal) → (SND.Idx → EReal)) (feat : SND.Idx → EReal) (W1 : SDD.Idx → EReal) (b1 : SD.Idx → EReal)
    (W2 : SDD.Idx → EReal) (b2 : SD.Idx → EReal) : SND.Idx → EReal :=
  addRow (A (mm (relu (addRow (A (mm feat W1)) b1)) W2)) b2

/-- The whole function. -/
def G (A : (SND.Idx → EReal) → (SND.Idx → EReal)) (feat : SND.Idx → EReal) (W1 : SDD.Idx → EReal) (b1 : SD.Idx → EReal)
    (W2 : SDD.Idx → EReal) (b2 : SD.Idx → EReal) (V1 : SDD.Idx → EReal) (c1 : SD.Idx → EReal) (V2 : SDD.Idx → EReal)
    (c2 : SD.Idx → EReal) (V3 : SDD.Idx → EReal) (c3 : SD.Idx → EReal) (Vs : SDD.Idx → EReal) (cs : SD.Idx → EReal)
    (gid : SN.Idx → BitVec 32) : SND.Idx → EReal :=
  head (expand gid (pooled gid (layers A feat W1 b1 W2 b2))) V1 c1 V2 c2 V3 c3 Vs cs

end Cert.Spec

end
-- ==== Proof.Adj.lean ====
/- The sparse adjacency's action on a [100000, 128] array, by the operations both programs apply: each edge gathers
   its source row (a negative index first wrapped by the number of rows, the start then clamped to the array), scales
   it by the edge's weight, and the scaled rows are added up at the destination rows (an edge whose destination is
   outside the array adds nothing). It is carried as ONE function: nothing here reads it at an index. -/
import proofs.«409535_j90245852823923_1_alg».proof.Proof.Gen.ReferenceIdeal.Read
import proofs.«409535_j90245852823923_1_alg».proof.Proof.Spec

import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Adj

open Cert.ReferenceIdeal Cert.ReferenceIdeal.Read
open Idealize.ShloMosaic Idealize.ShloMosaic.ValueIdx

/-- A ↦ the weighted sum, at each destination row, of the gathered source rows. -/
def adj (w : FVec Ideal S1600000 .f32) (src dst : IVec S1600000 32) (h : FVec Ideal S100000x128 .f32) :
    FVec Ideal S100000x128 .f32 :=
  Host.scatterAdd (F := Ideal) (φ := .f32) scatter_S100000x128_S1600000x1_S1600000x128_1_0_0_1 (val_main_v11 (F := Ideal))
    (val_main_v12 (F := Ideal) dst)
    (mulf (F := Ideal) (φ := .f32)
      (Host.gather (α := EReal) gather_S100000x128_S1600000x1_S1600000x128_1_0_n_n_0_1_1128 h (val_main_v6 (F := Ideal) src))
      (val_main_v9 (F := Ideal) w))

/-- The reference's first aggregation is the action on its first projection. -/
theorem first (x0 : FVec Ideal S100000x128 .f32) (x1 : FVec Ideal S1600000 .f32) (x2 : FVec Ideal S128x128 .f32)
    (x14 x15 : IVec S1600000 32) :
    val_main_v13 (F := Ideal) x0 x1 x2 x14 x15 = adj x1 x14 x15 (val_main_v0 (F := Ideal) x0 x2) := rfl

/-- The reference's second aggregation is the same action on its second projection. -/
theorem second (x0 : FVec Ideal S100000x128 .f32) (x1 : FVec Ideal S1600000 .f32) (x2 : FVec Ideal S128x128 .f32)
    (x3 : FVec Ideal S128 .f32) (x4 : FVec Ideal S128x128 .f32) (x14 x15 : IVec S1600000 32) :
    val_main_v31 (F := Ideal) x0 x1 x2 x3 x4 x14 x15
      = adj x1 x14 x15 (val_main_v18 (F := Ideal) x0 x1 x2 x3 x4 x14 x15) := rfl

end Cert.Adj

end
-- ==== Proof.LibDotSum.lean ====
/-
  A matrix product with ONE contracted axis, read at an output index as a sum over that axis's coordinate.
  The library states the product's value as a sum over the dimension numbers' contraction index set of the operands at
  two computed operand indices. For the two patterns below the contraction index is one coordinate `k`, and the operand
  indices are (r, k), (k, c) for rows × columns, and (k, r), (k, c) when the left operand is contracted over its rows.
  Each is stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × columns: left axis 1 against right axis 0 -/

/-- The dimension numbers of an [M, K] × [K, N] product. -/
def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

/-- The contraction sum of a rows × columns product at (r, c) runs over the pairs (r, k), (k, c). -/
theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

/-- The same for any record with those axis lists. -/
theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

/-! ## Left operand contracted over its rows: left axis 0 against right axis 0 -/

/-- The dimension numbers of a [K, M]ᵀ × [K, N] product. -/
def cc (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wg : DotDims.WF ⟨2, ![K, M]⟩ ⟨2, ![K, N]⟩ ⟨2, ![M, N]⟩ [0] [0] [1] [1] [] [])

theorem cc_lhs_0 (i : (⟨2, ![M, N]⟩ : Shape).Idx) (q : (cc wg).contr.Idx) :
    ((cc wg).lhsIdx i q 0).val = (q ⟨0, Nat.one_pos⟩).val :=
  (cc wg).lhsIdx_val_of_single rfl i q
theorem cc_lhs_1 (i : (⟨2, ![M, N]⟩ : Shape).Idx) (q : (cc wg).contr.Idx) : ((cc wg).lhsIdx i q 1).val = (i 0).val := by
  unfold DotDims.lhsIdx
  rw [dif_neg (show ¬(1 : Fin (⟨2, ![K, M]⟩ : Shape).rank) ∈ (cc wg).lhsBatch by simp [cc]),
    dif_pos (show (1 : Fin (⟨2, ![K, M]⟩ : Shape).rank) ∈ (cc wg).lhsNonContracting by simp [cc])]
  rfl
theorem cc_rhs_0 (i : (⟨2, ![M, N]⟩ : Shape).Idx) (q : (cc wg).contr.Idx) :
    ((cc wg).rhsIdx i q 0).val = (q ⟨0, Nat.one_pos⟩).val :=
  (cc wg).rhsIdx_val_of_single rfl i q
theorem cc_rhs_1 (i : (⟨2, ![M, N]⟩ : Shape).Idx) (q : (cc wg).contr.Idx) : ((cc wg).rhsIdx i q 1).val = (i 1).val := by
  unfold DotDims.rhsIdx
  rw [dif_neg (show ¬(1 : Fin (⟨2, ![K, N]⟩ : Shape).rank) ∈ (cc wg).rhsBatch by simp [cc]),
    dif_pos (show (1 : Fin (⟨2, ![K, N]⟩ : Shape).rank) ∈ (cc wg).rhsNonContracting by simp [cc])]
  rfl

/-- The contraction sum at (r, c) runs over the pairs (k, r), (k, c). -/
theorem sum_cc {β : Type} [AddCommMonoid β] (f : (⟨2, ![K, M]⟩ : Shape).Idx → (⟨2, ![K, N]⟩ : Shape).Idx → β)
    (r : Fin M) (c : Fin N) :
    ∑ k : (cc wg).contr.Idx, f ((cc wg).lhsIdx (ix2 r c) k) ((cc wg).rhsIdx (ix2 r c) k)
      = ∑ k : Fin K, f (ix2 k r) (ix2 k c) := by
  rw [← Equiv.sum_comp (contrEquiv1 (cc wg) K rfl rfl).symm]
  refine Finset.sum_congr rfl fun k _ => ?_
  have hk := contrEquiv1_symm_val (cc wg) K rfl rfl k
  have el : (cc wg).lhsIdx (ix2 r c) ((contrEquiv1 (cc wg) K rfl rfl).symm k) = ix2 k r := funext fun a => Fin.ext (by
    match a with
    | ⟨0, _⟩ => exact (cc_lhs_0 wg _ _).trans hk
    | ⟨1, _⟩ => exact cc_lhs_1 wg _ _)
  have er : (cc wg).rhsIdx (ix2 r c) ((contrEquiv1 (cc wg) K rfl rfl).symm k) = ix2 k c := funext fun a => Fin.ext (by
    match a with
    | ⟨0, _⟩ => exact (cc_rhs_0 wg _ _).trans hk
    | ⟨1, _⟩ => exact cc_rhs_1 wg _ _)
  rw [el, er]

/-- The same for any record with those axis lists. -/
theorem sum_contr_cc {β : Type} [AddCommMonoid β] (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (f : (⟨2, ![K, M]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 k r) (ix2 k c) := by
  obtain ⟨lc, rc', ln, rn, lb, rb, wf'⟩ := d
  simp only at hlc hrc hln hrn hlb hrb
  subst hlc hrc hln hrn hlb hrb
  exact sum_cc wf' f r c

/-! ## The products themselves, at an output index -/

/-- A rows × columns block product into the zero accumulator, at (r, c): the sum over k of A (r, k) · B (k, c). -/
theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

/-- A block product whose left operand is contracted over its rows, into the zero accumulator, at (r, c): the sum over
    k of A (k, r) · B (k, c). -/
theorem matmul_cc_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (A : FVec Ideal ⟨2, ![K, M]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 k r) * B (ix2 k c) := by
  simp only [matmul]
  rw [Ideal.matmul_constant_zero_apply]
  exact sum_contr_cc d hlc hrc hln hrn hlb hrb (fun a b => A a * B b) r c

/-- The host's rows × columns product at (r, c): the same sum. -/
theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.LibDense.lean ====
/-
  The product of an [M, K] array with the TRANSPOSE of an [N, K] array (a linear layer's x · wᵀ, the weight stored
  output-major), as one whole-array function over the extended reals: entry (r, c) is the sum over k of x (r, k) · w (c, k).
  Two computations are that function, for any extents and any dimension-numbers record contracting the left operand's
  axis 1 against the right operand's axis 0:
    * a block product into the zero accumulator whose operands were first narrowed to bf16 (a change of float format is
      the identity on the extended reals) and whose right operand was transposed;
    * the host's dot_general against the transposed weight.
  With it, a bias row added along the rows and a bias column multiplied along the columns, read at an index.
-/
import Idealize.ShloMosaic.PureOps.Ideal.Laws
import Idealize.ShloMosaic.Lib.ValueIdx
import Idealize.ShloMosaic.Lib.ValueLayout
import Idealize.ShloMosaic.Lib.Pipeline.Value
import proofs.«409535_j90245852823923_1_alg».proof.Proof.LibDotSum

noncomputable section

namespace Cert.Lib

open Idealize.ShloMosaic Idealize.ShloMosaic.ValueIdx

variable {M K N : Nat}

/-- x · wᵀ: entry (r, c) is the sum over k of x (r, k) · w (c, k). -/
def mulT (x : FVec Ideal ⟨2, ![M, K]⟩ .f32) (w : FVec Ideal ⟨2, ![N, K]⟩ .f32) : FVec Ideal ⟨2, ![M, N]⟩ .f32 :=
  fun i => ∑ k : Fin K, x (ix2 (i 0) k) * w (ix2 (i 1) k)

theorem mulT_apply (x : FVec Ideal ⟨2, ![M, K]⟩ .f32) (w : FVec Ideal ⟨2, ![N, K]⟩ .f32) (r : Fin M) (c : Fin N) :
    mulT x w (ix2 r c) = ∑ k : Fin K, x (ix2 r k) * w (ix2 c k) := rfl

/-- Row r of x · wᵀ depends on row r of x only: if two left operands agree on their rows r and r', so do the products. -/
theorem mulT_row_congr {M' : Nat} (x : FVec Ideal ⟨2, ![M, K]⟩ .f32) (x' : FVec Ideal ⟨2, ![M', K]⟩ .f32)
    (w : FVec Ideal ⟨2, ![N, K]⟩ .f32) (r : Fin M) (r' : Fin M') (h : ∀ k : Fin K, x (ix2 r k) = x' (ix2 r' k)) (c : Fin N) :
    mulT x w (ix2 r c) = mulT x' w (ix2 r' c) := by
  rw [mulT_apply, mulT_apply]
  exact Finset.sum_congr rfl fun k _ => by rw [h k]

/-- The block product of the narrowed operands, the right one transposed, into the zero accumulator, is x · wᵀ. -/
theorem matmul_trunc_transpose (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (x : FVec Ideal ⟨2, ![M, K]⟩ .f32) (w : FVec Ideal ⟨2, ![N, K]⟩ .f32)
    (hb : FTy.bf16.bits < FTy.f32.bits) (hb' : FTy.bf16.bits < FTy.f32.bits)
    (ht : (⟨2, ![N, K]⟩ : Shape).Transposes [1, 0] ⟨2, ![K, N]⟩) :
    matmul d prec (truncf .bf16 x hb) (transpose ⟨2, ![K, N]⟩ [1, 0] (truncf .bf16 w hb') ht)
        (constant ⟨2, ![M, N]⟩ .f32 0x00000000#32) = mulT x w := by
  funext i
  obtain ⟨r, c, rfl⟩ : ∃ (r : Fin M) (c : Fin N), i = ix2 r c := ⟨i 0, i 1, eq_ix2 i⟩
  rw [matmul_rc_apply d hlc hrc hln hrn hlb hrb, mulT_apply]
  refine Finset.sum_congr rfl fun k _ => ?_
  rw [transpose_ix2_apply]
  rfl

/-- The host's product against the transposed weight is x · wᵀ. -/
theorem dotGeneral_transpose (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (x : FVec Ideal ⟨2, ![M, K]⟩ .f32) (w : FVec Ideal ⟨2, ![N, K]⟩ .f32)
    (ht : (⟨2, ![N, K]⟩ : Shape).Transposes [1, 0] ⟨2, ![K, N]⟩) :
    Host.dotGeneral d prec x (transpose ⟨2, ![K, N]⟩ [1, 0] w ht) = mulT x w := by
  funext i
  obtain ⟨r, c, rfl⟩ : ∃ (r : Fin M) (c : Fin N), i = ix2 r c := ⟨i 0, i 1, eq_ix2 i⟩
  rw [dotGeneral_rc_apply d hlc hrc hln hrn hlb hrb, mulT_apply]
  refine Finset.sum_congr rfl fun k _ => ?_
  rw [transpose_ix2_apply]

/-- An [M, 1] column broadcast over N columns reads, at (r, c), the column's entry of row r. -/
theorem broadcastTo_a1_ab_apply {α : Type} (v : (⟨2, ![M, 1]⟩ : Shape).Idx → α)
    (h : (⟨2, ![M, 1]⟩ : Shape).Broadcasts ⟨2, ![M, N]⟩) (r : Fin M) (c : Fin N) :
    broadcastTo ⟨2, ![M, N]⟩ v h (ix2 r c) = v (ix2 r (0 : Fin 1)) := by
  refine broadcastTo_apply v h (ix2 r c) (ix2 r (0 : Fin 1)) fun ax => ?_
  match ax with
  | ⟨0, _⟩ =>
    show r.val = if M = 1 then 0 else r.val
    split
    · have := r.isLt; omega
    · rfl
  | ⟨1, _⟩ => rfl

/-- An [M] array cast to an [M, 1] column reads, at (r, u), the operand at r, whatever the unit coordinate u. -/
theorem shapeCast_a_a1_apply {α : Type} (x : (⟨1, ![M]⟩ : Shape).Idx → α)
    (h : (⟨1, ![M]⟩ : Shape).ShapeCasts ⟨2, ![M, 1]⟩) (r : Fin M) (u : Fin 1) :
    shapeCast ⟨2, ![M, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-! ## A linear layer with a bias row, and two of them around a tanh -/

/-- x · wᵀ + b: the bias, a [1, N] row, added along every row. -/
def affine (x : FVec Ideal ⟨2, ![M, K]⟩ .f32) (w : FVec Ideal ⟨2, ![N, K]⟩ .f32) (b : FVec Ideal ⟨2, ![1, N]⟩ .f32) :
    FVec Ideal ⟨2, ![M, N]⟩ .f32 :=
  fun i => mulT x w i + b (ix2 (0 : Fin 1) (i 1))

theorem affine_apply (x : FVec Ideal ⟨2, ![M, K]⟩ .f32) (w : FVec Ideal ⟨2, ![N, K]⟩ .f32) (b : FVec Ideal ⟨2, ![1, N]⟩ .f32)
    (r : Fin M) (c : Fin N) :
    affine x w b (ix2 r c) = (∑ k : Fin K, x (ix2 r k) * w (ix2 c k)) + b (ix2 (0 : Fin 1) c) := rfl

/-- Row r of a linear layer's output depends on row r of its input only. -/
theorem affine_row_congr {M' : Nat} (x : FVec Ideal ⟨2, ![M, K]⟩ .f32) (x' : FVec Ideal ⟨2, ![M', K]⟩ .f32)
    (w : FVec Ideal ⟨2, ![N, K]⟩ .f32) (b : FVec Ideal ⟨2, ![1, N]⟩ .f32) (r : Fin M) (r' : Fin M')
    (h : ∀ k : Fin K, x (ix2 r k) = x' (ix2 r' k)) (c : Fin N) :
    affine x w b (ix2 r c) = affine x' w b (ix2 r' c) := by
  rw [affine_apply, affine_apply]
  exact congrArg (· + b (ix2 (0 : Fin 1) c)) (Finset.sum_congr rfl fun k _ => by rw [h k])

/-- tanh of every entry. -/
def tanhA {s : Shape} (y : FVec Ideal s .f32) : FVec Ideal s .f32 := fun i => Ideal.tanh (y i)

theorem tanhA_apply {s : Shape} (y : FVec Ideal s .f32) (i : s.Idx) : tanhA y i = Ideal.tanh (y i) := rfl

/-- The device's vector tanh and the host's are that map on the extended reals. -/
theorem tanh_eq_tanhA {s : Shape} (y : FVec Ideal s .f32) : tanh y = tanhA y := rfl
theorem hostTanh_eq_tanhA {s : Shape} (y : FVec Ideal s .f32) : Host.tanh y = tanhA y := rfl

/-- A two-layer network (layer, tanh, layer) is row-local: its output's row r depends on its input's row r only. -/
theorem affine_tanh_affine_row_congr {M' H : Nat} (x : FVec Ideal ⟨2, ![M, K]⟩ .f32) (x' : FVec Ideal ⟨2, ![M', K]⟩ .f32)
    (w₁ : FVec Ideal ⟨2, ![H, K]⟩ .f32) (b₁ : FVec Ideal ⟨2, ![1, H]⟩ .f32)
    (w₂ : FVec Ideal ⟨2, ![N, H]⟩ .f32) (b₂ : FVec Ideal ⟨2, ![1, N]⟩ .f32) (r : Fin M) (r' : Fin M')
    (h : ∀ k : Fin K, x (ix2 r k) = x' (ix2 r' k)) (c : Fin N) :
    affine (tanhA (affine x w₁ b₁)) w₂ b₂ (ix2 r c) = affine (tanhA (affine x' w₁ b₁)) w₂ b₂ (ix2 r' c) :=
  affine_row_congr _ _ w₂ b₂ r r' (fun k => congrArg Ideal.tanh (affine_row_congr x x' w₁ b₁ r r' h k)) c

/-- The device's form of the layer: the block product of the narrowed operands into the zero accumulator, plus the bias
    row broadcast over the rows. -/
theorem addf_matmul_bias (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (x : FVec Ideal ⟨2, ![M, K]⟩ .f32) (w : FVec Ideal ⟨2, ![N, K]⟩ .f32) (b : FVec Ideal ⟨2, ![1, N]⟩ .f32)
    (hb : FTy.bf16.bits < FTy.f32.bits) (hb' : FTy.bf16.bits < FTy.f32.bits)
    (ht : (⟨2, ![N, K]⟩ : Shape).Transposes [1, 0] ⟨2, ![K, N]⟩)
    (hbc : (⟨2, ![1, N]⟩ : Shape).Broadcasts ⟨2, ![M, N]⟩) :
    addf (matmul d prec (truncf .bf16 x hb) (transpose ⟨2, ![K, N]⟩ [1, 0] (truncf .bf16 w hb') ht)
        (constant ⟨2, ![M, N]⟩ .f32 0x00000000#32)) (broadcastTo ⟨2, ![M, N]⟩ b hbc) = affine x w b := by
  rw [matmul_trunc_transpose d hlc hrc hln hrn hlb hrb]
  funext i
  obtain ⟨r, c, rfl⟩ : ∃ (r : Fin M) (c : Fin N), i = ix2 r c := ⟨i 0, i 1, eq_ix2 i⟩
  rw [addf_apply, broadcastTo_1b_ab_apply]
  rfl

/-- An [N] vector laid along the columns of an [M, N] array through a [1, N] row reads, at (r, c), the vector at c. -/
theorem broadcastInDim_row_apply {α : Type} (h₁ : (⟨1, ![N]⟩ : Shape).BroadcastsInDim ⟨2, ![1, N]⟩ ![1])
    (h₂ : (⟨2, ![1, N]⟩ : Shape).BroadcastsInDim ⟨2, ![M, N]⟩ ![0, 1]) (v : (⟨1, ![N]⟩ : Shape).Idx → α)
    (r : Fin M) (c : Fin N) :
    broadcastInDim ⟨2, ![M, N]⟩ ![0, 1] h₂ (broadcastInDim ⟨2, ![1, N]⟩ ![1] h₁ v) (ix2 r c) = v (ix1 c) := by
  refine (broadcastInDim_apply ![0, 1] h₂ _ (ix2 r c) (ix2 (0 : Fin 1) c) fun a => ?_).trans
    (broadcastInDim_apply ![1] h₁ v (ix2 (0 : Fin 1) c) (ix1 c) fun a => ?_)
  · match a with
    | ⟨0, _⟩ => rfl
    | ⟨1, _⟩ =>
      show c.val = if N = 1 then 0 else c.val
      split
      · have := c.isLt; omega
      · rfl
  · match a with
    | ⟨0, _⟩ =>
      show c.val = if N = 1 then 0 else c.val
      split
      · have := c.isLt; omega
      · rfl

/-- An [M] vector laid along the rows of an [M, N] array through an [M, 1] column reads, at (r, c), the vector at r. -/
theorem broadcastInDim_col_apply {α : Type} (h₁ : (⟨1, ![M]⟩ : Shape).BroadcastsInDim ⟨2, ![M, 1]⟩ ![0])
    (h₂ : (⟨2, ![M, 1]⟩ : Shape).BroadcastsInDim ⟨2, ![M, N]⟩ ![0, 1]) (v : (⟨1, ![M]⟩ : Shape).Idx → α)
    (r : Fin M) (c : Fin N) :
    broadcastInDim ⟨2, ![M, N]⟩ ![0, 1] h₂ (broadcastInDim ⟨2, ![M, 1]⟩ ![0] h₁ v) (ix2 r c) = v (ix1 r) := by
  refine (broadcastInDim_apply ![0, 1] h₂ _ (ix2 r c) (ix2 r (0 : Fin 1)) fun a => ?_).trans
    (broadcastInDim_apply ![0] h₁ v (ix2 r (0 : Fin 1)) (ix1 r) fun a => ?_)
  · match a with
    | ⟨0, _⟩ =>
      show r.val = if M = 1 then 0 else r.val
      split
      · have := r.isLt; omega
      · rfl
    | ⟨1, _⟩ => rfl
  · match a with
    | ⟨0, _⟩ =>
      show r.val = if M = 1 then 0 else r.val
      split
      · have := r.isLt; omega
      · rfl

/-- The host's form of the layer: the product against the transposed weight, plus the [N] bias laid along the columns;
    the bias row is the [N] vector cast to [1, N]. -/
theorem addf_dotGeneral_bias (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (x : FVec Ideal ⟨2, ![M, K]⟩ .f32) (w : FVec Ideal ⟨2, ![N, K]⟩ .f32) (b : FVec Ideal ⟨1, ![N]⟩ .f32)
    (ht : (⟨2, ![N, K]⟩ : Shape).Transposes [1, 0] ⟨2, ![K, N]⟩)
    (h₁ : (⟨1, ![N]⟩ : Shape).BroadcastsInDim ⟨2, ![1, N]⟩ ![1])
    (h₂ : (⟨2, ![1, N]⟩ : Shape).BroadcastsInDim ⟨2, ![M, N]⟩ ![0, 1])
    (hc : (⟨1, ![N]⟩ : Shape).ShapeCasts ⟨2, ![1, N]⟩) :
    addf (Host.dotGeneral d prec x (transpose ⟨2, ![K, N]⟩ [1, 0] w ht))
        (broadcastInDim ⟨2, ![M, N]⟩ ![0, 1] h₂ (broadcastInDim ⟨2, ![1, N]⟩ ![1] h₁ b))
      = affine x w (shapeCast ⟨2, ![1, N]⟩ b hc) := by
  rw [dotGeneral_transpose d hlc hrc hln hrn hlb hrb]
  funext i
  obtain ⟨r, c, rfl⟩ : ∃ (r : Fin M) (c : Fin N), i = ix2 r c := ⟨i 0, i 1, eq_ix2 i⟩
  rw [addf_apply, broadcastInDim_row_apply, affine_apply, shapeCast_a_1a_apply]
  rfl

end Cert.Lib

end
-- ==== Proof.HostReads.lean ====
/- What each region finds in the buffers it reads, in terms of the launch memory and of the arrays the earlier regions
   left: the host operations between the regions, read through. -/
import proofs.«409535_j90245852823923_1_alg».proof.Proof.Gen.KernelIdeal.Frame
import proofs.«409535_j90245852823923_1_alg».proof.Proof.Spec
import proofs.«409535_j90245852823923_1_alg».proof.Proof.Adj
import proofs.«409535_j90245852823923_1_alg».proof.Proof.LibDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HostReads

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg) (c : Dev nD)

/-! ## What the host operations and the regions leave alone

The boundary contents are a fold: the launch memory, then alternately a stretch of host operations and a region put back.
A stretch changes only the references its operations write; a region changes only its windows' arrays, and an input
window's array not at all. -/

/-- A one-reference write set lies in the image of any list holding that reference. -/
private theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-- The references the four stretches of host operations write, stretch by stretch. -/
private def writes0 : List (Ref sig .tc) := [main_v0]
private def writes1 : List (Ref sig .tc) :=
  [main_c, main_v2, main_v3, main_c_0, main_v4, main_v5, main_v6, main_v7, main_v8, main_v9, main_v10, main_v11, main_cst,
    main_v12, main_v13, main_v14, main_v15]
private def writes2 : List (Ref sig .tc) :=
  [main_c_1, main_v17, main_v18, main_c_2, main_v19, main_v20, main_v21, main_v22, main_v23, main_v24, main_v25, main_v26,
    main_cst_3, main_v27, main_v28, main_v29, main_v30]
private def writes3 : List (Ref sig .tc) :=
  [main_cst_4, main_v32, main_v33, main_v34, main_v35, main_v36, main_v37, main_v38, main_v39]

/-- A stretch leaves every reference outside its write list as it found it. -/
private theorem host0_keeps (V : Valuation τ sig (Elt Ideal)) (r : Ref sig .tc) (hr : r ∉ writes0) :
    StableHlo.after hostOps0 V (Proc.devRef .tc r) = V (Proc.devRef .tc r) :=
  StableHlo.after_of_writes_sub hostOps0 V (by
    simp only [hostOps0, List.Forall, StableHlo.reshape_writes]
    exact single_sub (by decide)) hr

private theorem host1_keeps (V : Valuation τ sig (Elt Ideal)) (r : Ref sig .tc) (hr : r ∉ writes1) :
    StableHlo.after hostOps1 V (Proc.devRef .tc r) = V (Proc.devRef .tc r) :=
  StableHlo.after_of_writes_sub hostOps1 V (by
    simp only [hostOps1, List.Forall, StableHlo.nullary_writes, StableHlo.unary_writes, StableHlo.binary_writes,
      StableHlo.ternary_writes, StableHlo.reshape_writes]
    repeat' apply And.intro
    all_goals exact single_sub (by decide)) hr

private theorem host2_keeps (V : Valuation τ sig (Elt Ideal)) (r : Ref sig .tc) (hr : r ∉ writes2) :
    StableHlo.after hostOps2 V (Proc.devRef .tc r) = V (Proc.devRef .tc r) :=
  StableHlo.after_of_writes_sub hostOps2 V (by
    simp only [hostOps2, List.Forall, StableHlo.nullary_writes, StableHlo.unary_writes, StableHlo.binary_writes,
      StableHlo.ternary_writes, StableHlo.reshape_writes]
    repeat' apply And.intro
    all_goals exact single_sub (by decide)) hr

private theorem host3_keeps (V : Valuation τ sig (Elt Ideal)) (r : Ref sig .tc) (hr : r ∉ writes3) :
    StableHlo.after hostOps3 V (Proc.devRef .tc r) = V (Proc.devRef .tc r) :=
  StableHlo.after_of_writes_sub hostOps3 V (by
    simp only [hostOps3, List.Forall, StableHlo.nullary_writes, StableHlo.unary_writes, StableHlo.binary_writes,
      StableHlo.ternary_writes, StableHlo.reshape_writes]
    repeat' apply And.intro
    all_goals exact single_sub (by decide)) hr

/-! ## A reference that no stretch so far writes and that is no array of a region so far holds the launch memory -/

private theorem W1_quiet (r : Ref sig .tc) (h0 : r ∉ writes0) :
    W1 m ρ c (Proc.devRef .tc r) = m ((c : Thread nD τ).loc r) :=
  host0_keeps (W0 m ρ c) r h0

private theorem W2_quiet (r : Ref sig .tc) (h0 : r ∉ writes0) (hs0 : ∀ w, Pipeline.arrRef spec0 w ≠ r) :
    W2 m ρ c (Proc.devRef .tc r) = m ((c : Thread nD τ).loc r) :=
  (W2_of_ne m ρ c r hs0).trans (W1_quiet m ρ c r h0)

private theorem W3_quiet (r : Ref sig .tc) (h0 : r ∉ writes0) (hs0 : ∀ w, Pipeline.arrRef spec0 w ≠ r) (h1 : r ∉ writes1) :
    W3 m ρ c (Proc.devRef .tc r) = m ((c : Thread nD τ).loc r) :=
  (host1_keeps (W2 m ρ c) r h1).trans (W2_quiet m ρ c r h0 hs0)

private theorem W4_quiet (r : Ref sig .tc) (h0 : r ∉ writes0) (hs0 : ∀ w, Pipeline.arrRef spec0 w ≠ r) (h1 : r ∉ writes1)
    (hs1 : ∀ w, Pipeline.arrRef spec1 w ≠ r) :
    W4 m ρ c (Proc.devRef .tc r) = m ((c : Thread nD τ).loc r) :=
  (W4_of_ne m ρ c r hs1).trans (W3_quiet m ρ c r h0 hs0 h1)

private theorem W5_quiet (r : Ref sig .tc) (h0 : r ∉ writes0) (hs0 : ∀ w, Pipeline.arrRef spec0 w ≠ r) (h1 : r ∉ writes1)
    (hs1 : ∀ w, Pipeline.arrRef spec1 w ≠ r) (h2 : r ∉ writes2) :
    W5 m ρ c (Proc.devRef .tc r) = m ((c : Thread nD τ).loc r) :=
  (host2_keeps (W4 m ρ c) r h2).trans (W4_quiet m ρ c r h0 hs0 h1 hs1)

private theorem W6_quiet (r : Ref sig .tc) (h0 : r ∉ writes0) (hs0 : ∀ w, Pipeline.arrRef spec0 w ≠ r) (h1 : r ∉ writes1)
    (hs1 : ∀ w, Pipeline.arrRef spec1 w ≠ r) (h2 : r ∉ writes2) (hs2 : ∀ w, Pipeline.arrRef spec2 w ≠ r) :
    W6 m ρ c (Proc.devRef .tc r) = m ((c : Thread nD τ).loc r) :=
  (W6_of_ne m ρ c r hs2).trans (W5_quiet m ρ c r h0 hs0 h1 hs1 h2)

private theorem W7_quiet (r : Ref sig .tc) (h0 : r ∉ writes0) (hs0 : ∀ w, Pipeline.arrRef spec0 w ≠ r) (h1 : r ∉ writes1)
    (hs1 : ∀ w, Pipeline.arrRef spec1 w ≠ r) (h2 : r ∉ writes2) (hs2 : ∀ w, Pipeline.arrRef spec2 w ≠ r) (h3 : r ∉ writes3) :
    W7 m ρ c (Proc.devRef .tc r) = m ((c : Thread nD τ).loc r) :=
  (host3_keeps (W6 m ρ c) r h3).trans (W6_quiet m ρ c r h0 hs0 h1 hs1 h2 hs2)

/-- An [N] array cast to a [1, N] row reads, at (u, d), the operand at d, whatever the unit coordinate u. -/
private theorem shapeCast_row_apply {α : Type} {N : Nat} (x : (⟨1, ![N]⟩ : Shape).Idx → α)
    (h : (⟨1, ![N]⟩ : Shape).ShapeCasts ⟨2, ![1, N]⟩) (u : Fin 1) (d : Fin N) :
    shapeCast ⟨2, ![1, N]⟩ x h (ix2 u d) = x (ix1 d) :=
  shapeCast_apply x h _ _ (by
    have hu : u.val = 0 := by omega
    rw [Shape.rowMajor_val_two, Shape.rowMajor_val_one]
    show d.val = u.val * N + d.val
    rw [hu, Nat.zero_mul, Nat.zero_add])

/-- A scalar laid over any shape reads the scalar everywhere. -/
private theorem broadcastInDim_scalar_apply' {T : Shape} {α : Type} (h : (⟨0, ![]⟩ : Shape).BroadcastsInDim T ![])
    (x : (⟨0, ![]⟩ : Shape).Idx → α) (j : T.Idx) : broadcastInDim T ![] h x j = x (fun a => a.elim0) :=
  broadcastInDim_apply ![] h x j (fun a => a.elim0) (fun a => a.elim0)

/-- An [M, 1] column laid along the columns of an [M, N] array reads, at j, the column's entry of j's row. -/
private theorem broadcastInDim_a1_ab_apply {α : Type} {M N : Nat}
    (h : (⟨2, ![M, 1]⟩ : Shape).BroadcastsInDim ⟨2, ![M, N]⟩ ![0, 1]) (v : (⟨2, ![M, 1]⟩ : Shape).Idx → α)
    (j : (⟨2, ![M, N]⟩ : Shape).Idx) :
    broadcastInDim ⟨2, ![M, N]⟩ ![0, 1] h v j = v (ix2 (j 0) (0 : Fin 1)) := by
  refine broadcastInDim_apply ![0, 1] h v j (ix2 (j 0) (0 : Fin 1)) fun a => ?_
  match a with
  | ⟨0, _⟩ =>
    show (j 0).val = if M = 1 then 0 else (j 0).val
    split
    · have hj : (j 0).val < M := (j 0).isLt
      omega
    · rfl
  | ⟨1, _⟩ => rfl

/-- Sums over counts, a count below the float one read as one, at an index: the quotient's divisor at j is the larger of
    the count of j's row and one. -/
private theorem div_bcast_max_apply (s : FVec Ideal S256x128 .f32) (n : FVec Ideal S256x1 .f32) (j : S256x128.Idx) :
    Host.divf (F := Ideal) (φ := .f32) s (broadcastInDim S256x128 ![0, 1] bcast_S256x1_S256x128_0_1
      (maximumf (F := Ideal) (φ := .f32) n
        (broadcastInDim S256x1 ![] bcast_S_S256x1 (constant (F := Ideal) S_ .f32 0x3F800000#32)))) j
    = Ideal.div (s j) (max (n (ix2 (j 0) (0 : Fin 1))) Cert.Spec.one) := by
  show Ideal.div (s j) _ = _
  rw [broadcastInDim_a1_ab_apply, maximumf_apply, broadcastInDim_scalar_apply', constant_apply]

/-! ## The bias rows and the id column, as casts of what the previous boundary holds -/

private theorem V3_v15_eq : (V3 m ρ c main_v15 : S1x128.Idx → EReal)
    = shapeCast S1x128 (W2 m ρ c (Proc.devRef .tc main_arg3) : S128.Idx → EReal) shapeCasts_S128_S1x128 := by
  show StableHlo.after hostOps1 (W2 m ρ c) (Proc.devRef .tc main_v15) = _
  after_results
  rfl

private theorem V5_v30_eq : (V5 m ρ c main_v30 : S1x128.Idx → EReal)
    = shapeCast S1x128 (W4 m ρ c (Proc.devRef .tc main_arg5) : S128.Idx → EReal) shapeCasts_S128_S1x128 := by
  show StableHlo.after hostOps2 (W4 m ρ c) (Proc.devRef .tc main_v30) = _
  after_results
  rfl

private theorem V7_v36_eq : (V7 m ρ c main_v36 : S1x128.Idx → EReal)
    = shapeCast S1x128 (W6 m ρ c (Proc.devRef .tc main_arg7) : S128.Idx → EReal) shapeCasts_S128_S1x128 := by
  show StableHlo.after hostOps3 (W6 m ρ c) (Proc.devRef .tc main_v36) = _
  after_results
  rfl

private theorem V7_v37_eq : (V7 m ρ c main_v37 : S1x128.Idx → EReal)
    = shapeCast S1x128 (W6 m ρ c (Proc.devRef .tc main_arg9) : S128.Idx → EReal) shapeCasts_S128_S1x128 := by
  show StableHlo.after hostOps3 (W6 m ρ c) (Proc.devRef .tc main_v37) = _
  after_results
  rfl

private theorem V7_v38_eq : (V7 m ρ c main_v38 : S1x128.Idx → EReal)
    = shapeCast S1x128 (W6 m ρ c (Proc.devRef .tc main_arg11) : S128.Idx → EReal) shapeCasts_S128_S1x128 := by
  show StableHlo.after hostOps3 (W6 m ρ c) (Proc.devRef .tc main_v38) = _
  after_results
  rfl

private theorem V7_v39_eq : (V7 m ρ c main_v39 : S1x128.Idx → EReal)
    = shapeCast S1x128 (W6 m ρ c (Proc.devRef .tc main_arg13) : S128.Idx → EReal) shapeCasts_S128_S1x128 := by
  show StableHlo.after hostOps3 (W6 m ρ c) (Proc.devRef .tc main_v39) = _
  after_results
  rfl

/-- The first stretch writes the id column: the cast of the launch memory's ids. -/
private theorem W1_v0_eq : (W1 m ρ c (Proc.devRef .tc main_v0) : S100000x1.Idx → BitVec 32)
    = shapeCast S100000x1 (m ((c : Thread nD τ).loc main_arg16) : S100000.Idx → BitVec 32) shapeCasts_S100000_S100000x1 := by
  show StableHlo.after hostOps0 (W0 m ρ c) (Proc.devRef .tc main_v0) = _
  after_results
  rfl

/-- Regions 0 and 1 and the second and third stretches leave the id column alone. -/
private theorem W5_v0_keep : W5 m ρ c (Proc.devRef .tc main_v0) = W1 m ρ c (Proc.devRef .tc main_v0) :=
  (host2_keeps (W4 m ρ c) main_v0 (by decide)).trans ((W4_of_ne m ρ c main_v0 (by decide)).trans
    ((host1_keeps (W2 m ρ c) main_v0 (by decide)).trans (W2_of_ne m ρ c main_v0 (by decide))))

/-- The fourth stretch does not write the id column, and region 2 only reads it (its input window 2). -/
private theorem W7_v0_keep : W7 m ρ c (Proc.devRef .tc main_v0) = W5 m ρ c (Proc.devRef .tc main_v0) :=
  (host3_keeps (W6 m ρ c) main_v0 (by decide)).trans
    ((W6_arr m ρ c 2).trans (((dat2 (V5 m ρ) c).arrAt_in 2 rfl _).trans (A_eq2 (V5 m ρ) c 2)))

/-! ## Region 0's entry -/

theorem V1_arg0 : V1 m ρ c main_arg0 = (m ((c : Thread nD τ).loc main_arg0)) := by
  exact W1_quiet m ρ c main_arg0 (by decide)
theorem V1_arg2 : V1 m ρ c main_arg2 = (m ((c : Thread nD τ).loc main_arg2)) := by
  exact W1_quiet m ρ c main_arg2 (by decide)

/-! ## Region 1's entry: the first aggregation of region 0's output, the first bias as a row, the second weight -/

theorem V3_v14 : V3 m ρ c main_v14 = Cert.Adj.adj (m ((c : Thread nD τ).loc main_arg1)) (m ((c : Thread nD τ).loc main_arg14)) (m ((c : Thread nD τ).loc main_arg15)) (V2 m ρ c main_v1) := by
  -- the first aggregation is the sixteenth operation of the second stretch; its operands are region 0's output, the
  -- edge sources, weights and destinations, which nothing has written since the launch
  show StableHlo.after hostOps1 (W2 m ρ c) (Proc.devRef .tc main_v14) = _
  after_results
  rw [W2_quiet m ρ c main_arg1 (by decide) (by decide), W2_quiet m ρ c main_arg14 (by decide) (by decide),
    W2_quiet m ρ c main_arg15 (by decide) (by decide)]
  rfl
theorem V3_v15 (d : Fin 128) : (V3 m ρ c main_v15 : S1x128.Idx → EReal) (ix2 (0 : Fin 1) d) = ((m ((c : Thread nD τ).loc main_arg3)) : S128.Idx → EReal) (ix1 d) := by
  rw [V3_v15_eq, W2_quiet m ρ c main_arg3 (by decide) (by decide)]
  exact shapeCast_row_apply _ _ _ _
theorem V3_arg4 : V3 m ρ c main_arg4 = (m ((c : Thread nD τ).loc main_arg4)) := by
  exact W3_quiet m ρ c main_arg4 (by decide) (by decide) (by decide)

/-! ## Region 2's entry: the second aggregation of region 1's output, the second bias as a row, the ids as a column -/

theorem V5_v29 : V5 m ρ c main_v29 = Cert.Adj.adj (m ((c : Thread nD τ).loc main_arg1)) (m ((c : Thread nD τ).loc main_arg14)) (m ((c : Thread nD τ).loc main_arg15)) (V4 m ρ c main_v16) := by
  -- the second aggregation is the sixteenth operation of the third stretch, over region 1's output
  show StableHlo.after hostOps2 (W4 m ρ c) (Proc.devRef .tc main_v29) = _
  after_results
  rw [W4_quiet m ρ c main_arg1 (by decide) (by decide) (by decide) (by decide),
    W4_quiet m ρ c main_arg14 (by decide) (by decide) (by decide) (by decide),
    W4_quiet m ρ c main_arg15 (by decide) (by decide) (by decide) (by decide)]
  rfl
theorem V5_v30 (d : Fin 128) : (V5 m ρ c main_v30 : S1x128.Idx → EReal) (ix2 (0 : Fin 1) d) = ((m ((c : Thread nD τ).loc main_arg5)) : S128.Idx → EReal) (ix1 d) := by
  rw [V5_v30_eq, W4_quiet m ρ c main_arg5 (by decide) (by decide) (by decide) (by decide)]
  exact shapeCast_row_apply _ _ _ _
theorem V5_v0 (r : Fin 100000) : (V5 m ρ c main_v0 : S100000x1.Idx → BitVec 32) (ix2 r (0 : Fin 1)) = ((m ((c : Thread nD τ).loc main_arg16)) : S100000.Idx → BitVec 32) (ix1 r) := by
  exact (congrFun ((W5_v0_keep m ρ c).trans (W1_v0_eq m ρ c)) (ix2 r (0 : Fin 1))).trans
    (Cert.Lib.shapeCast_a_a1_apply _ _ r (0 : Fin 1))

/-! ## Region 3's entry: the ids as a column, the per-graph means, the four weights, the four biases as rows -/

theorem V7_v0 (r : Fin 100000) : (V7 m ρ c main_v0 : S100000x1.Idx → BitVec 32) (ix2 r (0 : Fin 1)) = ((m ((c : Thread nD τ).loc main_arg16)) : S100000.Idx → BitVec 32) (ix1 r) := by
  exact (congrFun (W7_v0_keep m ρ c) (ix2 r (0 : Fin 1))).trans (V5_v0 m ρ c r)
/-- The means: region 2's sums over its counts, a count below one read as one. -/
theorem V7_v35 : V7 m ρ c main_v35 = fun j : S256x128.Idx =>
    Ideal.div ((V6 m ρ c main_v31_0 : S256x128.Idx → EReal) j)
      (max ((V6 m ρ c main_v31_1 : S256x1.Idx → EReal) (ix2 (j 0) (0 : Fin 1))) Cert.Spec.one) := by
  -- the quotient is the fifth operation of the fourth stretch; its operands are region 2's two outputs
  show StableHlo.after hostOps3 (W6 m ρ c) (Proc.devRef .tc main_v35) = _
  after_results
  funext j
  exact div_bcast_max_apply _ _ j
theorem V7_arg6 : V7 m ρ c main_arg6 = (m ((c : Thread nD τ).loc main_arg6)) := by
  exact W7_quiet m ρ c main_arg6 (by decide) (by decide) (by decide) (by decide) (by decide) (by decide) (by decide)
theorem V7_arg8 : V7 m ρ c main_arg8 = (m ((c : Thread nD τ).loc main_arg8)) := by
  exact W7_quiet m ρ c main_arg8 (by decide) (by decide) (by decide) (by decide) (by decide) (by decide) (by decide)
theorem V7_arg10 : V7 m ρ c main_arg10 = (m ((c : Thread nD τ).loc main_arg10)) := by
  exact W7_quiet m ρ c main_arg10 (by decide) (by decide) (by decide) (by decide) (by decide) (by decide) (by decide)
theorem V7_arg12 : V7 m ρ c main_arg12 = (m ((c : Thread nD τ).loc main_arg12)) := by
  exact W7_quiet m ρ c main_arg12 (by decide) (by decide) (by decide) (by decide) (by decide) (by decide) (by decide)
theorem V7_v36 (d : Fin 128) : (V7 m ρ c main_v36 : S1x128.Idx → EReal) (ix2 (0 : Fin 1) d) = ((m ((c : Thread nD τ).loc main_arg7)) : S128.Idx → EReal) (ix1 d) := by
  rw [V7_v36_eq, W6_quiet m ρ c main_arg7 (by decide) (by decide) (by decide) (by decide) (by decide) (by decide)]
  exact shapeCast_row_apply _ _ _ _
theorem V7_v37 (d : Fin 128) : (V7 m ρ c main_v37 : S1x128.Idx → EReal) (ix2 (0 : Fin 1) d) = ((m ((c : Thread nD τ).loc main_arg9)) : S128.Idx → EReal) (ix1 d) := by
  rw [V7_v37_eq, W6_quiet m ρ c main_arg9 (by decide) (by decide) (by decide) (by decide) (by decide) (by decide)]
  exact shapeCast_row_apply _ _ _ _
theorem V7_v38 (d : Fin 128) : (V7 m ρ c main_v38 : S1x128.Idx → EReal) (ix2 (0 : Fin 1) d) = ((m ((c : Thread nD τ).loc main_arg11)) : S128.Idx → EReal) (ix1 d) := by
  rw [V7_v38_eq, W6_quiet m ρ c main_arg11 (by decide) (by decide) (by decide) (by decide) (by decide) (by decide)]
  exact shapeCast_row_apply _ _ _ _
theorem V7_v39 (d : Fin 128) : (V7 m ρ c main_v39 : S1x128.Idx → EReal) (ix2 (0 : Fin 1) d) = ((m ((c : Thread nD τ).loc main_arg13)) : S128.Idx → EReal) (ix1 d) := by
  rw [V7_v39_eq, W6_quiet m ρ c main_arg13 (by decide) (by decide) (by decide) (by decide) (by decide) (by decide)]
  exact shapeCast_row_apply _ _ _ _

end Cert.KernelIdeal.HostReads

end
-- ==== Proof.R0Value.lean ====
/- Region 0 (the first feature projection): the array it leaves is feat · W₁ of the arrays it was entered with. -/
import proofs.«409535_j90245852823923_1_alg».proof.Proof.Gen.KernelIdeal.Frame
import proofs.«409535_j90245852823923_1_alg».proof.Proof.Spec
import proofs.«409535_j90245852823923_1_alg».proof.Proof.LibDotSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R0Value

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The offset vector (0, 0) is the constant-zero offset: every access of the body starts at the block's origin. -/
private theorem zero_offsets : (![0, 0] : Fin 2 → Nat) = fun _ => 0 := funext fun a => by fin_cases a <;> rfl

/-- The body's payload at entry (r, c) of a block: the narrowing to bf16 is the identity on extended reals, and the
    product into the zero accumulator is the sum over the contracted coordinate k of x0 (r, k) · x1 (k, c). -/
private theorem block_product_apply (x0 : Vec Ideal S2000x128 .f32) (x1 : Vec Ideal S128x128 .f32)
    (r : Fin 2000) (c : Fin 128) :
    k0_pay1 x0 x1 (ix2 r c) = ∑ k : Fin 128, x0 (ix2 r k) * x1 (ix2 k c) := by
  unfold k0_pay1
  refine (Cert.Lib.matmul_rc_apply dot_S2000x128_S128x128_S2000x128_1_0_0_1_n_n rfl rfl rfl rfl rfl rfl none _ _ r c).trans ?_
  rfl

/-- The three index maps over the 50 points: the feature window and the output window are at block (t, 0), the
    weight window at block (0, 0). -/
private theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the two entry arrays. Entry (r, c) of the block sits at
    row 2000 t + r, column c of the output; the feature block's entry (r, k) is the feature array's entry
    (2000 t + r, k) (a block coordinate is index × size + the coordinate inside the block), and the weight block is
    the whole weight array. So both sides are the same sum over k. -/
private theorem written_block (c : Dev nD) (t : Fin cfg0.N) :
    (dat0 (F := Ideal) V c).flushed 2 t
      = ((cfg0.win 2).blk t).view.read (Elt Ideal) (Cert.Spec.mm (V c main_arg0) (V c main_arg2)) := by
  show (cfg0.win 2).cut (grid0.coords t) ((dat0 V c).after 2 t) = _
  rw [after0_2]
  unfold out0_2
  rw [View.canon_unit_zero zero_offsets]
  simp only [View.ld_unit_zero (S := S2000x128) zero_offsets, View.ld_unit_zero (S := S128x128) zero_offsets]
  obtain ⟨e00, e01, e10, e11, e20, e21⟩ := block_indices t
  have ht : t.val < 50 := t.isLt
  funext j
  obtain ⟨r, cc, rfl⟩ : ∃ (r : Fin 2000) (cc : Fin 128), j = ix2 r cc := ⟨j 0, j 1, eq_ix2 j⟩
  show k0_pay1 (iblk0 V c 0 t) (iblk0 V c 1 t) (ix2 r cc)
    = Cert.Spec.mm (V c main_arg0) (V c main_arg2) (((cfg0.win 2).blk t).view.emb (ix2 r cc))
  have hr : r.val < 2000 := r.isLt
  have hc : cc.val < 128 := cc.isLt
  -- the output block's entry (r, c) is the array's entry (2000 t + r, c)
  have hout : ((cfg0.win 2).blk t).view.emb (ix2 r cc) = ix2 (⟨t.val * 2000 + r.val, by omega⟩ : Fin 100000) cc := by
    funext a; apply Fin.ext
    match a with
    | ⟨0, _⟩ => show win0_2.index t (0 : Fin 2) * 2000 + 1 * r.val = t.val * 2000 + r.val; omega
    | ⟨1, _⟩ => show win0_2.index t (1 : Fin 2) * 128 + 1 * cc.val = cc.val; omega
  rw [hout, Cert.Spec.mm_apply, block_product_apply]
  refine Finset.sum_congr rfl fun k _ => ?_
  have hk : k.val < 128 := k.isLt
  -- the feature block's entry (r, k) is the feature array's entry (2000 t + r, k)
  have hx : ((cfg0.win 0).blk t).view.emb (ix2 r k) = ix2 (⟨t.val * 2000 + r.val, by omega⟩ : Fin 100000) k := by
    funext a; apply Fin.ext
    match a with
    | ⟨0, _⟩ => show win0_0.index t (0 : Fin 2) * 2000 + 1 * r.val = t.val * 2000 + r.val; omega
    | ⟨1, _⟩ => show win0_0.index t (1 : Fin 2) * 128 + 1 * k.val = k.val; omega
  -- the weight block's entry (k, c) is the weight array's entry (k, c)
  have hw : ((cfg0.win 1).blk t).view.emb (ix2 k cc) = ix2 k cc := by
    funext a; apply Fin.ext
    match a with
    | ⟨0, _⟩ => show win0_1.index t (0 : Fin 2) * 128 + 1 * k.val = k.val; omega
    | ⟨1, _⟩ => show win0_1.index t (1 : Fin 2) * 128 + 1 * cc.val = cc.val; omega
  have hx' : iblk0 V c 0 t (ix2 r k) = V c main_arg0 (ix2 (⟨t.val * 2000 + r.val, by omega⟩ : Fin 100000) k) := by
    show V c main_arg0 (((cfg0.win 0).blk t).view.emb (ix2 r k)) = _
    rw [hx]
  have hw' : iblk0 V c 1 t (ix2 k cc) = V c main_arg2 (ix2 k cc) := by
    show V c main_arg2 (((cfg0.win 1).blk t).view.emb (ix2 k cc)) = _
    rw [hw]
  rw [hx', hw']

/-- An index of the output array is in point t's block iff each coordinate is in the block's range on its axis. -/
private theorem mem_block (t : Fin cfg0.N) (i : S100000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v1).slice (win0_2.rect t)).set ↔ _
  rw [View.set_slice_whole, Rect.mem_set_unit]
  exact Iff.rfl

/-- The 50 blocks of 2000 rows cover the 100000 rows: entry (r, c) is in the block of point r / 2000. -/
private theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hlt : (i 0).val / 2000 < 50 := by omega
  obtain ⟨t, htv⟩ : ∃ t : Fin cfg0.N, t.val = (i 0).val / 2000 := ⟨⟨_, hlt⟩, rfl⟩
  obtain ⟨e00, e01, e10, e11, e20, e21⟩ := block_indices t
  refine ⟨t, flush0_2 t, ?_⟩
  rw [mem_block]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 128 ≤ (i 1).val ∧ (i 1).val < win0_2.index t (1 : Fin 2) * 128 + 128
    omega

/-- After the 50 points, the output array holds the product of the two input arrays: point t writes rows
    2000 t … 2000 t + 1999, each entry the sum over k of x (r, k) · w (k, c). -/
theorem final (c : Dev nD) :
    (dat0 (F := Ideal) V c).arrAt 2 cfg0.N = Cert.Spec.mm (V c main_arg0) (V c main_arg2) :=
  (dat0 (F := Ideal) V c).arrAt_eq_of_cover 2 _ (fun t _ => written_block V c t) covered

end Cert.KernelIdeal.R0Value

end
-- ==== Proof.R1Value.lean ====
/- Region 1 (bias, ReLU, second projection): the array it leaves is relu (s + b) · W₂ of the arrays it was entered with. -/
import proofs.«409535_j90245852823923_1_alg».proof.Proof.Gen.KernelIdeal.Frame
import proofs.«409535_j90245852823923_1_alg».proof.Proof.Spec
import proofs.«409535_j90245852823923_1_alg».proof.Proof.LibDotSum
import proofs.«409535_j90245852823923_1_alg».proof.Proof.LibDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R1Value

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The body's value at an entry of its block -/

/-- Entry (r, q) of what the body stores, from the three blocks it loads: the sum over k of
    max (x0 (r, k) + x1 (0, k)) 0 · x2 (k, q). The casts to the same shape are the identity, the one-row block is read
    at row 0 whatever r, the change of float format is the identity on the extended reals, and the product into the
    zero accumulator is the sum over the contracted coordinate. -/
theorem payload_apply (x0 : Vec Ideal S2000x128 .f32) (x1 : Vec Ideal S1x128 .f32) (x2 : Vec Ideal S128x128 .f32)
    (r : Fin 2000) (q : Fin 128) :
    k1_pay1 (F := Ideal) x0 x1 x2 (ix2 r q)
      = ∑ k : Fin 128, max (x0 (ix2 r k) + x1 (ix2 (0 : Fin 1) k)) Cert.Spec.zero * x2 (ix2 k q) := by
  unfold k1_pay1
  refine (Cert.Lib.matmul_rc_apply dot_S2000x128_S128x128_S2000x128_1_0_0_1_n_n rfl rfl rfl rfl rfl rfl none _ _ r q).trans ?_
  refine Finset.sum_congr rfl fun k _ => ?_
  rw [truncf_apply, truncf_apply, maximumf_apply, addf_apply, shapeCast_self, shapeCast_self, broadcastTo_1b_ab_apply, broadcast_apply]
  rfl

/-- The same entry as an entry of relu (A + b) · W: when row r of the first block is row R of A, the one-row block is
    the bias b, and column q of the third block is column q of W, entry (r, q) of what the body stores is entry (R, q)
    of relu (A + b) · W. Entry (R, q) depends on row R of A, on all of b and on column q of W only. -/
theorem payload_eq_spec (A : Cert.Spec.SND.Idx → EReal) (W : Cert.Spec.SDD.Idx → EReal) (b : Cert.Spec.SD.Idx → EReal)
    (x0 : Vec Ideal S2000x128 .f32) (x1 : Vec Ideal S1x128 .f32) (x2 : Vec Ideal S128x128 .f32)
    (r : Fin 2000) (q : Fin 128) (R : Fin 100000)
    (h0 : ∀ k : Fin 128, x0 (ix2 r k) = A (ix2 R k))
    (h1 : ∀ k : Fin 128, x1 (ix2 (0 : Fin 1) k) = b (ix1 k))
    (h2 : ∀ k : Fin 128, x2 (ix2 k q) = W (ix2 k q)) :
    k1_pay1 (F := Ideal) x0 x1 x2 (ix2 r q) = Cert.Spec.mm (Cert.Spec.relu (Cert.Spec.addRow A b)) W (ix2 R q) := by
  rw [payload_apply, Cert.Spec.mm_apply]
  refine Finset.sum_congr rfl fun k _ => ?_
  rw [Cert.Spec.relu_apply, Cert.Spec.addRow_apply, h0, h1, h2]

/-! ## Where each block sits in its array -/

/-- At point t the output's block and the first input's block are block (t, 0) of their [100000, 128] arrays (rows
    2000 t … 2000 t + 1999, all 128 columns); the bias row's and the weight's blocks are block (0, 0), the whole array. -/
theorem block_indices : ∀ t : Fin cfg1.N, win1_3.index t (0 : Fin 2) = t.val ∧ win1_3.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- The body loads and stores its whole buffers: the offsets of its accesses are zero on both axes. -/
theorem zero_offsets : (![0, 0] : Fin 2 → Nat) = fun _ => 0 := funext fun a => by fin_cases a <;> rfl

/-! ## What a point writes back -/

/-- What point t writes back is block t of relu (s + b) · w. Entry (r, q) of the block is entry (2000 t + r, q) of the
    array (a block's coordinate is its index times its size plus the coordinate inside it); the first input's block
    holds rows 2000 t … of s at the same place, the other two blocks are their whole arrays, and the one-row array is
    the bias. -/
theorem written_back_eq (c : Dev nD) (b : Cert.Spec.SD.Idx → EReal)
    (hb : ∀ d : Fin 128, V c main_v15 (ix2 (0 : Fin 1) d) = b (ix1 d)) (t : Fin cfg1.N) :
    (dat1 (F := Ideal) V c).flushed 3 t = ((cfg1.win 3).blk t).view.read (Elt Ideal)
      (Cert.Spec.mm (Cert.Spec.relu (Cert.Spec.addRow (V c main_v14) b)) (V c main_arg4)) := by
  show (cfg1.win 3).cut (grid1.coords t) ((dat1 V c).after 3 t) = _
  rw [after1_3]
  unfold out1_3
  rw [View.canon_unit_zero zero_offsets]
  simp only [View.ld_unit_zero (S := S2000x128) zero_offsets, View.ld_unit_zero (S := S1x128) zero_offsets,
    View.ld_unit_zero (S := S128x128) zero_offsets]
  obtain ⟨e0, e1, e2, e3, e4, e5, e6, e7⟩ := block_indices t
  have ht : t.val < 50 := t.isLt
  funext j
  obtain ⟨r, q, rfl⟩ : ∃ (r : Fin 2000) (q : Fin 128), j = ix2 r q := ⟨j 0, j 1, eq_ix2 j⟩
  have hr : r.val < 2000 := r.isLt
  have hq : q.val < 128 := q.isLt
  -- entry (r, q) of the output's block is entry (2000 t + r, q) of the array
  have hemb : ((cfg1.win 3).blk t).view.emb (ix2 r q) = ix2 (⟨t.val * 2000 + r.val, by omega⟩ : Fin 100000) q := by
    funext a; apply Fin.ext
    match a with
    | ⟨0, _⟩ => show win1_3.index t (0 : Fin 2) * 2000 + 1 * r.val = t.val * 2000 + r.val; omega
    | ⟨1, _⟩ => show win1_3.index t (1 : Fin 2) * 128 + 1 * q.val = q.val; omega
  show k1_pay1 (F := Ideal) (iblk1 V c 0 t) (iblk1 V c 1 t) (iblk1 V c 2 t) (ix2 r q)
    = Cert.Spec.mm (Cert.Spec.relu (Cert.Spec.addRow (V c main_v14) b)) (V c main_arg4) (((cfg1.win 3).blk t).view.emb (ix2 r q))
  rw [hemb]
  refine payload_eq_spec (V c main_v14) (V c main_arg4) b (iblk1 V c 0 t) (iblk1 V c 1 t) (iblk1 V c 2 t) r q
    (⟨t.val * 2000 + r.val, by omega⟩ : Fin 100000) ?_ ?_ ?_
  · -- row r of the first input's block is row 2000 t + r of s
    intro k
    have hk : k.val < 128 := k.isLt
    show V c main_v14 (((cfg1.win 0).blk t).view.emb (ix2 r k)) = V c main_v14 (ix2 (⟨t.val * 2000 + r.val, by omega⟩ : Fin 100000) k)
    refine congrArg (V c main_v14) ?_
    funext a; apply Fin.ext
    match a with
    | ⟨0, _⟩ => show win1_0.index t (0 : Fin 2) * 2000 + 1 * r.val = t.val * 2000 + r.val; omega
    | ⟨1, _⟩ => show win1_0.index t (1 : Fin 2) * 128 + 1 * k.val = k.val; omega
  · -- the one-row block is the whole [1, 128] array, which is the bias
    intro k
    have hk : k.val < 128 := k.isLt
    refine Eq.trans ?_ (hb k)
    show V c main_v15 (((cfg1.win 1).blk t).view.emb (ix2 (0 : Fin 1) k)) = V c main_v15 (ix2 (0 : Fin 1) k)
    refine congrArg (V c main_v15) ?_
    funext a; apply Fin.ext
    match a with
    | ⟨0, _⟩ => show win1_1.index t (0 : Fin 2) * 1 + 1 * 0 = 0; omega
    | ⟨1, _⟩ => show win1_1.index t (1 : Fin 2) * 128 + 1 * k.val = k.val; omega
  · -- the third block is the whole weight
    intro k
    have hk : k.val < 128 := k.isLt
    show V c main_arg4 (((cfg1.win 2).blk t).view.emb (ix2 k q)) = V c main_arg4 (ix2 k q)
    refine congrArg (V c main_arg4) ?_
    funext a; apply Fin.ext
    match a with
    | ⟨0, _⟩ => show win1_2.index t (0 : Fin 2) * 128 + 1 * k.val = k.val; omega
    | ⟨1, _⟩ => show win1_2.index t (1 : Fin 2) * 128 + 1 * q.val = q.val; omega

/-! ## The blocks cover the array -/

/-- An index of the output array is in point t's block iff each coordinate is in the block's range on its axis. -/
theorem mem_block (t : Fin cfg1.N) (i : S100000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v16).slice (win1_3.rect t)).set ↔ _
  rw [View.set_slice_whole, Rect.mem_set_unit]
  exact Iff.rfl

/-- Every index of the output array is in some point's block: row R is in the block of point R / 2000, since
    2000 (R / 2000) ≤ R < 2000 (R / 2000) + 2000, and every block holds all 128 columns. -/
theorem blocks_cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hT : (i 0).val / 2000 < 50 := by omega
  obtain ⟨e0, e1, -⟩ := block_indices (⟨(i 0).val / 2000, hT⟩ : Fin cfg1.N)
  have e0' : win1_3.index (⟨(i 0).val / 2000, hT⟩ : Fin cfg1.N) (0 : Fin 2) = (i 0).val / 2000 := e0
  refine ⟨⟨(i 0).val / 2000, hT⟩, flush1_3 _, ?_⟩
  rw [mem_block]
  intro a
  match a with
  | ⟨0, _⟩ =>
    show win1_3.index (⟨(i 0).val / 2000, hT⟩ : Fin cfg1.N) (0 : Fin 2) * 2000 ≤ (i 0).val
      ∧ (i 0).val < win1_3.index (⟨(i 0).val / 2000, hT⟩ : Fin cfg1.N) (0 : Fin 2) * 2000 + 2000
    omega
  | ⟨1, _⟩ =>
    show win1_3.index (⟨(i 0).val / 2000, hT⟩ : Fin cfg1.N) (1 : Fin 2) * 128 ≤ (i 1).val
      ∧ (i 1).val < win1_3.index (⟨(i 0).val / 2000, hT⟩ : Fin cfg1.N) (1 : Fin 2) * 128 + 128
    omega

/-! ## The array after the region -/

/-- After the 50 points, the output array holds relu (s + b) · w: `s` the first input array, `b` the bias (the
    [1, 128] array the region reads is its row), `w` the weight. -/
theorem final (c : Dev nD) (b : Cert.Spec.SD.Idx → EReal)
    (hb : ∀ d : Fin 128, V c main_v15 (ix2 (0 : Fin 1) d) = b (ix1 d)) :
    (dat1 (F := Ideal) V c).arrAt 3 cfg1.N
      = Cert.Spec.mm (Cert.Spec.relu (Cert.Spec.addRow (V c main_v14) b)) (V c main_arg4) :=
  -- every point writes back its block of the one whole-array function, and the blocks cover the array
  (dat1 (F := Ideal) V c).arrAt_eq_of_cover 3 _ (fun t _ => written_back_eq V c b hb t) blocks_cover

end Cert.KernelIdeal.R1Value

end
-- ==== Proof.R2Value.lean ====
/- Region 2 (the per-graph sums and counts, accumulated over the 50 points): what its two output arrays hold at the end. -/
import proofs.«409535_j90245852823923_1_alg».proof.Proof.Gen.KernelIdeal.Frame
import proofs.«409535_j90245852823923_1_alg».proof.Proof.Spec
import proofs.«409535_j90245852823923_1_alg».proof.Proof.LibDotSum
import proofs.«409535_j90245852823923_1_alg».proof.Proof.LibDense
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost
import Idealize.ShloMosaic.Lib.Tactic

set_option maxRecDepth 16384

noncomputable section

namespace Cert.KernelIdeal.R2Value

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

section pieces
variable {F : FTy → Type} [FloatOps F]

theorem hz : (![0, 0] : Fin 2 → Nat) = fun _ => 0 := funext fun a => by fin_cases a <;> rfl

/-- After a point that is not the first, the sums' buffer holds the update of what it held before. -/
theorem out_B_3 (c : Dev nD) (i : grid2.Coords) (a1 : Memref sig .tc .vmem S2000x128 .f32) (h1 : a1.IsWhole)
    (a2 : Memref sig .tc .vmem S1x128 .f32) (h2 : a2.IsWhole) (a3 : Memref sig .tc .vmem S2000x1 .i32) (h3 : a3.IsWhole)
    (a4 : Memref sig .tc .vmem S256x128 .f32) (h4 : a4.IsWhole) (a5 : Memref sig .tc .vmem S256x1 .f32) (h5 : a5.IsWhole)
    (hc : ¬cond2_0 i) (x0 : Vec F S2000x128 .f32) (x1 : Vec F S1x128 .f32) (x2 : Vec F S2000x1 .i32)
    (xo3 : Vec F S256x128 .f32) (xo4 : Vec F S256x1 .f32) :
    out2_B_3 c i a1 h1 a2 h2 a3 h3 a4 h4 a5 h5 hc x0 x1 x2 xo3 xo4 = k2_pay4 x0 x1 x2 xo3 := by
  unfold out2_B_3
  rw [View.read_writes_eq_canon _ _ _ (cover2_B_3 c i a1 h1 a2 h2 a3 h3 a4 h4 a5 h5 hc x0 x1 x2 xo3 xo4)]
  unfold kernelRun2_B
  dsimp only
  sl_unfold_words
  rw [View.canon_unit_zero hz]
  simp only [View.readAt_eq_ld, h1.read_unread, h2.read_unread, h3.read_unread, h4.read_unread, h5.read_unread,
    View.ld_unit_zero (S := S2000x128) hz, View.ld_unit_zero (S := S1x128) hz, View.ld_unit_zero (S := S2000x1) hz,
    View.ld_unit_zero (S := S256x128) hz, View.ld_unit_zero (S := S256x1) hz]

/-- Likewise the counts' buffer. -/
theorem out_B_4 (c : Dev nD) (i : grid2.Coords) (a1 : Memref sig .tc .vmem S2000x128 .f32) (h1 : a1.IsWhole)
    (a2 : Memref sig .tc .vmem S1x128 .f32) (h2 : a2.IsWhole) (a3 : Memref sig .tc .vmem S2000x1 .i32) (h3 : a3.IsWhole)
    (a4 : Memref sig .tc .vmem S256x128 .f32) (h4 : a4.IsWhole) (a5 : Memref sig .tc .vmem S256x1 .f32) (h5 : a5.IsWhole)
    (hc : ¬cond2_0 i) (x0 : Vec F S2000x128 .f32) (x1 : Vec F S1x128 .f32) (x2 : Vec F S2000x1 .i32)
    (xo3 : Vec F S256x128 .f32) (xo4 : Vec F S256x1 .f32) :
    out2_B_4 c i a1 h1 a2 h2 a3 h3 a4 h4 a5 h5 hc x0 x1 x2 xo3 xo4 = k2_pay5 x2 xo4 := by
  unfold out2_B_4
  rw [View.read_writes_eq_canon _ _ _ (cover2_B_4 c i a1 h1 a2 h2 a3 h3 a4 h4 a5 h5 hc x0 x1 x2 xo3 xo4)]
  unfold kernelRun2_B
  dsimp only
  sl_unfold_words
  rw [View.canon_unit_zero hz]
  simp only [View.readAt_eq_ld, h1.read_unread, h2.read_unread, h3.read_unread, h4.read_unread, h5.read_unread,
    View.ld_unit_zero (S := S2000x128) hz, View.ld_unit_zero (S := S1x128) hz, View.ld_unit_zero (S := S2000x1) hz,
    View.ld_unit_zero (S := S256x128) hz, View.ld_unit_zero (S := S256x1) hz]

/-- After the first point, the sums' buffer holds the update of the zero block. -/
theorem out_A_3 (c : Dev nD) (i : grid2.Coords) (a1 : Memref sig .tc .vmem S2000x128 .f32) (h1 : a1.IsWhole)
    (a2 : Memref sig .tc .vmem S1x128 .f32) (h2 : a2.IsWhole) (a3 : Memref sig .tc .vmem S2000x1 .i32) (h3 : a3.IsWhole)
    (a4 : Memref sig .tc .vmem S256x128 .f32) (h4 : a4.IsWhole) (a5 : Memref sig .tc .vmem S256x1 .f32) (h5 : a5.IsWhole)
    (hc : cond2_0 i) (x0 : Vec F S2000x128 .f32) (x1 : Vec F S1x128 .f32) (x2 : Vec F S2000x1 .i32) :
    out2_A_3 c i a1 h1 a2 h2 a3 h3 a4 h4 a5 h5 hc x0 x1 x2 = k2_pay4 x0 x1 x2 (k2_pay1 (F := F)) := by
  unfold out2_A_3
  rw [View.read_writes_eq_canon _ _ _ (cover2_A_3 c i a1 h1 a2 h2 a3 h3 a4 h4 a5 h5 hc x0 x1 x2)]
  unfold kernelRun2_A
  dsimp only
  sl_unfold_words
  rw [View.canon_cons_unit_zero (S := S256x128) hz, View.readCov_unit_zero (S := S256x128) _ hz]
  simp only [View.readAt_eq_ld, h1.read_unread, h2.read_unread, h3.read_unread, h4.read_unread, h5.read_unread,
    View.ld_unit_zero (S := S2000x128) hz, View.ld_unit_zero (S := S1x128) hz, View.ld_unit_zero (S := S2000x1) hz,
    View.ld_unit_zero (S := S256x128) hz, View.ld_unit_zero (S := S256x1) hz]

/-- Likewise the counts' buffer. -/
theorem out_A_4 (c : Dev nD) (i : grid2.Coords) (a1 : Memref sig .tc .vmem S2000x128 .f32) (h1 : a1.IsWhole)
    (a2 : Memref sig .tc .vmem S1x128 .f32) (h2 : a2.IsWhole) (a3 : Memref sig .tc .vmem S2000x1 .i32) (h3 : a3.IsWhole)
    (a4 : Memref sig .tc .vmem S256x128 .f32) (h4 : a4.IsWhole) (a5 : Memref sig .tc .vmem S256x1 .f32) (h5 : a5.IsWhole)
    (hc : cond2_0 i) (x0 : Vec F S2000x128 .f32) (x1 : Vec F S1x128 .f32) (x2 : Vec F S2000x1 .i32) :
    out2_A_4 c i a1 h1 a2 h2 a3 h3 a4 h4 a5 h5 hc x0 x1 x2 = k2_pay5 x2 (k2_pay2 (F := F)) := by
  unfold out2_A_4
  rw [View.read_writes_eq_canon _ _ _ (cover2_A_4 c i a1 h1 a2 h2 a3 h3 a4 h4 a5 h5 hc x0 x1 x2)]
  unfold kernelRun2_A
  dsimp only
  sl_unfold_words
  rw [View.canon_cons_unit_zero (S := S256x1) hz, View.readCov_unit_zero (S := S256x1) _ hz]
  simp only [View.readAt_eq_ld, h1.read_unread, h2.read_unread, h3.read_unread, h4.read_unread, h5.read_unread,
    View.ld_unit_zero (S := S2000x128) hz, View.ld_unit_zero (S := S1x128) hz, View.ld_unit_zero (S := S2000x1) hz,
    View.ld_unit_zero (S := S256x128) hz, View.ld_unit_zero (S := S256x1) hz]

end pieces

section payloads

open scoped BigOperators

/-- The equality test of two words, widened to a word and converted to a float, is the indicator of the equality. -/
theorem sitofp_cmpi_eq (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  by_cases h : a = b
  · have e : IntOp.cmpi .eq a b = 1#1 := by simp [IntOp.cmpi, h]
    rw [if_pos h, e, show ((1#1 : BitVec 1).setWidth 32).toInt = 1 from by decide]
    norm_num
  · have e : IntOp.cmpi .eq a b = 0#1 := by simp [IntOp.cmpi, beq_eq_false_iff_ne.mpr h]
    rw [if_neg h, e, show ((0#1 : BitVec 1).setWidth 32).toInt = 0 from by decide]
    norm_num

/-- The indicator block, transposed: entry (g, q) is 1 when row q's id is the word of g, else 0. -/
theorem onehot_apply (v9 : Vec Ideal S2000x1 .i32) (g : Fin 256) (q : Fin 2000) :
    k2_pay3 (F := Ideal) v9 (ix2 g q) = if v9 (ix2 q (0 : Fin 1)) = BitVec.ofNat 32 g.val then 1 else 0 := by
  have e1 : broadcastTo S2000x256 (shapeCast S2000x1 v9 shapeCasts_S2000x1_S2000x1) broadcasts_S2000x1_S2000x256 (ix2 q g)
      = v9 (ix2 q (0 : Fin 1)) := by
    rw [Cert.Lib.broadcastTo_a1_ab_apply, shapeCast_self]
  have e2 : broadcastTo S2000x256 (iota .tc S1x256 32 [1] iota_S1x256_d1_w32) broadcasts_S1x256_S2000x256 (ix2 q g)
      = BitVec.ofNat 32 g.val := by
    rw [broadcastTo_1b_ab_apply, iota_single_apply]
  unfold k2_pay3
  refine (truncf_apply (ψ := .bf16) _ bitsLt_bf16_f32 (ix2 g q)).trans ?_
  refine (transpose_ix2_apply (a := 2000) (b := 256) _ transposes_S2000x256_p1_0_S256x2000 g q).trans ?_
  refine (congrArg (fun w : BitVec 1 => (FloatOps.sitofp (F := Ideal) .f32 (w.setWidth 32) : EReal))
    (congrArg₂ (IntOp.cmpi .eq) e1 e2)).trans ?_
  exact sitofp_cmpi_eq _ _

/-- The sums' update: entry (g, d) is the old entry plus the sum over the tile's rows q of
    [id q = g] · (s (q, d) + b d). -/
theorem pay4_apply (v3 : Vec Ideal S2000x128 .f32) (v5 : Vec Ideal S1x128 .f32) (v9 : Vec Ideal S2000x1 .i32)
    (v21 : Vec Ideal S256x128 .f32) (g : Fin 256) (d : Fin 128) :
    k2_pay4 (F := Ideal) v3 v5 v9 v21 (ix2 g d) = v21 (ix2 g d) + ∑ q : Fin 2000,
      (if v9 (ix2 q (0 : Fin 1)) = BitVec.ofNat 32 g.val then (1 : EReal) else 0) * (v3 (ix2 q d) + v5 (ix2 (0 : Fin 1) d)) := by
  unfold k2_pay4
  refine (addf_apply _ _ _).trans ?_
  refine congrArg₂ (· + ·) (congrFun (shapeCast_self v21 shapeCasts_S256x128_S256x128) _) ?_
  refine (Cert.Lib.matmul_rc_apply (M := 256) (K := 2000) (N := 128) dot_S256x2000_S2000x128_S256x128_1_0_0_1_n_n
    rfl rfl rfl rfl rfl rfl none _ _ g d).trans ?_
  refine Finset.sum_congr rfl fun q _ => ?_
  refine congrArg₂ (· * ·) (onehot_apply v9 g q) ?_
  show shapeCast S2000x128 v3 shapeCasts_S2000x128_S2000x128 (ix2 q d)
    + broadcastTo S2000x128 (shapeCast S1x128 v5 shapeCasts_S1x128_S1x128) broadcasts_S1x128_S2000x128 (ix2 q d) = _
  rw [shapeCast_self, broadcastTo_1b_ab_apply, shapeCast_self]

/-- The counts' update: entry (g, 0) is the old entry plus the number of the tile's rows q with id q = g. -/
theorem pay5_apply (v9 : Vec Ideal S2000x1 .i32) (v26 : Vec Ideal S256x1 .f32) (g : Fin 256) (u : Fin 1) :
    k2_pay5 (F := Ideal) v9 v26 (ix2 g u) = v26 (ix2 g u) + ∑ q : Fin 2000,
      (if v9 (ix2 q (0 : Fin 1)) = BitVec.ofNat 32 g.val then (1 : EReal) else 0) := by
  unfold k2_pay5
  refine (addf_apply _ _ _).trans ?_
  refine congrArg₂ (· + ·) (congrFun (shapeCast_self v26 shapeCasts_S256x1_S256x1) _) ?_
  refine (Cert.Lib.matmul_rc_apply (M := 256) (K := 2000) (N := 1) dot_S256x2000_S2000x1_S256x1_1_0_0_1_n_n
    rfl rfl rfl rfl rfl rfl none _ _ g u).trans ?_
  refine Finset.sum_congr rfl fun q _ => ?_
  refine (congrArg₂ (· * ·) (onehot_apply v9 g q) (show (broadcast S2000x1 (Scalar.ofBits (F := Ideal) .bf16 0x3F80#16) : FVec Ideal S2000x1 .bf16) (ix2 q u) = (1 : EReal) from Ideal.ofBits_one_bf16)).trans ?_
  exact mul_one _

/-- The zero blocks read zero. -/
theorem pay1_apply (j : S256x128.Idx) : k2_pay1 (F := Ideal) j = (0 : EReal) := Ideal.ofBits_zero_f32
theorem pay2_apply (j : S256x1.Idx) : k2_pay2 (F := Ideal) j = (0 : EReal) := Ideal.ofBits_zero_f32

end payloads

section tiles

open scoped BigOperators

/-- Tile k's share of a sum over the 100000 rows: rows 2000 k, …, 2000 k + 1999 (nothing beyond the 50 tiles). -/
def tile (f : Fin 100000 → EReal) (k : ℕ) : EReal :=
  if h : k < 50 then ∑ q : Fin 2000, f ⟨2000 * k + q.val, by have := q.isLt; omega⟩ else 0

/-- The 50 tiles' shares add up to the sum over all rows: row r is row r % 2000 of tile r / 2000. -/
theorem sum_tiles (f : Fin 100000 → EReal) : ∑ k ∈ Finset.range 50, tile f k = ∑ r : Fin 100000, f r := by
  rw [← Fin.sum_univ_eq_sum_range (fun k => tile f k) 50]
  have e : ∀ t : Fin 50, tile f t.val = ∑ q : Fin 2000, f (finProdFinEquiv (t, q)) := fun t => by
    unfold tile
    rw [dif_pos t.isLt]
    exact Finset.sum_congr rfl fun q _ => congrArg f (Fin.ext (Nat.add_comm _ _))
  rw [Finset.sum_congr rfl fun t _ => e t, ← Fintype.sum_prod_type (f := fun p : Fin 50 × Fin 2000 => f (finProdFinEquiv p))]
  exact Equiv.sum_comp (finProdFinEquiv (m := 50) (n := 2000)) f

end tiles

section region

open scoped BigOperators

/-- Where each window's block sits at point t: the two row-tiled inputs at block (t, 0), the bias row and the two
    accumulated outputs at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- The three input blocks of point t, at their literal types. -/
abbrev sblk (c : Dev nD) (t : Fin cfg2.N) : Vec Ideal S2000x128 .f32 := iblk2 V c 0 t
abbrev bblk (c : Dev nD) (t : Fin cfg2.N) : Vec Ideal S1x128 .f32 := iblk2 V c 1 t
abbrev gblk (c : Dev nD) (t : Fin cfg2.N) : Vec Ideal S2000x1 .i32 := iblk2 V c 2 t

/-- Row q of tile t of the node array is row 2000 t + q of the array. -/
theorem sblk_apply (c : Dev nD) (t : Fin cfg2.N) (q : Fin 2000) (d : Fin 128) (hr : 2000 * t.val + q.val < 100000) :
    sblk V c t (ix2 q d) = V c main_v29 (ix2 (⟨2000 * t.val + q.val, hr⟩ : Fin 100000) d) := by
  obtain ⟨e0, e1, -⟩ := idx_facts t
  show V c main_v29 (((cfg2.win 0).blk t).view.emb (ix2 q d)) = _
  congr 1
  funext a; apply Fin.ext
  match a with
  | ⟨0, _⟩ => show win2_0.index t (0 : Fin 2) * 2000 + 1 * q.val = 2000 * t.val + q.val; rw [e0]; omega
  | ⟨1, _⟩ => show win2_0.index t (1 : Fin 2) * 128 + 1 * d.val = d.val; rw [e1]; omega

/-- The bias block is the bias array at every point. -/
theorem bblk_apply (c : Dev nD) (t : Fin cfg2.N) (d : Fin 128) :
    bblk V c t (ix2 (0 : Fin 1) d) = V c main_v30 (ix2 (0 : Fin 1) d) := by
  obtain ⟨-, -, e0, e1, -⟩ := idx_facts t
  show V c main_v30 (((cfg2.win 1).blk t).view.emb (ix2 (0 : Fin 1) d)) = _
  congr 1
  funext a; apply Fin.ext
  match a with
  | ⟨0, _⟩ => show win2_1.index t (0 : Fin 2) * 1 + 1 * 0 = 0; rw [e0]
  | ⟨1, _⟩ => show win2_1.index t (1 : Fin 2) * 128 + 1 * d.val = d.val; rw [e1]; omega

/-- Row q of tile t of the id column is row 2000 t + q of the column. -/
theorem gblk_apply (c : Dev nD) (t : Fin cfg2.N) (q : Fin 2000) (hr : 2000 * t.val + q.val < 100000) :
    gblk V c t (ix2 q (0 : Fin 1)) = V c main_v0 (ix2 (⟨2000 * t.val + q.val, hr⟩ : Fin 100000) (0 : Fin 1)) := by
  obtain ⟨-, -, -, -, e0, e1, -⟩ := idx_facts t
  show V c main_v0 (((cfg2.win 2).blk t).view.emb (ix2 q (0 : Fin 1))) = _
  congr 1
  funext a; apply Fin.ext
  match a with
  | ⟨0, _⟩ => show win2_2.index t (0 : Fin 2) * 2000 + 1 * q.val = 2000 * t.val + q.val; rw [e0]; omega
  | ⟨1, _⟩ => show win2_2.index t (1 : Fin 2) * 1 + 1 * 0 = 0; rw [e1]

end region

section accumulation

open scoped BigOperators

/-- One point's update of the sums: tile t's share is added. -/
theorem sum_step (c : Dev nD) (b : Cert.Spec.SD.Idx → EReal)
    (hb : ∀ d : Fin 128, V c main_v30 (ix2 (0 : Fin 1) d) = b (ix1 d))
    (gid : Cert.Spec.SN.Idx → BitVec 32)
    (hg : ∀ r : Fin 100000, V c main_v0 (ix2 r (0 : Fin 1)) = gid (ix1 r))
    (t : Fin cfg2.N) (acc : Vec Ideal S256x128 .f32) (g : Fin 256) (d : Fin 128) :
    k2_pay4 (F := Ideal) (sblk V c t) (bblk V c t) (gblk V c t) acc (ix2 g d)
      = acc (ix2 g d) + tile (fun r => Cert.Spec.ind gid r g * Cert.Spec.addRow (V c main_v29) b (ix2 r d)) t.val := by
  have hN : t.val < 50 := lt_of_lt_of_eq t.isLt (show cfg2.N = 50 from N_2)
  refine (pay4_apply (sblk V c t) (bblk V c t) (gblk V c t) acc g d).trans ?_
  unfold tile
  rw [dif_pos hN]
  refine congrArg (acc (ix2 g d) + ·) (Finset.sum_congr rfl fun q _ => ?_)
  have hq := q.isLt
  rw [gblk_apply V c t q (by omega), sblk_apply V c t q d (by omega), bblk_apply V c t d, hb d,
    hg ⟨2000 * t.val + q.val, by omega⟩]
  rfl

/-- One point's update of the counts: tile t's share is added. -/
theorem count_step (c : Dev nD) (gid : Cert.Spec.SN.Idx → BitVec 32)
    (hg : ∀ r : Fin 100000, V c main_v0 (ix2 r (0 : Fin 1)) = gid (ix1 r))
    (t : Fin cfg2.N) (acc : Vec Ideal S256x1 .f32) (g : Fin 256) (u : Fin 1) :
    k2_pay5 (F := Ideal) (gblk V c t) acc (ix2 g u)
      = acc (ix2 g u) + tile (fun r => Cert.Spec.ind gid r g) t.val := by
  have hN : t.val < 50 := lt_of_lt_of_eq t.isLt (show cfg2.N = 50 from N_2)
  refine (pay5_apply (gblk V c t) acc g u).trans ?_
  unfold tile
  rw [dif_pos hN]
  refine congrArg (acc (ix2 g u) + ·) (Finset.sum_congr rfl fun q _ => ?_)
  have hq := q.isLt
  rw [gblk_apply V c t q (by omega), hg ⟨2000 * t.val + q.val, by omega⟩]
  rfl

/-- After point n the sums' buffer holds the shares of tiles 0, …, n. -/
theorem sums_after (c : Dev nD) (b : Cert.Spec.SD.Idx → EReal)
    (hb : ∀ d : Fin 128, V c main_v30 (ix2 (0 : Fin 1) d) = b (ix1 d))
    (gid : Cert.Spec.SN.Idx → BitVec 32)
    (hg : ∀ r : Fin 100000, V c main_v0 (ix2 r (0 : Fin 1)) = gid (ix1 r)) :
    ∀ (n : ℕ) (h : n < cfg2.N) (g : Fin 256) (d : Fin 128), (outsAt2 V c n h).1 (ix2 g d)
      = ∑ k ∈ Finset.range (n + 1), tile (fun r => Cert.Spec.ind gid r g * Cert.Spec.addRow (V c main_v29) b (ix2 r d)) k
  | 0, h, g, d => by
    rw [outsAt2_A V c ⟨0, h⟩ rfl]
    dsimp only
    refine (congrFun (out_A_3 (F := Ideal) c (grid2.coords ⟨0, h⟩) (ms2_0 ⟨0, h⟩) (hs2_0 ⟨0, h⟩) (ms2_1 ⟨0, h⟩) (hs2_1 ⟨0, h⟩)
      (ms2_2 ⟨0, h⟩) (hs2_2 ⟨0, h⟩) (ms2_3 ⟨0, h⟩) (hs2_3 ⟨0, h⟩) (ms2_4 ⟨0, h⟩) (hs2_4 ⟨0, h⟩)
      ((hcond2_0 ⟨0, h⟩).mpr (Nat.zero_mod _)) (sblk V c ⟨0, h⟩) (bblk V c ⟨0, h⟩) (gblk V c ⟨0, h⟩)) (ix2 g d)).trans ?_
    refine (sum_step V c b hb gid hg ⟨0, h⟩ (k2_pay1 (F := Ideal)) g d).trans ?_
    rw [pay1_apply, zero_add, Finset.sum_range_one]
  | n + 1, h, g, d => by
    have hN : cfg2.N = 50 := N_2
    have hB : ¬(⟨n + 1, h⟩ : Fin cfg2.N).val % 50 = 0 := by dsimp only; omega
    rw [outsAt2_B V c ⟨n + 1, h⟩ hB]
    dsimp only
    refine (congrFun (out_B_3 (F := Ideal) c (grid2.coords ⟨n + 1, h⟩) (ms2_0 ⟨n + 1, h⟩) (hs2_0 ⟨n + 1, h⟩) (ms2_1 ⟨n + 1, h⟩) (hs2_1 ⟨n + 1, h⟩)
      (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩)
      (fun hh => hB ((hcond2_0 ⟨n + 1, h⟩).mp hh)) (sblk V c ⟨n + 1, h⟩) (bblk V c ⟨n + 1, h⟩) (gblk V c ⟨n + 1, h⟩)
      (outsAt2 V c n (Nat.lt_of_succ_lt h)).1 (outsAt2 V c n (Nat.lt_of_succ_lt h)).2) (ix2 g d)).trans ?_
    refine (sum_step V c b hb gid hg ⟨n + 1, h⟩ (outsAt2 V c n (Nat.lt_of_succ_lt h)).1 g d).trans ?_
    rw [sums_after c b hb gid hg n (Nat.lt_of_succ_lt h) g d]
    exact (Finset.sum_range_succ _ (n + 1)).symm

/-- After point n the counts' buffer holds the shares of tiles 0, …, n. -/
theorem counts_after (c : Dev nD) (gid : Cert.Spec.SN.Idx → BitVec 32)
    (hg : ∀ r : Fin 100000, V c main_v0 (ix2 r (0 : Fin 1)) = gid (ix1 r)) :
    ∀ (n : ℕ) (h : n < cfg2.N) (g : Fin 256) (u : Fin 1), (outsAt2 V c n h).2 (ix2 g u)
      = ∑ k ∈ Finset.range (n + 1), tile (fun r => Cert.Spec.ind gid r g) k
  | 0, h, g, u => by
    rw [outsAt2_A V c ⟨0, h⟩ rfl]
    dsimp only
    refine (congrFun (out_A_4 (F := Ideal) c (grid2.coords ⟨0, h⟩) (ms2_0 ⟨0, h⟩) (hs2_0 ⟨0, h⟩) (ms2_1 ⟨0, h⟩) (hs2_1 ⟨0, h⟩)
      (ms2_2 ⟨0, h⟩) (hs2_2 ⟨0, h⟩) (ms2_3 ⟨0, h⟩) (hs2_3 ⟨0, h⟩) (ms2_4 ⟨0, h⟩) (hs2_4 ⟨0, h⟩)
      ((hcond2_0 ⟨0, h⟩).mpr (Nat.zero_mod _)) (sblk V c ⟨0, h⟩) (bblk V c ⟨0, h⟩) (gblk V c ⟨0, h⟩)) (ix2 g u)).trans ?_
    refine (count_step V c gid hg ⟨0, h⟩ (k2_pay2 (F := Ideal)) g u).trans ?_
    rw [pay2_apply, zero_add, Finset.sum_range_one]
  | n + 1, h, g, u => by
    have hN : cfg2.N = 50 := N_2
    have hB : ¬(⟨n + 1, h⟩ : Fin cfg2.N).val % 50 = 0 := by dsimp only; omega
    rw [outsAt2_B V c ⟨n + 1, h⟩ hB]
    dsimp only
    refine (congrFun (out_B_4 (F := Ideal) c (grid2.coords ⟨n + 1, h⟩) (ms2_0 ⟨n + 1, h⟩) (hs2_0 ⟨n + 1, h⟩) (ms2_1 ⟨n + 1, h⟩) (hs2_1 ⟨n + 1, h⟩)
      (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩)
      (fun hh => hB ((hcond2_0 ⟨n + 1, h⟩).mp hh)) (sblk V c ⟨n + 1, h⟩) (bblk V c ⟨n + 1, h⟩) (gblk V c ⟨n + 1, h⟩)
      (outsAt2 V c n (Nat.lt_of_succ_lt h)).1 (outsAt2 V c n (Nat.lt_of_succ_lt h)).2) (ix2 g u)).trans ?_
    refine (count_step V c gid hg ⟨n + 1, h⟩ (outsAt2 V c n (Nat.lt_of_succ_lt h)).2 g u).trans ?_
    rw [counts_after c gid hg n (Nat.lt_of_succ_lt h) g u]
    exact (Finset.sum_range_succ _ (n + 1)).symm

end accumulation

section arrays

open scoped BigOperators

/-- What point t writes back of the sums: its buffer, which is block (0, 0) — the whole — of any array equal to it. -/
theorem flushed_sums (c : Dev nD) (t : Fin cfg2.N) (G : Vec Ideal S256x128 .f32)
    (hG : (outsAt2 V c t.val t.isLt).1 = G) :
    (dat2 (F := Ideal) V c).flushed 3 t = ((cfg2.win 3).blk t).view.read (Elt Ideal) G := by
  obtain ⟨-, -, -, -, -, -, e0, e1, -⟩ := idx_facts t
  show (cfg2.win 3).cut (grid2.coords t) ((dat2 (F := Ideal) V c).after 3 t) = _
  rw [after2_3, hG]
  funext j
  show G j = G (((cfg2.win 3).blk t).view.emb j)
  congr 1
  funext a; apply Fin.ext
  match a with
  | ⟨0, _⟩ => show (j 0).val = win2_3.index t (0 : Fin 2) * 256 + 1 * (j 0).val; rw [e0]; omega
  | ⟨1, _⟩ => show (j 1).val = win2_3.index t (1 : Fin 2) * 128 + 1 * (j 1).val; rw [e1]; omega

/-- Likewise the counts. -/
theorem flushed_counts (c : Dev nD) (t : Fin cfg2.N) (G : Vec Ideal S256x1 .f32)
    (hG : (outsAt2 V c t.val t.isLt).2 = G) :
    (dat2 (F := Ideal) V c).flushed 4 t = ((cfg2.win 4).blk t).view.read (Elt Ideal) G := by
  obtain ⟨-, -, -, -, -, -, -, -, e0, e1⟩ := idx_facts t
  show (cfg2.win 4).cut (grid2.coords t) ((dat2 (F := Ideal) V c).after 4 t) = _
  rw [after2_4, hG]
  funext j
  show G j = G (((cfg2.win 4).blk t).view.emb j)
  congr 1
  funext a; apply Fin.ext
  match a with
  | ⟨0, _⟩ => show (j 0).val = win2_4.index t (0 : Fin 2) * 256 + 1 * (j 0).val; rw [e0]; omega
  | ⟨1, _⟩ => show (j 1).val = win2_4.index t (1 : Fin 2) * 1 + 1 * (j 1).val; rw [e1]; omega

/-- An index of the sums' array is in point t's block iff each coordinate is in the block's range on its axis. -/
theorem mem_blk_sums (t : Fin cfg2.N) (i : S256x128.Idx) :
    i ∈ ((cfg2.win 3).blk t).view.set ↔ ∀ a : Fin 2, win2_3.index t a * S256x128.size a ≤ (i a).val
      ∧ (i a).val < win2_3.index t a * S256x128.size a + S256x128.size a := by
  show i ∈ ((View.whole main_v31_0).slice (win2_3.rect t)).set ↔ _
  rw [View.set_slice_whole, Rect.mem_set_unit]
  exact Iff.rfl

/-- Likewise the counts' array. -/
theorem mem_blk_counts (t : Fin cfg2.N) (i : S256x1.Idx) :
    i ∈ ((cfg2.win 4).blk t).view.set ↔ ∀ a : Fin 2, win2_4.index t a * S256x1.size a ≤ (i a).val
      ∧ (i a).val < win2_4.index t a * S256x1.size a + S256x1.size a := by
  show i ∈ ((View.whole main_v31_1).slice (win2_4.rect t)).set ↔ _
  rw [View.set_slice_whole, Rect.mem_set_unit]
  exact Iff.rfl

/-- The last point. -/
abbrev tLast : Fin cfg2.N := ⟨49, by rw [show cfg2.N = 50 from N_2]; decide⟩

end arrays

/-- The per-graph sums: entry (g, d) is the sum over all nodes r of [gid r = g] · (s (r, d) + b d). `b` is the row
    of the [1, 128] bias array, `gid` the column of the [100000, 1] id array. -/
theorem final_sum (c : Dev nD) (b : Cert.Spec.SD.Idx → EReal)
    (hb : ∀ d : Fin 128, V c main_v30 (ix2 (0 : Fin 1) d) = b (ix1 d))
    (gid : Cert.Spec.SN.Idx → BitVec 32)
    (hg : ∀ r : Fin 100000, V c main_v0 (ix2 r (0 : Fin 1)) = gid (ix1 r)) :
    (dat2 (F := Ideal) V c).arrAt 3 cfg2.N = Cert.Spec.poolSum gid (Cert.Spec.addRow (V c main_v29) b) := by
  have hN : cfg2.N = 50 := N_2
  refine (dat2 (F := Ideal) V c).arrAt_eq_of_cover 3 _ (fun t hf => ?_) (fun i => ?_)
  · have h49 : t.val = 49 := by have := (flush2_3 t).mp hf; have := t.isLt; omega
    refine flushed_sums V c t _ ?_
    funext j
    obtain ⟨g, d, rfl⟩ : ∃ (g : Fin 256) (d : Fin 128), j = ix2 g d := ⟨j 0, j 1, eq_ix2 j⟩
    rw [sums_after V c b hb gid hg t.val t.isLt g d, h49]
    exact sum_tiles _
  · refine ⟨tLast, (flush2_3 tLast).mpr rfl, ?_⟩
    obtain ⟨-, -, -, -, -, -, e0, e1, -⟩ := idx_facts tLast
    have h0 : (i 0).val < 256 := (i 0).isLt
    have h1 : (i 1).val < 128 := (i 1).isLt
    rw [mem_blk_sums]
    intro a
    match a with
    | ⟨0, _⟩ => show win2_3.index tLast (0 : Fin 2) * 256 ≤ (i 0).val ∧ (i 0).val < win2_3.index tLast (0 : Fin 2) * 256 + 256; rw [e0]; omega
    | ⟨1, _⟩ => show win2_3.index tLast (1 : Fin 2) * 128 ≤ (i 1).val ∧ (i 1).val < win2_3.index tLast (1 : Fin 2) * 128 + 128; rw [e1]; omega

/-- The per-graph counts, a [256, 1] column: entry (g, 0) is the number of nodes r with gid r = g. -/
theorem final_count (c : Dev nD) (gid : Cert.Spec.SN.Idx → BitVec 32)
    (hg : ∀ r : Fin 100000, V c main_v0 (ix2 r (0 : Fin 1)) = gid (ix1 r)) :
    (dat2 (F := Ideal) V c).arrAt 4 cfg2.N = fun j => Cert.Spec.count gid (j 0) := by
  have hN : cfg2.N = 50 := N_2
  refine (dat2 (F := Ideal) V c).arrAt_eq_of_cover 4 _ (fun t hf => ?_) (fun i => ?_)
  · have h49 : t.val = 49 := by have := (flush2_4 t).mp hf; have := t.isLt; omega
    refine flushed_counts V c t _ ?_
    funext j
    obtain ⟨g, u, rfl⟩ : ∃ (g : Fin 256) (u : Fin 1), j = ix2 g u := ⟨j 0, j 1, eq_ix2 j⟩
    rw [counts_after V c gid hg t.val t.isLt g u, h49]
    exact sum_tiles _
  · refine ⟨tLast, (flush2_4 tLast).mpr rfl, ?_⟩
    obtain ⟨-, -, -, -, -, -, -, -, e0, e1⟩ := idx_facts tLast
    have h0 : (i 0).val < 256 := (i 0).isLt
    have h1 : (i 1).val < 1 := (i 1).isLt
    rw [mem_blk_counts]
    intro a
    match a with
    | ⟨0, _⟩ => show win2_4.index tLast (0 : Fin 2) * 256 ≤ (i 0).val ∧ (i 0).val < win2_4.index tLast (0 : Fin 2) * 256 + 256; rw [e0]; omega
    | ⟨1, _⟩ => show win2_4.index tLast (1 : Fin 2) * 1 ≤ (i 1).val ∧ (i 1).val < win2_4.index tLast (1 : Fin 2) * 1 + 1; rw [e1]; omega

end Cert.KernelIdeal.R2Value

end
-- ==== Proof.R3Value.lean ====
/- Region 3 (each node takes its graph's row; the three-layer block with its shortcut; the logistic): the array it leaves. -/
import proofs.«409535_j90245852823923_1_alg».proof.Proof.Gen.KernelIdeal.Frame
import proofs.«409535_j90245852823923_1_alg».proof.Proof.Spec
import proofs.«409535_j90245852823923_1_alg».proof.Proof.LibDotSum
import proofs.«409535_j90245852823923_1_alg».proof.Proof.LibDense
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R3Value

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The arithmetic of one block, stage by stage

A block is 2000 node rows by 128 channels. Each stage below is one function of whole blocks; the body's value is
their composition. Changes of float format are the identity on the extended reals. -/

/-- The float read of the widened equality bit of two words: 1 when the words are equal, 0 otherwise. -/
theorem hot_word (a b : BitVec 32) :
    ((((IntOp.cmpi .eq a b).setWidth 32).toInt : ℝ) : EReal) = if a = b then 1 else 0 := by
  by_cases h : a = b
  · subst h
    have e : IntOp.cmpi .eq a a = 1#1 := by simp [IntOp.cmpi]
    rw [e, if_pos rfl]
    have e' : ((1#1 : BitVec 1).setWidth 32).toInt = 1 := by decide
    rw [e']; simp
  · have hb : (a == b) = false := beq_eq_false_iff_ne.mpr h
    have e : IntOp.cmpi .eq a b = 0#1 := by
      show BitVec.ofBool (a == b) = 0#1
      rw [hb]; rfl
    rw [e, if_neg h]
    have e' : ((0#1 : BitVec 1).setWidth 32).toInt = 0 := by decide
    rw [e']; simp

/-- Each row takes the row of its graph: entry (r, d) is the sum over the 256 graphs g of [id r = g] · p (g, d). -/
def expandB (x0 : Vec Ideal S2000x1 .i32) (p : FVec Ideal S256x128 .f32) : FVec Ideal S2000x128 .f32 :=
  fun i => ∑ g : Fin 256, (if x0 (ix2 (i 0) (0 : Fin 1)) = BitVec.ofNat 32 g.val then (1 : EReal) else 0) * p (ix2 g (i 1))

theorem expandB_apply (x0 : Vec Ideal S2000x1 .i32) (p : FVec Ideal S256x128 .f32) (r : Fin 2000) (d : Fin 128) :
    expandB x0 p (ix2 r d)
      = ∑ g : Fin 256, (if x0 (ix2 r (0 : Fin 1)) = BitVec.ofNat 32 g.val then (1 : EReal) else 0) * p (ix2 g d) := rfl

/-- x · w on a block: entry (r, c) is the sum over k of x (r, k) · w (k, c). -/
def mmB (x : FVec Ideal S2000x128 .f32) (w : FVec Ideal S128x128 .f32) : FVec Ideal S2000x128 .f32 :=
  fun i => ∑ k : Fin 128, x (ix2 (i 0) k) * w (ix2 k (i 1))

theorem mmB_apply (x : FVec Ideal S2000x128 .f32) (w : FVec Ideal S128x128 .f32) (r : Fin 2000) (c : Fin 128) :
    mmB x w (ix2 r c) = ∑ k : Fin 128, x (ix2 r k) * w (ix2 k c) := rfl

/-- A [1, 128] bias row added along every row of a block. -/
def addRowB (y : FVec Ideal S2000x128 .f32) (b : FVec Ideal S1x128 .f32) : FVec Ideal S2000x128 .f32 :=
  fun i => y i + b (ix2 (0 : Fin 1) (i 1))

theorem addRowB_apply (y : FVec Ideal S2000x128 .f32) (b : FVec Ideal S1x128 .f32) (r : Fin 2000) (c : Fin 128) :
    addRowB y b (ix2 r c) = y (ix2 r c) + b (ix2 (0 : Fin 1) c) := rfl

/-- The positive part of a block, entry by entry. -/
def reluB (y : FVec Ideal S2000x128 .f32) : FVec Ideal S2000x128 .f32 := fun i => max (y i) Cert.Spec.zero

/-- The logistic of a block, entry by entry. -/
def logisticB (y : FVec Ideal S2000x128 .f32) : FVec Ideal S2000x128 .f32 := fun i => Cert.Spec.logistic (y i)

/-- The one-hot entry (r, g) of the body: the id column and the lane counter, both laid out to [2000, 256], compared
    for equality, the bit widened and read as a float. -/
theorem hot_apply (x0 : Vec Ideal S2000x1 .i32) (r : Fin 2000) (g : Fin 256) :
    (sitofp (F := Ideal) .f32 (extui 32 (cmpi .eq
        (broadcastTo S2000x256 (shapeCast S2000x1 x0 shapeCasts_S2000x1_S2000x1) broadcasts_S2000x1_S2000x256)
        (broadcastTo S2000x256 (iota .tc S1x256 32 [1] iota_S1x256_d1_w32) broadcasts_S1x256_S2000x256)) natLt_1_32)
      : FVec Ideal S2000x256 .f32) (ix2 r g)
      = if x0 (ix2 r (0 : Fin 1)) = BitVec.ofNat 32 g.val then (1 : EReal) else 0 := by
  have e1 : broadcastTo S2000x256 (shapeCast S2000x1 x0 shapeCasts_S2000x1_S2000x1) broadcasts_S2000x1_S2000x256 (ix2 r g)
      = x0 (ix2 r (0 : Fin 1)) := by
    rw [Cert.Lib.broadcastTo_a1_ab_apply, shapeCast_self]
  have e2 : broadcastTo S2000x256 (iota .tc S1x256 32 [1] iota_S1x256_d1_w32) broadcasts_S1x256_S2000x256 (ix2 r g)
      = BitVec.ofNat 32 g.val := by
    rw [broadcastTo_1b_ab_apply]
    show BitVec.ofNat 32 (0 * 256 + g.val) = _
    rw [Nat.zero_mul, Nat.zero_add]
  exact (congrArg₂ (fun a b : BitVec 32 => ((((IntOp.cmpi .eq a b).setWidth 32).toInt : ℝ) : EReal)) e1 e2).trans (hot_word _ _)

/-- The first product of the body (the one-hot rows against the per-graph rows) is the expansion. -/
theorem pay2_eq (x0 : Vec Ideal S2000x1 .i32) (x1 : Vec Ideal S256x128 .f32) :
    k3_pay2 (F := Ideal) x0 x1 = truncf .bf16 (expandB x0 x1) bitsLt_bf16_f32 := by
  funext i
  obtain ⟨r, d, rfl⟩ : ∃ (r : Fin 2000) (d : Fin 128), i = ix2 r d := ⟨i 0, i 1, eq_ix2 i⟩
  unfold k3_pay2
  refine (Cert.Lib.matmul_rc_apply (M := 2000) (K := 256) (N := 128) dot_S2000x256_S256x128_S2000x128_1_0_0_1_n_n
    rfl rfl rfl rfl rfl rfl none _ _ r d).trans ?_
  show (∑ g : Fin 256, _) = ∑ g : Fin 256, (if x0 (ix2 r (0 : Fin 1)) = BitVec.ofNat 32 g.val then (1 : EReal) else 0) * x1 (ix2 g d)
  refine Finset.sum_congr rfl fun g _ => ?_
  refine congrArg₂ (· * ·) (hot_apply x0 r g) ?_
  rw [truncf_apply, shapeCast_self]

/-- A product of the body into the zero accumulator, its operands narrowed first, is x · w. -/
theorem mm_eq (x : FVec Ideal S2000x128 .f32) (w : FVec Ideal S128x128 .f32) :
    matmul dot_S2000x128_S128x128_S2000x128_1_0_0_1_n_n none (truncf .bf16 x bitsLt_bf16_f32) (truncf .bf16 w bitsLt_bf16_f32)
      (constant S2000x128 .f32 0x00000000#32) = mmB x w := by
  funext i
  obtain ⟨r, c, rfl⟩ : ∃ (r : Fin 2000) (c : Fin 128), i = ix2 r c := ⟨i 0, i 1, eq_ix2 i⟩
  rw [Cert.Lib.matmul_rc_apply (M := 2000) (K := 128) (N := 128) dot_S2000x128_S128x128_S2000x128_1_0_0_1_n_n rfl rfl rfl rfl rfl rfl]
  rfl

/-- A bias row laid over the rows and added is the row addition. -/
theorem addRow_eq (y : FVec Ideal S2000x128 .f32) (b : Vec Ideal S1x128 .f32) :
    addf y (broadcastTo S2000x128 (shapeCast S1x128 b shapeCasts_S1x128_S1x128) broadcasts_S1x128_S2000x128) = addRowB y b := by
  funext i
  obtain ⟨r, c, rfl⟩ : ∃ (r : Fin 2000) (c : Fin 128), i = ix2 r c := ⟨i 0, i 1, eq_ix2 i⟩
  rw [addf_apply, broadcastTo_1b_ab_apply, shapeCast_self]
  rfl

/-- The maximum with the zero float is the positive part. -/
theorem relu_eq (y : FVec Ideal S2000x128 .f32) :
    maximumf y (broadcast S2000x128 (Scalar.ofBits (F := Ideal) .f32 0x00000000#32)) = reluB y := rfl

/-- 1 / (1 + exp (0 − y)), entry by entry, is the logistic: 0 − y is −y. -/
theorem logistic_eq (y : FVec Ideal S2000x128 .f32) :
    divf (broadcast S2000x128 (Scalar.ofBits (F := Ideal) .f32 0x3F800000#32))
      (addf (broadcast S2000x128 (Scalar.ofBits (F := Ideal) .f32 0x3F800000#32))
        (exp (subf (broadcast S2000x128 (Scalar.ofBits (F := Ideal) .f32 0x00000000#32)) y))) = logisticB y := by
  funext i
  show Ideal.div Cert.Spec.one (Cert.Spec.one + Ideal.exp (Ideal.ofBits .f32 0x00000000#32 - y i)) = Cert.Spec.logistic (y i)
  rw [Ideal.ofBits_zero_f32, zero_sub]
  rfl

/-! ## The body's stored value, composed -/

/-- The three-layer block with its shortcut and the logistic, on one block. -/
def headB (hx : FVec Ideal S2000x128 .f32) (w1 : FVec Ideal S128x128 .f32) (b1 : FVec Ideal S1x128 .f32)
    (w2 : FVec Ideal S128x128 .f32) (b2 : FVec Ideal S1x128 .f32) (w3 : FVec Ideal S128x128 .f32) (b3 : FVec Ideal S1x128 .f32)
    (ws : FVec Ideal S128x128 .f32) (bs : FVec Ideal S1x128 .f32) : FVec Ideal S2000x128 .f32 :=
  logisticB (addf (reluB (addRowB (mmB (reluB (addRowB (mmB (reluB (addRowB (mmB hx w1) b1)) w2) b2)) w3) b3))
    (addRowB (mmB hx ws) bs))

/-- The third product's left operand: two layers applied to the expansion, the third layer's product taken. -/
theorem pay3_eq (x0 : Vec Ideal S2000x1 .i32) (x1 : Vec Ideal S256x128 .f32) (x2 : Vec Ideal S128x128 .f32)
    (x3 : Vec Ideal S1x128 .f32) (x4 : Vec Ideal S128x128 .f32) (x5 : Vec Ideal S1x128 .f32) (x6 : Vec Ideal S128x128 .f32) :
    k3_pay3 (F := Ideal) x0 x1 x2 x3 x4 x5 x6
      = mmB (reluB (addRowB (mmB (reluB (addRowB (mmB (expandB x0 x1) x2) x3)) x4) x5)) x6 := by
  unfold k3_pay3
  rw [pay2_eq]
  simp only [mm_eq, addRow_eq, relu_eq]

/-- The stored value: the head of the network on the block's expansion. -/
theorem pay1_eq (x0 : Vec Ideal S2000x1 .i32) (x1 : Vec Ideal S256x128 .f32) (x2 : Vec Ideal S128x128 .f32)
    (x3 : Vec Ideal S1x128 .f32) (x4 : Vec Ideal S128x128 .f32) (x5 : Vec Ideal S1x128 .f32) (x6 : Vec Ideal S128x128 .f32)
    (x7 : Vec Ideal S1x128 .f32) (x8 : Vec Ideal S128x128 .f32) (x9 : Vec Ideal S1x128 .f32) :
    k3_pay1 (F := Ideal) (k3_pay2 x0 x1) (k3_pay3 x0 x1 x2 x3 x4 x5 x6) x7 x8 x9
      = headB (expandB x0 x1) x2 x3 x4 x5 x6 x7 x8 x9 := by
  rw [pay3_eq, pay2_eq]
  unfold k3_pay1
  simp only [mm_eq, addRow_eq, relu_eq, logistic_eq]
  rfl

/-! ## A block's row against the whole array's row

Every stage is local to a row: row r of a block and row R of the whole array agree after a stage as soon as they
agree before it, and the bias row of the [1, 128] array is the bias vector. -/

theorem expand_row (x0 : Vec Ideal S2000x1 .i32) (p : FVec Ideal S256x128 .f32) (gid : Cert.Spec.SN.Idx → BitVec 32)
    (r : Fin 2000) (R : Fin 100000) (h : x0 (ix2 r (0 : Fin 1)) = gid (ix1 R)) (d : Fin 128) :
    expandB x0 p (ix2 r d) = Cert.Spec.expand gid p (ix2 R d) := by
  rw [expandB_apply, Cert.Spec.expand_apply, h]
  rfl

theorem dense_row (xB : FVec Ideal S2000x128 .f32) (xG : Cert.Spec.SND.Idx → EReal) (w : FVec Ideal S128x128 .f32)
    (bB : FVec Ideal S1x128 .f32) (bG : Cert.Spec.SD.Idx → EReal) (r : Fin 2000) (R : Fin 100000)
    (hx : ∀ k : Fin 128, xB (ix2 r k) = xG (ix2 R k)) (hb : ∀ d : Fin 128, bB (ix2 (0 : Fin 1) d) = bG (ix1 d)) (d : Fin 128) :
    addRowB (mmB xB w) bB (ix2 r d) = Cert.Spec.dense xG w bG (ix2 R d) := by
  rw [addRowB_apply, mmB_apply, hb d]
  show _ = Cert.Spec.mm xG w (ix2 R d) + bG (ix1 d)
  rw [Cert.Spec.mm_apply]
  exact congrArg (· + bG (ix1 d)) (Finset.sum_congr rfl fun k _ => by rw [hx k])

theorem relu_row (yB : FVec Ideal S2000x128 .f32) (yG : Cert.Spec.SND.Idx → EReal) (r : Fin 2000) (R : Fin 100000) (d : Fin 128)
    (h : yB (ix2 r d) = yG (ix2 R d)) : reluB yB (ix2 r d) = Cert.Spec.relu yG (ix2 R d) :=
  congrArg (fun v => max v Cert.Spec.zero) h

theorem head_row (hxB : FVec Ideal S2000x128 .f32) (hxG : Cert.Spec.SND.Idx → EReal)
    (w1 : FVec Ideal S128x128 .f32) (b1 : FVec Ideal S1x128 .f32) (c1 : Cert.Spec.SD.Idx → EReal)
    (w2 : FVec Ideal S128x128 .f32) (b2 : FVec Ideal S1x128 .f32) (c2 : Cert.Spec.SD.Idx → EReal)
    (w3 : FVec Ideal S128x128 .f32) (b3 : FVec Ideal S1x128 .f32) (c3 : Cert.Spec.SD.Idx → EReal)
    (ws : FVec Ideal S128x128 .f32) (bs : FVec Ideal S1x128 .f32) (cs : Cert.Spec.SD.Idx → EReal)
    (r : Fin 2000) (R : Fin 100000) (hx : ∀ k : Fin 128, hxB (ix2 r k) = hxG (ix2 R k))
    (h1 : ∀ d : Fin 128, b1 (ix2 (0 : Fin 1) d) = c1 (ix1 d)) (h2 : ∀ d : Fin 128, b2 (ix2 (0 : Fin 1) d) = c2 (ix1 d))
    (h3 : ∀ d : Fin 128, b3 (ix2 (0 : Fin 1) d) = c3 (ix1 d)) (hs : ∀ d : Fin 128, bs (ix2 (0 : Fin 1) d) = cs (ix1 d))
    (d : Fin 128) :
    headB hxB w1 b1 w2 b2 w3 b3 ws bs (ix2 r d) = Cert.Spec.head hxG w1 c1 w2 c2 w3 c3 ws cs (ix2 R d) := by
  have l1 : ∀ k : Fin 128, reluB (addRowB (mmB hxB w1) b1) (ix2 r k) = Cert.Spec.relu (Cert.Spec.dense hxG w1 c1) (ix2 R k) :=
    fun k => relu_row _ _ r R k (dense_row hxB hxG w1 b1 c1 r R hx h1 k)
  have l2 : ∀ k : Fin 128, reluB (addRowB (mmB (reluB (addRowB (mmB hxB w1) b1)) w2) b2) (ix2 r k)
      = Cert.Spec.relu (Cert.Spec.dense (Cert.Spec.relu (Cert.Spec.dense hxG w1 c1)) w2 c2) (ix2 R k) :=
    fun k => relu_row _ _ r R k (dense_row _ _ w2 b2 c2 r R l1 h2 k)
  have l3 := relu_row _ _ r R d (dense_row _ _ w3 b3 c3 r R l2 h3 d)
  have ls := dense_row hxB hxG ws bs cs r R hx hs d
  show Cert.Spec.logistic (_ + _) = Cert.Spec.logistic (_ + _)
  rw [l3, ls]

/-! ## From the 50 blocks to the array -/

theorem off_zero : (![0, 0] : Fin 2 → Nat) = fun _ => 0 := funext fun a => by fin_cases a <;> rfl

/-- The printed index maps over the 50 points: the id column's block and the output's block are block t of their
    arrays; every other window is its whole array. -/
theorem index_facts : ∀ t : Fin cfg3.N,
    win3_10.index t (0 : Fin 2) = t.val ∧ win3_10.index t (1 : Fin 2) = 0
    ∧ win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = 0 ∧ win3_9.index t (1 : Fin 2) = 0 :=
  (by decide +kernel : ∀ t : Fin grid3.N, _)

/-! ### The blocks the body reads

A block's coordinate on an axis is the block index times the block's extent plus the coordinate inside the block. The
nine whole-array windows read their arrays; the id column's block t reads rows 2000 t … 2000 t + 1999. -/

/-- Window 1 (the per-graph rows) reads its whole array at every point. -/
theorem blk_1 (c : Dev nD) (t : Fin cfg3.N) : iblk3 V c 1 t = V c main_v35 := by
  funext y
  show V c main_v35 (((cfg3.win 1).blk t).view.emb y) = V c main_v35 y
  refine congrArg _ (funext fun a => Fin.ext ?_)
  have f := index_facts t
  match a with
  | ⟨0, _⟩ => show win3_1.index t (0 : Fin 2) * 256 + 1 * (y 0).val = (y 0).val; omega
  | ⟨1, _⟩ => show win3_1.index t (1 : Fin 2) * 128 + 1 * (y 1).val = (y 1).val; omega

/-- Window 2 (the first weight) reads its whole array at every point. -/
theorem blk_2 (c : Dev nD) (t : Fin cfg3.N) : iblk3 V c 2 t = V c main_arg6 := by
  funext y
  show V c main_arg6 (((cfg3.win 2).blk t).view.emb y) = V c main_arg6 y
  refine congrArg _ (funext fun a => Fin.ext ?_)
  have f := index_facts t
  match a with
  | ⟨0, _⟩ => show win3_2.index t (0 : Fin 2) * 128 + 1 * (y 0).val = (y 0).val; omega
  | ⟨1, _⟩ => show win3_2.index t (1 : Fin 2) * 128 + 1 * (y 1).val = (y 1).val; omega

/-- Window 3 (the first bias row) reads its whole array at every point. -/
theorem blk_3 (c : Dev nD) (t : Fin cfg3.N) : iblk3 V c 3 t = V c main_v36 := by
  funext y
  show V c main_v36 (((cfg3.win 3).blk t).view.emb y) = V c main_v36 y
  refine congrArg _ (funext fun a => Fin.ext ?_)
  have f := index_facts t
  match a with
  | ⟨0, _⟩ => show win3_3.index t (0 : Fin 2) * 1 + 1 * (y 0).val = (y 0).val; omega
  | ⟨1, _⟩ => show win3_3.index t (1 : Fin 2) * 128 + 1 * (y 1).val = (y 1).val; omega

/-- Window 4 (the second weight) reads its whole array at every point. -/
theorem blk_4 (c : Dev nD) (t : Fin cfg3.N) : iblk3 V c 4 t = V c main_arg8 := by
  funext y
  show V c main_arg8 (((cfg3.win 4).blk t).view.emb y) = V c main_arg8 y
  refine congrArg _ (funext fun a => Fin.ext ?_)
  have f := index_facts t
  match a with
  | ⟨0, _⟩ => show win3_4.index t (0 : Fin 2) * 128 + 1 * (y 0).val = (y 0).val; omega
  | ⟨1, _⟩ => show win3_4.index t (1 : Fin 2) * 128 + 1 * (y 1).val = (y 1).val; omega

/-- Window 5 (the second bias row) reads its whole array at every point. -/
theorem blk_5 (c : Dev nD) (t : Fin cfg3.N) : iblk3 V c 5 t = V c main_v37 := by
  funext y
  show V c main_v37 (((cfg3.win 5).blk t).view.emb y) = V c main_v37 y
  refine congrArg _ (funext fun a => Fin.ext ?_)
  have f := index_facts t
  match a with
  | ⟨0, _⟩ => show win3_5.index t (0 : Fin 2) * 1 + 1 * (y 0).val = (y 0).val; omega
  | ⟨1, _⟩ => show win3_5.index t (1 : Fin 2) * 128 + 1 * (y 1).val = (y 1).val; omega

/-- Window 6 (the third weight) reads its whole array at every point. -/
theorem blk_6 (c : Dev nD) (t : Fin cfg3.N) : iblk3 V c 6 t = V c main_arg10 := by
  funext y
  show V c main_arg10 (((cfg3.win 6).blk t).view.emb y) = V c main_arg10 y
  refine congrArg _ (funext fun a => Fin.ext ?_)
  have f := index_facts t
  match a with
  | ⟨0, _⟩ => show win3_6.index t (0 : Fin 2) * 128 + 1 * (y 0).val = (y 0).val; omega
  | ⟨1, _⟩ => show win3_6.index t (1 : Fin 2) * 128 + 1 * (y 1).val = (y 1).val; omega

/-- Window 7 (the third bias row) reads its whole array at every point. -/
theorem blk_7 (c : Dev nD) (t : Fin cfg3.N) : iblk3 V c 7 t = V c main_v38 := by
  funext y
  show V c main_v38 (((cfg3.win 7).blk t).view.emb y) = V c main_v38 y
  refine congrArg _ (funext fun a => Fin.ext ?_)
  have f := index_facts t
  match a with
  | ⟨0, _⟩ => show win3_7.index t (0 : Fin 2) * 1 + 1 * (y 0).val = (y 0).val; omega
  | ⟨1, _⟩ => show win3_7.index t (1 : Fin 2) * 128 + 1 * (y 1).val = (y 1).val; omega

/-- Window 8 (the shortcut's weight) reads its whole array at every point. -/
theorem blk_8 (c : Dev nD) (t : Fin cfg3.N) : iblk3 V c 8 t = V c main_arg12 := by
  funext y
  show V c main_arg12 (((cfg3.win 8).blk t).view.emb y) = V c main_arg12 y
  refine congrArg _ (funext fun a => Fin.ext ?_)
  have f := index_facts t
  match a with
  | ⟨0, _⟩ => show win3_8.index t (0 : Fin 2) * 128 + 1 * (y 0).val = (y 0).val; omega
  | ⟨1, _⟩ => show win3_8.index t (1 : Fin 2) * 128 + 1 * (y 1).val = (y 1).val; omega

/-- Window 9 (the shortcut's bias row) reads its whole array at every point. -/
theorem blk_9 (c : Dev nD) (t : Fin cfg3.N) : iblk3 V c 9 t = V c main_v39 := by
  funext y
  show V c main_v39 (((cfg3.win 9).blk t).view.emb y) = V c main_v39 y
  refine congrArg _ (funext fun a => Fin.ext ?_)
  have f := index_facts t
  match a with
  | ⟨0, _⟩ => show win3_9.index t (0 : Fin 2) * 1 + 1 * (y 0).val = (y 0).val; omega
  | ⟨1, _⟩ => show win3_9.index t (1 : Fin 2) * 128 + 1 * (y 1).val = (y 1).val; omega

/-- The id column's block at point t, at row r, is the array's row 2000 t + r. -/
theorem blk_0 (c : Dev nD) (t : Fin cfg3.N) (r : Fin 2000) (R : Fin 100000) (hR : R.val = t.val * 2000 + r.val) :
    iblk3 V c 0 t (ix2 r (0 : Fin 1)) = V c main_v0 (ix2 R (0 : Fin 1)) := by
  show V c main_v0 (((cfg3.win 0).blk t).view.emb (ix2 r (0 : Fin 1))) = V c main_v0 (ix2 R (0 : Fin 1))
  refine congrArg _ (funext fun a => Fin.ext ?_)
  have f := index_facts t
  match a with
  | ⟨0, _⟩ => show win3_0.index t (0 : Fin 2) * 2000 + 1 * r.val = R.val; omega
  | ⟨1, _⟩ => show win3_0.index t (1 : Fin 2) * 1 + 1 * 0 = 0; omega

/-- The output's block at point t, at (r, d), sits at (2000 t + r, d) of the array. -/
theorem emb_10 (t : Fin cfg3.N) (r : Fin 2000) (d : Fin 128) (R : Fin 100000) (hR : R.val = t.val * 2000 + r.val) :
    ((cfg3.win 10).blk t).view.emb (ix2 r d) = ix2 R d := by
  refine funext fun a => Fin.ext ?_
  have f := index_facts t
  match a with
  | ⟨0, _⟩ => show win3_10.index t (0 : Fin 2) * 2000 + 1 * r.val = R.val; omega
  | ⟨1, _⟩ => show win3_10.index t (1 : Fin 2) * 128 + 1 * d.val = d.val; omega

/-! ### What a point writes back, the cover, and the array -/

/-- The row of the array that row r of block t is. -/
def rowOf (t : Fin cfg3.N) (r : Fin 2000) : Fin 100000 :=
  ⟨t.val * 2000 + r.val, by have h1 : t.val < 50 := t.isLt; have h2 := r.isLt; omega⟩

/-- Block t of the body's value, entry by entry, is the head of the network on the expansion, read at the block's place
    in the array: row r of the block is row 2000 t + r, whose id word is the id column's, and the bias rows are the bias
    vectors. -/
theorem block_eq (c : Dev nD) (gid : Cert.Spec.SN.Idx → BitVec 32)
    (hg : ∀ r : Fin 100000, V c main_v0 (ix2 r (0 : Fin 1)) = gid (ix1 r))
    (c1 c2 c3 cs : Cert.Spec.SD.Idx → EReal)
    (h1 : ∀ d : Fin 128, V c main_v36 (ix2 (0 : Fin 1) d) = c1 (ix1 d))
    (h2 : ∀ d : Fin 128, V c main_v37 (ix2 (0 : Fin 1) d) = c2 (ix1 d))
    (h3 : ∀ d : Fin 128, V c main_v38 (ix2 (0 : Fin 1) d) = c3 (ix1 d))
    (hs : ∀ d : Fin 128, V c main_v39 (ix2 (0 : Fin 1) d) = cs (ix1 d)) (t : Fin cfg3.N) (j : S2000x128.Idx) :
    headB (expandB (iblk3 V c 0 t) (V c main_v35)) (V c main_arg6) (V c main_v36) (V c main_arg8) (V c main_v37)
        (V c main_arg10) (V c main_v38) (V c main_arg12) (V c main_v39) j
      = Cert.Spec.head (Cert.Spec.expand gid (V c main_v35)) (V c main_arg6) c1 (V c main_arg8) c2 (V c main_arg10) c3
          (V c main_arg12) cs (((cfg3.win 10).blk t).view.emb j) := by
  obtain ⟨r, d, rfl⟩ : ∃ (r : Fin 2000) (d : Fin 128), j = ix2 r d := ⟨j 0, j 1, eq_ix2 j⟩
  rw [emb_10 t r d (rowOf t r) rfl]
  exact head_row (expandB (iblk3 V c 0 t) (V c main_v35)) (Cert.Spec.expand gid (V c main_v35))
    (V c main_arg6) (V c main_v36) c1 (V c main_arg8) (V c main_v37) c2 (V c main_arg10) (V c main_v38) c3
    (V c main_arg12) (V c main_v39) cs r (rowOf t r)
    (fun k => expand_row (iblk3 V c 0 t) (V c main_v35) gid r (rowOf t r)
      ((blk_0 V c t r (rowOf t r) rfl).trans (hg (rowOf t r))) k)
    h1 h2 h3 hs d

/-- What point t writes back is block t of the head of the network on the expansion of the per-graph rows. -/
theorem flushed_eq (c : Dev nD) (gid : Cert.Spec.SN.Idx → BitVec 32)
    (hg : ∀ r : Fin 100000, V c main_v0 (ix2 r (0 : Fin 1)) = gid (ix1 r))
    (c1 c2 c3 cs : Cert.Spec.SD.Idx → EReal)
    (h1 : ∀ d : Fin 128, V c main_v36 (ix2 (0 : Fin 1) d) = c1 (ix1 d))
    (h2 : ∀ d : Fin 128, V c main_v37 (ix2 (0 : Fin 1) d) = c2 (ix1 d))
    (h3 : ∀ d : Fin 128, V c main_v38 (ix2 (0 : Fin 1) d) = c3 (ix1 d))
    (hs : ∀ d : Fin 128, V c main_v39 (ix2 (0 : Fin 1) d) = cs (ix1 d)) (t : Fin cfg3.N) :
    (dat3 (F := Ideal) V c).flushed 10 t
      = ((cfg3.win 10).blk t).view.read (Elt Ideal)
          (Cert.Spec.head (Cert.Spec.expand gid (V c main_v35)) (V c main_arg6) c1 (V c main_arg8) c2
            (V c main_arg10) c3 (V c main_arg12) cs) := by
  show (cfg3.win 10).cut (grid3.coords t) ((dat3 V c).after 10 t) = _
  rw [after3_10]
  unfold out3_10
  rw [View.canon_unit_zero off_zero]
  simp only [View.ld_unit_zero (S := S2000x1) off_zero, View.ld_unit_zero (S := S256x128) off_zero,
    View.ld_unit_zero (S := S128x128) off_zero, View.ld_unit_zero (S := S1x128) off_zero]
  rw [pay1_eq (iblk3 V c 0 t) (iblk3 V c 1 t) (iblk3 V c 2 t) (iblk3 V c 3 t) (iblk3 V c 4 t) (iblk3 V c 5 t)
    (iblk3 V c 6 t) (iblk3 V c 7 t) (iblk3 V c 8 t) (iblk3 V c 9 t)]
  rw [blk_1 V c t, blk_2 V c t, blk_3 V c t, blk_4 V c t, blk_5 V c t, blk_6 V c t, blk_7 V c t, blk_8 V c t, blk_9 V c t]
  funext j
  exact block_eq V c gid hg c1 c2 c3 cs h1 h2 h3 hs t j

/-- An index of the array is in point t's block iff each coordinate is in the block's range on its axis. -/
theorem mem_blk (t : Fin cfg3.N) (i : S100000x128.Idx) :
    i ∈ ((cfg3.win 10).blk t).view.set ↔ ∀ a : Fin 2, win3_10.index t a * S2000x128.size a ≤ (i a).val
      ∧ (i a).val < win3_10.index t a * S2000x128.size a + S2000x128.size a := by
  show i ∈ ((View.whole main_v40).slice (win3_10.rect t)).set ↔ _
  rw [View.set_slice_whole, Rect.mem_set_unit]
  exact Iff.rfl

/-- The 50 blocks cover the array: row R is in the block of point R / 2000. -/
theorem cover (i : S100000x128.Idx) :
    ∃ t : Fin cfg3.N, (cfg3.win 10).flush t = true ∧ i ∈ ((cfg3.win 10).blk t).view.set := by
  have hi0 : (i 0).val < 100000 := (i 0).isLt
  have hi1 : (i 1).val < 128 := (i 1).isLt
  obtain ⟨t, ht⟩ : ∃ t : Fin cfg3.N, t.val = (i 0).val / 2000 :=
    ⟨⟨(i 0).val / 2000, by show (i 0).val / 2000 < 50; omega⟩, rfl⟩
  refine ⟨t, flush3_10 t, ?_⟩
  rw [mem_blk]
  have f := index_facts t
  intro a
  match a with
  | ⟨0, _⟩ =>
    show win3_10.index t (0 : Fin 2) * 2000 ≤ (i 0).val ∧ (i 0).val < win3_10.index t (0 : Fin 2) * 2000 + 2000
    omega
  | ⟨1, _⟩ =>
    show win3_10.index t (1 : Fin 2) * 128 ≤ (i 1).val ∧ (i 1).val < win3_10.index t (1 : Fin 2) * 128 + 128
    omega

/-- After the 50 points the output array holds the head of the network applied to the per-graph rows `p` repeated to
    the nodes: `gid` is the column of the [100000, 1] id array, each bias the row of the [1, 128] array the region reads. -/
theorem final (c : Dev nD) (gid : Cert.Spec.SN.Idx → BitVec 32)
    (hg : ∀ r : Fin 100000, V c main_v0 (ix2 r (0 : Fin 1)) = gid (ix1 r))
    (c1 c2 c3 cs : Cert.Spec.SD.Idx → EReal)
    (h1 : ∀ d : Fin 128, V c main_v36 (ix2 (0 : Fin 1) d) = c1 (ix1 d))
    (h2 : ∀ d : Fin 128, V c main_v37 (ix2 (0 : Fin 1) d) = c2 (ix1 d))
    (h3 : ∀ d : Fin 128, V c main_v38 (ix2 (0 : Fin 1) d) = c3 (ix1 d))
    (hs : ∀ d : Fin 128, V c main_v39 (ix2 (0 : Fin 1) d) = cs (ix1 d)) :
    (dat3 (F := Ideal) V c).arrAt 10 cfg3.N
      = Cert.Spec.head (Cert.Spec.expand gid (V c main_v35)) (V c main_arg6) c1 (V c main_arg8) c2
          (V c main_arg10) c3 (V c main_arg12) cs :=
  (dat3 (F := Ideal) V c).arrAt_eq_of_cover 10 _
    (fun t _ => flushed_eq V c gid hg c1 c2 c3 cs h1 h2 h3 hs t) cover

end Cert.KernelIdeal.R3Value

end
-- ==== Proof.KernelValue.lean ====
/- The kernel program's result array, after its four regions and the host operations between them, is the function G
   of the launch memory's argument arrays. -/
import proofs.«409535_j90245852823923_1_alg».proof.Proof.Gen.KernelIdeal.Frame
import proofs.«409535_j90245852823923_1_alg».proof.Proof.Spec
import proofs.«409535_j90245852823923_1_alg».proof.Proof.Adj
import proofs.«409535_j90245852823923_1_alg».proof.Proof.HostReads
import proofs.«409535_j90245852823923_1_alg».proof.Proof.R0Value
import proofs.«409535_j90245852823923_1_alg».proof.Proof.R1Value
import proofs.«409535_j90245852823923_1_alg».proof.Proof.R2Value
import proofs.«409535_j90245852823923_1_alg».proof.Proof.R3Value
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KernelValue

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg) (c : Dev nD)

theorem result : W8 m ρ c (Proc.devRef .tc main_v40)
    = Cert.Spec.G (Cert.Adj.adj (m ((c : Thread nD τ).loc main_arg1)) (m ((c : Thread nD τ).loc main_arg14)) (m ((c : Thread nD τ).loc main_arg15))) (m ((c : Thread nD τ).loc main_arg0)) (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg16)) := by
  -- region 0 leaves feat · W₁
  have r0 : V2 m ρ c main_v1 = Cert.Spec.mm (m ((c : Thread nD τ).loc main_arg0)) (m ((c : Thread nD τ).loc main_arg2)) := by
    refine (W2_arr m ρ c 2).trans ?_
    rw [Cert.KernelIdeal.R0Value.final (V1 m ρ) c, Cert.KernelIdeal.HostReads.V1_arg0, Cert.KernelIdeal.HostReads.V1_arg2]
  -- region 1 leaves relu (A (feat · W₁) + b₁) · W₂
  have r1 : V4 m ρ c main_v16 = Cert.Spec.mm (Cert.Spec.relu (Cert.Spec.addRow
      (Cert.Adj.adj (m ((c : Thread nD τ).loc main_arg1)) (m ((c : Thread nD τ).loc main_arg14)) (m ((c : Thread nD τ).loc main_arg15)) (Cert.Spec.mm (m ((c : Thread nD τ).loc main_arg0)) (m ((c : Thread nD τ).loc main_arg2)))) (m ((c : Thread nD τ).loc main_arg3)))) (m ((c : Thread nD τ).loc main_arg4)) := by
    refine (W4_arr m ρ c 3).trans ?_
    rw [Cert.KernelIdeal.R1Value.final (V3 m ρ) c (m ((c : Thread nD τ).loc main_arg3)) (Cert.KernelIdeal.HostReads.V3_v15 m ρ c),
      Cert.KernelIdeal.HostReads.V3_v14, Cert.KernelIdeal.HostReads.V3_arg4, r0]
  -- region 2 leaves the per-graph sums and counts of the node rows
  have r2s : V6 m ρ c main_v31_0 = Cert.Spec.poolSum (m ((c : Thread nD τ).loc main_arg16)) (Cert.Spec.layers (Cert.Adj.adj (m ((c : Thread nD τ).loc main_arg1)) (m ((c : Thread nD τ).loc main_arg14)) (m ((c : Thread nD τ).loc main_arg15)))
      (m ((c : Thread nD τ).loc main_arg0)) (m ((c : Thread nD τ).loc main_arg2)) (m ((c : Thread nD τ).loc main_arg3)) (m ((c : Thread nD τ).loc main_arg4)) (m ((c : Thread nD τ).loc main_arg5))) := by
    refine (W6_arr m ρ c 3).trans ?_
    rw [Cert.KernelIdeal.R2Value.final_sum (V5 m ρ) c (m ((c : Thread nD τ).loc main_arg5)) (Cert.KernelIdeal.HostReads.V5_v30 m ρ c) (m ((c : Thread nD τ).loc main_arg16))
      (Cert.KernelIdeal.HostReads.V5_v0 m ρ c), Cert.KernelIdeal.HostReads.V5_v29, r1]
    rfl
  have r2c : V6 m ρ c main_v31_1 = fun j => Cert.Spec.count (m ((c : Thread nD τ).loc main_arg16)) (j 0) := by
    refine (W6_arr m ρ c 4).trans ?_
    exact Cert.KernelIdeal.R2Value.final_count (V5 m ρ) c (m ((c : Thread nD τ).loc main_arg16)) (Cert.KernelIdeal.HostReads.V5_v0 m ρ c)
  -- the host's division gives the means
  have hp : V7 m ρ c main_v35 = Cert.Spec.pooled (m ((c : Thread nD τ).loc main_arg16)) (Cert.Spec.layers (Cert.Adj.adj (m ((c : Thread nD τ).loc main_arg1)) (m ((c : Thread nD τ).loc main_arg14)) (m ((c : Thread nD τ).loc main_arg15)))
      (m ((c : Thread nD τ).loc main_arg0)) (m ((c : Thread nD τ).loc main_arg2)) (m ((c : Thread nD τ).loc main_arg3)) (m ((c : Thread nD τ).loc main_arg4)) (m ((c : Thread nD τ).loc main_arg5))) := by
    rw [Cert.KernelIdeal.HostReads.V7_v35, r2s, r2c]
    rfl
  -- region 3 leaves the head of the network on the means repeated to the nodes
  refine (W8_arr m ρ c 10).trans ?_
  rw [Cert.KernelIdeal.R3Value.final (V7 m ρ) c (m ((c : Thread nD τ).loc main_arg16)) (Cert.KernelIdeal.HostReads.V7_v0 m ρ c)
    (m ((c : Thread nD τ).loc main_arg7)) (m ((c : Thread nD τ).loc main_arg9)) (m ((c : Thread nD τ).loc main_arg11)) (m ((c : Thread nD τ).loc main_arg13))
    (Cert.KernelIdeal.HostReads.V7_v36 m ρ c) (Cert.KernelIdeal.HostReads.V7_v37 m ρ c)
    (Cert.KernelIdeal.HostReads.V7_v38 m ρ c) (Cert.KernelIdeal.HostReads.V7_v39 m ρ c),
    hp, Cert.KernelIdeal.HostReads.V7_arg6, Cert.KernelIdeal.HostReads.V7_arg8, Cert.KernelIdeal.HostReads.V7_arg10,
    Cert.KernelIdeal.HostReads.V7_arg12]
  rfl

end Cert.KernelIdeal.KernelValue

end
-- ==== Proof.RefPool.lean ====
/- The reference's readout, read as sums: with every graph id in [0, 256), the two scatter-adds are the per-graph sums
   and counts, and the gather takes each node's graph's row. -/
import proofs.«409535_j90245852823923_1_alg».proof.Proof.Gen.ReferenceIdeal.Read
import proofs.«409535_j90245852823923_1_alg».proof.Proof.Spec

import Idealize.ShloMosaic.Lib.Pipeline.Value
import Idealize.ShloMosaic.Lib.ValueIdx
import Idealize.ShloMosaic.Lib.ValueIdxRank1
import Idealize.ShloMosaic.Lib.ValueLayout
import Idealize.ShloMosaic.Lib.IdealHost
import Idealize.ShloMosaic.PureOps.Ideal.Laws

noncomputable section

namespace Cert.RefPool

open Cert.ReferenceIdeal Cert.ReferenceIdeal.Read
open Idealize.ShloMosaic Idealize.ShloMosaic.ValueIdx

/-! ## Indices and words -/

/-- Two rank-2 indices are equal exactly when their coordinates are. -/
private theorem ix2_inj {n0 n1 : Nat} (a a' : Fin n0) (b b' : Fin n1) : ix2 a b = ix2 a' b' ↔ a = a' ∧ b = b' := by
  constructor
  · intro h
    exact ⟨congrFun h 0, congrFun h 1⟩
  · rintro ⟨rfl, rfl⟩; rfl

/-- Two rank-1 indices are equal exactly when their coordinates are. -/
private theorem ix1_inj {n : Nat} (a a' : Fin n) : ix1 a = ix1 a' ↔ a = a' := by
  constructor
  · intro h
    exact congrFun h 0
  · rintro rfl; rfl

/-- For a 32-bit word x whose signed value lies in [0, 256): that value is g exactly when x is the word of g. -/
private theorem word_eq_iff (x : BitVec 32) (h0 : 0 ≤ x.toInt) (h1 : x.toInt < 256) (g : Fin 256) :
    (⟨x.toInt.toNat, by omega⟩ : Fin 256) = g ↔ x = BitVec.ofNat 32 g.val := by
  have hg := g.isLt
  have hx := BitVec.toInt_eq_toNat_cond x
  have hxlt := x.isLt
  constructor
  · intro h
    have hv : x.toInt.toNat = g.val := congrArg Fin.val h
    apply BitVec.eq_of_toNat_eq
    rw [BitVec.toNat_ofNat]
    split at hx <;> omega
  · intro h
    apply Fin.ext
    show x.toInt.toNat = g.val
    have ht : x.toNat = g.val := by rw [h, BitVec.toNat_ofNat]; omega
    split at hx <;> omega

/-- A word whose signed value is not negative is not below the zero word in the signed order. -/
private theorem slt_zero_of_nonneg (x : BitVec 32) (h0 : 0 ≤ x.toInt) : IntOp.cmpi .slt x 0#32 = 0#1 := by
  unfold IntOp.cmpi
  have : x.slt 0#32 = false := by
    rw [BitVec.slt_eq_decide]
    simp only [BitVec.toInt_zero, decide_eq_false_iff_not, not_lt]
    exact h0
  rw [this]; rfl

/-! ## The id column: entry (r, 0) of each [100000, 1] index table is node r's id -/

private theorem v40_at (gid : IVec S100000 32) (r : Fin 100000) :
    val_main_v40 (F := Ideal) gid (ix2 r (0 : Fin 1)) = gid (ix1 r) := by
  rw [val_main_v40_apply]
  congr 1
  funext a
  match a with
  | ⟨0, _⟩ => rfl

private theorem v37_at (gid : IVec S100000 32) (r : Fin 100000) :
    val_main_v37 (F := Ideal) gid (ix2 r (0 : Fin 1)) = gid (ix1 r) := by
  rw [val_main_v37_apply]
  congr 1
  funext a
  match a with
  | ⟨0, _⟩ => rfl

/-- The wrapped ids, select (id < 0) (id + 256) id, are the ids themselves where no id is negative: the select takes
    its else-branch. -/
private theorem v52_at (gid : IVec S100000 32) (r : Fin 100000) (h0 : 0 ≤ (gid (ix1 r)).toInt) :
    val_main_v52 (F := Ideal) gid (ix2 r (0 : Fin 1)) = gid (ix1 r) := by
  rw [val_main_v52_apply]
  have hi : idx_main_v52 (ix2 r (0 : Fin 1)) = ix1 r := by
    funext a
    match a with
    | ⟨0, _⟩ => rfl
  rw [hi, val_main_v51_apply, val_main_v48_apply, val_main_v47_apply, val_main_c_8_apply,
    slt_zero_of_nonneg _ h0, select_zero]

/-! ## The row scatter: update window axis [1], inserted axis [0], the scatter axis going to operand axis [0], the index
    vector on axis 1. Update index (r, c) reads its one start component at (r, 0) of the index table; the window
    coordinate is 0 on operand axis 0 and c on operand axis 1; the start is 0 on operand axis 1. -/

private abbrev DS := scatter_S256x128_S100000x1_S100000x128_1_0_0_1

private theorem siIdx_sums (r : Fin 100000) (c : Fin 128) (k : Fin DS.scatterDimsToOperandDims.length) :
    DS.siIdx (ix2 r c) k = ix2 r (0 : Fin 1) := by
  funext b
  match b with
  | ⟨0, _⟩ => rfl
  | ⟨1, _⟩ =>
    apply Fin.ext
    have := k.isLt
    show k.val = 0
    simp [DS, scatter_S256x128_S100000x1_S100000x128_1_0_0_1] at this
    omega

private theorem start0_sums (idx : IVec S100000x1 32) (r : Fin 100000) (c : Fin 128) :
    DS.start (ix2 r c) idx 0 = (idx (ix2 r 0)).toInt := by
  unfold ScatterDims.start
  rw [dif_pos (by decide), siIdx_sums]

private theorem start1_sums (idx : IVec S100000x1 32) (r : Fin 100000) (c : Fin 128) :
    DS.start (ix2 r c) idx 1 = 0 := by
  unfold ScatterDims.start
  rw [dif_neg (by decide)]

private theorem window0_sums (r : Fin 100000) (c : Fin 128) : DS.window (ix2 r c) 0 = 0 := by
  unfold ScatterDims.window
  rw [dif_neg (by decide)]

private theorem window1_sums (r : Fin 100000) (c : Fin 128) : DS.window (ix2 r c) 1 = c.val := by
  unfold ScatterDims.window
  rw [dif_pos (by decide)]
  rfl

/-- Update index (r, c) lands at result index (signed value of the index entry (r, 0), c) when that value is in
    [0, 256): start plus window coordinate is inside the operand on both axes. -/
private theorem resultIdx_sums (idx : IVec S100000x1 32) (r : Fin 100000) (c : Fin 128)
    (h0 : 0 ≤ (idx (ix2 r 0)).toInt) (h1 : (idx (ix2 r 0)).toInt < 256) :
    DS.resultIdx? (ix2 r c) idx = some (ix2 (⟨(idx (ix2 r 0)).toInt.toNat, by omega⟩ : Fin 256) c) := by
  unfold ScatterDims.resultIdx?
  have hall : ∀ a, 0 ≤ DS.start (ix2 r c) idx a + DS.window (ix2 r c) a ∧
      DS.start (ix2 r c) idx a + DS.window (ix2 r c) a < S256x128.size a := by
    intro a
    match a with
    | ⟨0, _⟩ =>
      show 0 ≤ DS.start (ix2 r c) idx 0 + DS.window (ix2 r c) 0 ∧ DS.start (ix2 r c) idx 0 + DS.window (ix2 r c) 0 < (256 : Nat)
      rw [start0_sums, window0_sums]; omega
    | ⟨1, _⟩ =>
      show 0 ≤ DS.start (ix2 r c) idx 1 + DS.window (ix2 r c) 1 ∧ DS.start (ix2 r c) idx 1 + DS.window (ix2 r c) 1 < (128 : Nat)
      rw [start1_sums, window1_sums]; have := c.isLt; omega
  rw [dif_pos hall]
  congr 1
  funext a
  match a with
  | ⟨0, _⟩ =>
    apply Fin.ext
    show (DS.start (ix2 r c) idx 0 + DS.window (ix2 r c) 0).toNat = (idx (ix2 r 0)).toInt.toNat
    rw [start0_sums, window0_sums]; simp
  | ⟨1, _⟩ =>
    apply Fin.ext
    show (DS.start (ix2 r c) idx 1 + DS.window (ix2 r c) 1).toNat = c.val
    rw [start1_sums, window1_sums]; simp

/-- The sum of the updates landing at (g, d), for any index table whose every entry is in [0, 256): the sum over the
    update indices splits into the rows r and the columns c; column c lands in column c, so only c = d remains, and row r
    lands in row g exactly when its index entry is the word of g. -/
private theorem scatter_sum (idx : IVec S100000x1 32)
    (hidx : ∀ r : Fin 100000, 0 ≤ (idx (ix2 r 0)).toInt ∧ (idx (ix2 r 0)).toInt < 256)
    (h : S100000x128.Idx → EReal) (g : Fin 256) (d : Fin 128) :
    ∑ j ∈ Finset.univ.filter (fun j => DS.resultIdx? j idx = some (ix2 g d)), h j
      = ∑ r : Fin 100000, if idx (ix2 r 0) = BitVec.ofNat 32 g.val then h (ix2 r d) else 0 := by
  rw [Finset.sum_filter, sum_idx2]
  refine Finset.sum_congr rfl fun r _ => ?_
  have hr := hidx r
  have hstep : ∀ c : Fin 128, (if DS.resultIdx? (ix2 r c) idx = some (ix2 g d) then h (ix2 r c) else 0)
      = if c = d then (if idx (ix2 r 0) = BitVec.ofNat 32 g.val then h (ix2 r d) else 0) else 0 := by
    intro c
    have hiff : DS.resultIdx? (ix2 r c) idx = some (ix2 g d) ↔ (idx (ix2 r 0) = BitVec.ofNat 32 g.val ∧ c = d) := by
      rw [resultIdx_sums idx r c hr.1 hr.2, Option.some_inj, ix2_inj, word_eq_iff _ hr.1 hr.2 g]
    by_cases hc : c = d
    · subst hc
      by_cases hw : idx (ix2 r 0) = BitVec.ofNat 32 g.val
      · rw [if_pos (hiff.2 ⟨hw, rfl⟩), if_pos rfl, if_pos hw]
      · rw [if_neg (fun h' => hw (hiff.1 h').1), if_pos rfl, if_neg hw]
    · rw [if_neg (fun h' => hc (hiff.1 h').2), if_neg hc]
  rw [Finset.sum_congr rfl fun c _ => hstep c, Finset.sum_ite_eq' Finset.univ d]
  simp

/-! ## The count scatter: rank-1 updates, no window axis, inserted axis [0]. Update index r reads its start component at
    (r, 0) of the index table and has window coordinate 0. -/

private abbrev DC := scatter_S256_S100000x1_S100000_n_0_0_1

private theorem siIdx_counts (r : Fin 100000) (k : Fin DC.scatterDimsToOperandDims.length) :
    DC.siIdx (ix1 r) k = ix2 r (0 : Fin 1) := by
  funext b
  match b with
  | ⟨0, _⟩ => rfl
  | ⟨1, _⟩ =>
    apply Fin.ext
    have := k.isLt
    show k.val = 0
    simp [DC, scatter_S256_S100000x1_S100000_n_0_0_1] at this
    omega

private theorem start_counts (idx : IVec S100000x1 32) (r : Fin 100000) :
    DC.start (ix1 r) idx 0 = (idx (ix2 r 0)).toInt := by
  unfold ScatterDims.start
  rw [dif_pos (by decide), siIdx_counts]

private theorem window_counts (r : Fin 100000) : DC.window (ix1 r) 0 = 0 := by
  unfold ScatterDims.window
  rw [dif_neg (by decide)]

/-- Update index r lands at the signed value of the index entry (r, 0) when that value is in [0, 256). -/
private theorem resultIdx_counts (idx : IVec S100000x1 32) (r : Fin 100000)
    (h0 : 0 ≤ (idx (ix2 r 0)).toInt) (h1 : (idx (ix2 r 0)).toInt < 256) :
    DC.resultIdx? (ix1 r) idx = some (ix1 (⟨(idx (ix2 r 0)).toInt.toNat, by omega⟩ : Fin 256)) := by
  unfold ScatterDims.resultIdx?
  have hall : ∀ a, 0 ≤ DC.start (ix1 r) idx a + DC.window (ix1 r) a ∧
      DC.start (ix1 r) idx a + DC.window (ix1 r) a < S256.size a := by
    intro a
    match a with
    | ⟨0, _⟩ =>
      show 0 ≤ DC.start (ix1 r) idx 0 + DC.window (ix1 r) 0 ∧ DC.start (ix1 r) idx 0 + DC.window (ix1 r) 0 < (256 : Nat)
      rw [start_counts, window_counts]; omega
  rw [dif_pos hall]
  congr 1
  funext a
  match a with
  | ⟨0, _⟩ =>
    apply Fin.ext
    show (DC.start (ix1 r) idx 0 + DC.window (ix1 r) 0).toNat = (idx (ix2 r 0)).toInt.toNat
    rw [start_counts, window_counts]; simp

/-- The sum of the updates landing at g: update r lands there exactly when its index entry is the word of g. -/
private theorem count_sum (idx : IVec S100000x1 32)
    (hidx : ∀ r : Fin 100000, 0 ≤ (idx (ix2 r 0)).toInt ∧ (idx (ix2 r 0)).toInt < 256)
    (u : S100000.Idx → EReal) (g : Fin 256) :
    ∑ j ∈ Finset.univ.filter (fun j => DC.resultIdx? j idx = some (ix1 g)), u j
      = ∑ r : Fin 100000, if idx (ix2 r 0) = BitVec.ofNat 32 g.val then u (ix1 r) else 0 := by
  rw [Finset.sum_filter, ← Equiv.sum_comp (idxEquiv1 (n := 100000)).symm]
  refine Finset.sum_congr rfl fun r _ => ?_
  have hr := hidx r
  show (if DC.resultIdx? (ix1 r) idx = some (ix1 g) then u (ix1 r) else 0) = _
  have hiff : DC.resultIdx? (ix1 r) idx = some (ix1 g) ↔ idx (ix2 r 0) = BitVec.ofNat 32 g.val := by
    rw [resultIdx_counts idx r hr.1 hr.2, Option.some_inj, ix1_inj, word_eq_iff _ hr.1 hr.2 g]
  by_cases hw : idx (ix2 r 0) = BitVec.ofNat 32 g.val
  · rw [if_pos (hiff.2 hw), if_pos hw]
  · rw [if_neg (fun h' => hw (hiff.1 h')), if_neg hw]

/-! ## The take: operand axis 0 collapsed and start-indexed, operand axis 1 the one offset axis, slice sizes [1, 128].
    Result index (r, c) reads the operand at (start, c), the start being the signed value of the index entry (r, 0)
    clamped into [0, 255]: the clamp is the identity on [0, 256). -/

private abbrev DG := gather_S256x128_S100000x1_S100000x128_1_0_n_n_0_1_1128

private theorem siIdx_rows (r : Fin 100000) (c : Fin 128) (k : Fin DG.startIndexMap.length) :
    DG.siIdx (ix2 r c) k = ix2 r (0 : Fin 1) := by
  funext b
  match b with
  | ⟨0, _⟩ => rfl
  | ⟨1, _⟩ =>
    apply Fin.ext
    have := k.isLt
    show k.val = 0
    simp [DG, gather_S256x128_S100000x1_S100000x128_1_0_n_n_0_1_1128] at this
    omega

private theorem operandIdx_rows (idx : IVec S100000x1 32) (r : Fin 100000) (c : Fin 128)
    (h0 : 0 ≤ (idx (ix2 r 0)).toInt) (h1 : (idx (ix2 r 0)).toInt < 256) :
    DG.operandIdx (ix2 r c) idx = ix2 (⟨(idx (ix2 r 0)).toInt.toNat, by omega⟩ : Fin 256) c := by
  funext a
  match a with
  | ⟨0, _⟩ =>
    apply Fin.ext
    show DG.start (ix2 r c) idx 0 + DG.batchCoord (ix2 r c) 0 + DG.offCoord (ix2 r c) 0 = (idx (ix2 r 0)).toInt.toNat
    rw [GatherDims.batchCoord_eq_zero _ _ _ (by decide), GatherDims.offCoord_eq_zero _ _ _ (by decide)]
    unfold GatherDims.start
    rw [dif_pos (by decide), siIdx_rows]
    show min (idx (ix2 r 0)).toInt.toNat (256 - 1) + 0 + 0 = _
    omega
  | ⟨1, _⟩ =>
    apply Fin.ext
    show DG.start (ix2 r c) idx 1 + DG.batchCoord (ix2 r c) 1 + DG.offCoord (ix2 r c) 1 = c.val
    rw [GatherDims.batchCoord_eq_zero _ _ _ (by decide)]
    unfold GatherDims.start GatherDims.offCoord
    rw [dif_neg (by decide), dif_pos (by decide)]
    show 0 + 0 + c.val = c.val
    omega

/-! ## The three readings -/

variable (gid : IVec S100000 32)

/-- Adding the rows up at their graphs: entry (g, d) is the sum over the nodes r of [gid r = g] · h (r, d). -/
theorem sums (hg : ∀ r : Fin 100000, 0 ≤ (gid (ix1 r)).toInt ∧ (gid (ix1 r)).toInt < 256) (h : FVec Ideal S100000x128 .f32) :
    Host.scatterAdd (F := Ideal) (φ := .f32) scatter_S256x128_S100000x1_S100000x128_1_0_0_1 (val_main_v39 (F := Ideal))
      (val_main_v40 (F := Ideal) gid) h = Cert.Spec.poolSum gid h := by
  funext i
  obtain ⟨g, d, rfl⟩ : ∃ g d, i = ix2 g d := ⟨i 0, i 1, eq_ix2 i⟩
  -- the operand's entry plus the sum of the updates that land on it
  show val_main_v39 (F := Ideal) (ix2 g d)
      + ∑ j ∈ Finset.univ.filter (fun j => DS.resultIdx? j (val_main_v40 (F := Ideal) gid) = some (ix2 g d)), h j = _
  -- the operand is the zero word everywhere
  have hz : val_main_v39 (F := Ideal) (ix2 g d) = 0 := by
    rw [val_main_v39_apply, val_main_cst_6_apply]; exact Ideal.ofBits_zero_f32
  rw [hz, zero_add, scatter_sum (val_main_v40 (F := Ideal) gid) (fun r => by rw [v40_at]; exact hg r) h g d,
    Cert.Spec.poolSum_apply]
  refine Finset.sum_congr rfl fun r _ => ?_
  -- an indicator times a value: 1 · x = x and 0 · x = 0 for every extended real x
  rw [v40_at]
  unfold Cert.Spec.ind
  rw [ite_mul, one_mul, zero_mul]

/-- Adding ones up at the graphs: entry g is the number of nodes of graph g. -/
theorem counts (hg : ∀ r : Fin 100000, 0 ≤ (gid (ix1 r)).toInt ∧ (gid (ix1 r)).toInt < 256) :
    Host.scatterAdd (F := Ideal) (φ := .f32) scatter_S256_S100000x1_S100000_n_0_0_1 (val_main_v36 (F := Ideal))
      (val_main_v37 (F := Ideal) gid) (val_main_v35 (F := Ideal)) = fun j : S256.Idx => Cert.Spec.count gid (j 0) := by
  funext i
  obtain ⟨g, rfl⟩ : ∃ g, i = ix1 g := ⟨i 0, eq_ix1 i⟩
  show val_main_v36 (F := Ideal) (ix1 g)
      + ∑ j ∈ Finset.univ.filter (fun j => DC.resultIdx? j (val_main_v37 (F := Ideal) gid) = some (ix1 g)),
          val_main_v35 (F := Ideal) j = Cert.Spec.count gid g
  -- the operand is the zero word everywhere, every update the word of 1.0
  have hz : val_main_v36 (F := Ideal) (ix1 g) = 0 := by
    rw [val_main_v36_apply, val_main_cst_5_apply]; exact Ideal.ofBits_zero_f32
  have ho : ∀ j, val_main_v35 (F := Ideal) j = 1 := by
    intro j; rw [val_main_v35_apply, val_main_cst_4_apply]; exact Ideal.ofBits_one_f32
  rw [hz, zero_add, count_sum (val_main_v37 (F := Ideal) gid) (fun r => by rw [v37_at]; exact hg r) _ g]
  unfold Cert.Spec.count
  refine Finset.sum_congr rfl fun r _ => ?_
  rw [v37_at, ho]
  rfl

/-- Reading the per-graph rows back at the nodes: row r is row gid r. -/
theorem rows (hg : ∀ r : Fin 100000, 0 ≤ (gid (ix1 r)).toInt ∧ (gid (ix1 r)).toInt < 256) (p : FVec Ideal S256x128 .f32) :
    Host.gather (α := EReal) gather_S256x128_S100000x1_S100000x128_1_0_n_n_0_1_1128 p (val_main_v52 (F := Ideal) gid)
      = Cert.Spec.expand gid p := by
  funext i
  obtain ⟨r, c, rfl⟩ : ∃ r c, i = ix2 r c := ⟨i 0, i 1, eq_ix2 i⟩
  have hr := hg r
  have hv := v52_at gid r hr.1
  show p (DG.operandIdx (ix2 r c) (val_main_v52 (F := Ideal) gid)) = _
  rw [operandIdx_rows _ r c (by rw [hv]; exact hr.1) (by rw [hv]; exact hr.2), Cert.Spec.expand_apply]
  have hw : ∀ g : Fin 256, gid (ix1 r) = BitVec.ofNat 32 g.val ↔
      (⟨(val_main_v52 (F := Ideal) gid (ix2 r 0)).toInt.toNat, by rw [hv]; omega⟩ : Fin 256) = g := by
    intro g
    rw [word_eq_iff _ (by rw [hv]; exact hr.1) (by rw [hv]; exact hr.2) g, hv]
  -- of the sum over the graphs only node r's own graph remains: its indicator is 1, every other 0
  rw [Finset.sum_eq_single (⟨(val_main_v52 (F := Ideal) gid (ix2 r 0)).toInt.toNat, by rw [hv]; omega⟩ : Fin 256)]
  · unfold Cert.Spec.ind
    rw [if_pos ((hw _).2 rfl), one_mul]
  · intro g _ hne
    unfold Cert.Spec.ind
    rw [if_neg (fun h' => hne ((hw g).1 h').symm), zero_mul]
  · intro hn; exact absurd (Finset.mem_univ _) hn

end Cert.RefPool

end
-- ==== Proof.RefValue.lean ====
/- The reference's result is the function G of its arguments, when every graph id is in [0, 256). -/
import proofs.«409535_j90245852823923_1_alg».proof.Proof.Gen.ReferenceIdeal.Read
import proofs.«409535_j90245852823923_1_alg».proof.Proof.Spec
import proofs.«409535_j90245852823923_1_alg».proof.Proof.Adj
import proofs.«409535_j90245852823923_1_alg».proof.Proof.RefPool
import proofs.«409535_j90245852823923_1_alg».proof.Proof.LibDotSum
import proofs.«409535_j90245852823923_1_alg».proof.Proof.LibDense
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.RefValue

open Cert.ReferenceIdeal Cert.ReferenceIdeal.Read
open Idealize.ShloMosaic Idealize.ShloMosaic.ValueIdx

/-- The host's [100000, 128] × [128, 128] product is x · w. -/
private theorem dot_eq_mm (X : FVec Ideal S100000x128 .f32) (W : FVec Ideal S128x128 .f32) :
    Host.dotGeneral (F := Ideal) dot_S100000x128_S128x128_S100000x128_1_0_0_1_n_n none X W = Cert.Spec.mm X W := by
  funext i
  obtain ⟨r, c, rfl⟩ : ∃ (r : Fin 100000) (c : Fin 128), i = ix2 r c := ⟨i 0, i 1, eq_ix2 i⟩
  rw [Cert.Lib.dotGeneral_rc_apply _ rfl rfl rfl rfl rfl rfl, Cert.Spec.mm_apply]

/-- A [128] bias laid through a [1, 128] row along the rows and added is the bias added along every row. -/
private theorem bias_eq (h₁ : S128.BroadcastsInDim S1x128 ![1]) (h₂ : S1x128.BroadcastsInDim S100000x128 ![0, 1])
    (X : FVec Ideal S100000x128 .f32) (b : FVec Ideal S128 .f32) :
    addf (F := Ideal) (φ := .f32) X (broadcastInDim S100000x128 ![0, 1] h₂ (broadcastInDim S1x128 ![1] h₁ b))
      = Cert.Spec.addRow X b := by
  funext i
  obtain ⟨r, c, rfl⟩ : ∃ (r : Fin 100000) (c : Fin 128), i = ix2 r c := ⟨i 0, i 1, eq_ix2 i⟩
  rw [addf_apply, Cert.Lib.broadcastInDim_row_apply, Cert.Spec.addRow_apply]

/-- The maximum with the zero word spread over the array is the positive part. -/
private theorem relu_eq (h : S_.BroadcastsInDim S100000x128 ![]) (X : FVec Ideal S100000x128 .f32) :
    maximumf (F := Ideal) (φ := .f32) X (broadcastInDim S100000x128 ![] h (constant (F := Ideal) S_ .f32 0x00000000#32))
      = Cert.Spec.relu X := by
  funext i
  rw [maximumf_apply, broadcastInDim_scalar_apply, constant_apply, Cert.Spec.relu_apply]

/-- 1 / (1 + exp (−(a + b))) entry by entry, the two ones being the word of 1.0 spread over the array. -/
private theorem logistic_eq (h h' : S_.BroadcastsInDim S100000x128 ![]) (A B : FVec Ideal S100000x128 .f32) :
    Host.divf (F := Ideal) (φ := .f32) (broadcastInDim S100000x128 ![] h (constant (F := Ideal) S_ .f32 0x3F800000#32))
        (addf (F := Ideal) (φ := .f32) (broadcastInDim S100000x128 ![] h' (constant (F := Ideal) S_ .f32 0x3F800000#32))
          (Host.exp (F := Ideal) (φ := .f32) (Host.negf (F := Ideal) (φ := .f32) (addf (F := Ideal) (φ := .f32) A B))))
      = fun i => Cert.Spec.logistic (A i + B i) := by
  funext i
  rw [hostDivf_apply, addf_apply, broadcastInDim_scalar_apply, constant_apply]
  rfl

/-- The sums over the counts, a count below one read as one: the count vector is laid along the rows of [256, 128]
    through a [256, 1] column. -/
private theorem pooled_eq (h₀ : S_.BroadcastsInDim S256 ![]) (h₁ : S256.BroadcastsInDim S256x1 ![0])
    (h₂ : S256x1.BroadcastsInDim S256x128 ![0, 1]) (gid : IVec S100000 32) (H : FVec Ideal S100000x128 .f32) :
    Host.divf (F := Ideal) (φ := .f32) (Cert.Spec.poolSum gid H)
        (broadcastInDim S256x128 ![0, 1] h₂ (broadcastInDim S256x1 ![0] h₁
          (maximumf (F := Ideal) (φ := .f32) (fun j : S256.Idx => Cert.Spec.count gid (j 0))
            (broadcastInDim S256 ![] h₀ (constant (F := Ideal) S_ .f32 0x3F800000#32)))))
      = Cert.Spec.pooled gid H := by
  funext j
  obtain ⟨g, d, rfl⟩ : ∃ (g : Fin 256) (d : Fin 128), j = ix2 g d := ⟨j 0, j 1, eq_ix2 j⟩
  rw [hostDivf_apply, Cert.Lib.broadcastInDim_col_apply, maximumf_apply, broadcastInDim_scalar_apply, constant_apply,
    Cert.Spec.pooled_apply]

/-- The node rows before the readout: both aggregations are the adjacency's action, each projection a product, each
    bias added along the rows, the positive part between the two layers. -/
private theorem layers_eq (x0 : FVec Ideal S100000x128 .f32) (x1 : FVec Ideal S1600000 .f32) (x2 : FVec Ideal S128x128 .f32) (x3 : FVec Ideal S128 .f32)
    (x4 : FVec Ideal S128x128 .f32) (x5 : FVec Ideal S128 .f32) (x14 x15 : IVec S1600000 32) :
    val_main_v34 (F := Ideal) x0 x1 x2 x3 x4 x5 x14 x15
      = Cert.Spec.layers (Cert.Adj.adj x1 x14 x15) x0 x2 x3 x4 x5 := by
  unfold val_main_v34 val_main_v33 val_main_v32
  rw [Cert.Adj.second]
  unfold val_main_v18 val_main_v17 val_main_call0_v0 val_main_call0_cst val_main_v16 val_main_v15 val_main_v14
  rw [Cert.Adj.first]
  unfold val_main_v0
  rw [dot_eq_mm, bias_eq, relu_eq, dot_eq_mm, bias_eq]
  rfl

/-- The per-graph means of those rows. -/
private theorem pooled_stage (x0 : FVec Ideal S100000x128 .f32) (x1 : FVec Ideal S1600000 .f32) (x2 : FVec Ideal S128x128 .f32) (x3 : FVec Ideal S128 .f32)
    (x4 : FVec Ideal S128x128 .f32) (x5 : FVec Ideal S128 .f32) (x14 x15 : IVec S1600000 32) (x16 : IVec S100000 32)
    (hg : ∀ r : Fin 100000, 0 ≤ (x16 (ix1 r)).toInt ∧ (x16 (ix1 r)).toInt < 256) :
    val_main_v46 (F := Ideal) x0 x1 x2 x3 x4 x5 x14 x15 x16
      = Cert.Spec.pooled x16 (Cert.Spec.layers (Cert.Adj.adj x1 x14 x15) x0 x2 x3 x4 x5) := by
  unfold val_main_v46 val_main_v45 val_main_v44 val_main_v43 val_main_v42 val_main_cst_7 val_main_v41 val_main_v38
  rw [layers_eq]
  rw [Cert.RefPool.sums x16 hg]
  rw [Cert.RefPool.counts x16 hg]
  rw [pooled_eq]

/-- Each node's row of its graph's mean. -/
private theorem expand_stage (x0 : FVec Ideal S100000x128 .f32) (x1 : FVec Ideal S1600000 .f32) (x2 : FVec Ideal S128x128 .f32) (x3 : FVec Ideal S128 .f32)
    (x4 : FVec Ideal S128x128 .f32) (x5 : FVec Ideal S128 .f32) (x14 x15 : IVec S1600000 32) (x16 : IVec S100000 32)
    (hg : ∀ r : Fin 100000, 0 ≤ (x16 (ix1 r)).toInt ∧ (x16 (ix1 r)).toInt < 256) :
    val_main_v53 (F := Ideal) x0 x1 x2 x3 x4 x5 x14 x15 x16
      = Cert.Spec.expand x16 (Cert.Spec.pooled x16 (Cert.Spec.layers (Cert.Adj.adj x1 x14 x15) x0 x2 x3 x4 x5)) := by
  unfold val_main_v53
  rw [pooled_stage _ _ _ _ _ _ _ _ _ hg]
  rw [Cert.RefPool.rows x16 hg]

theorem result (x0 : FVec Ideal S100000x128 .f32) (x1 : FVec Ideal S1600000 .f32) (x2 : FVec Ideal S128x128 .f32) (x3 : FVec Ideal S128 .f32)
    (x4 : FVec Ideal S128x128 .f32) (x5 : FVec Ideal S128 .f32) (x6 : FVec Ideal S128x128 .f32) (x7 : FVec Ideal S128 .f32)
    (x8 : FVec Ideal S128x128 .f32) (x9 : FVec Ideal S128 .f32) (x10 : FVec Ideal S128x128 .f32) (x11 : FVec Ideal S128 .f32)
    (x12 : FVec Ideal S128x128 .f32) (x13 : FVec Ideal S128 .f32) (x14 x15 : IVec S1600000 32)
    (x16 : IVec S100000 32)
    (hg : ∀ r : Fin 100000, 0 ≤ (x16 (ix1 r)).toInt ∧ (x16 (ix1 r)).toInt < 256) :
    val_main_v79 (F := Ideal) x0 x1 x2 x3 x4 x5 x6 x7 x8 x9 x10 x11 x12 x13 x14 x15 x16
      = Cert.Spec.G (Cert.Adj.adj x1 x14 x15) x0 x2 x3 x4 x5 x6 x7 x8 x9 x10 x11 x12 x13 x16 := by
  unfold val_main_v79 val_main_v78 val_main_cst_11 val_main_v77 val_main_v76 val_main_cst_10 val_main_v75 val_main_v74
    val_main_v73 val_main_v72 val_main_v71 val_main_v70 val_main_v69
    val_main_v68 val_main_call3_v0 val_main_call3_cst val_main_v67 val_main_v66 val_main_v65 val_main_v64
    val_main_v63 val_main_call2_v0 val_main_call2_cst val_main_v62 val_main_v61 val_main_v60 val_main_v59
    val_main_v58 val_main_call1_v0 val_main_call1_cst val_main_v57 val_main_v56 val_main_v55 val_main_v54
  rw [expand_stage _ _ _ _ _ _ _ _ _ hg]
  rw [dot_eq_mm, bias_eq, relu_eq, dot_eq_mm, bias_eq, relu_eq, dot_eq_mm, bias_eq, relu_eq, dot_eq_mm, bias_eq,
    logistic_eq]
  rfl

end Cert.RefValue

end
-- ==== Proof.PreDecode.lean ====
/- What the precondition says of the graph ids: every one is in [0, 256) as a signed word. -/
import proofs.«409535_j90245852823923_1_alg».proof.Pre_finite_inputs
import proofs.«409535_j90245852823923_1_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreDecode

open Cert.Pre_finite_inputs Idealize.ShloMosaic Idealize.ShloMosaic.ValueIdx

/-- A signed 32-bit word that compares ≥ 0 has a non-negative value: the comparison is the bit of 0 ≤ value. -/
private theorem toInt_nonneg_of_sge {a : BitVec 32} (h : IntOp.cmpi .sge a 0#32 = 1#1) : 0 ≤ a.toInt := by
  unfold IntOp.cmpi at h
  have hb : (0#32 : BitVec 32).sle a = true := (StableHlo.Predicate.ofBool_eq_one_iff _).1 h
  have hz : (0#32 : BitVec 32).toInt = 0 := by decide
  have := BitVec.sle_iff_toInt_le.1 hb
  omega

/-- A signed 32-bit word that compares < 256 has a value below 256: the comparison is the bit of value < 256. -/
private theorem toInt_lt_of_slt {a : BitVec 32} (h : IntOp.cmpi .slt a 256#32 = 1#1) : a.toInt < 256 := by
  unfold IntOp.cmpi at h
  have hb : a.slt (256#32 : BitVec 32) = true := (StableHlo.Predicate.ofBool_eq_one_iff _).1 h
  have hz : (256#32 : BitVec 32).toInt = 256 := by decide
  have := BitVec.slt_iff_toInt_lt.1 hb
  omega

/-- The last part of the precondition. Its result is the 1-bit AND of four bits; the last two are the AND-reductions,
    over all 100000 rows, of (graph id ≥ 0) and of (graph id < 256), each compared against a broadcast scalar constant.
    A 1-bit AND is 1 only when both operands are 1, so both reductions are 1; an AND-reduction onto the one scalar index
    is 1 only when every row's bit is 1; and a broadcast scalar constant reads as that constant at every row. Row r's two
    comparison bits then read back as the bounds on the signed value of row r. The first two bits (x, y) stay opaque. -/
private theorem part4_range [Facts] {F : FTy → Type} [FloatOps F] (a16 : IVec S100000 32) (x y : IVec S_ 1)
    (h : fn_part4 (F := F) a16 x y ix0 = 1#1) (r : Fin 100000) :
    0 ≤ (a16 (ix1 r)).toInt ∧ (a16 (ix1 r)).toInt < 256 := by
  haveI : Subsingleton S_.Idx := ⟨fun a b => funext fun d => d.elim0⟩
  obtain ⟨h72, h75⟩ := IntOp.andi_eq_one.1 h
  obtain ⟨_, h71⟩ := IntOp.andi_eq_one.1 h72
  have hge := Host.reduce_andi_all _ _ _ _ _ h71 (ix1 r)
  have hlt := Host.reduce_andi_all _ _ _ _ _ h75 (ix1 r)
  exact ⟨toInt_nonneg_of_sge hge, toInt_lt_of_slt hlt⟩

theorem gid_range [hP : Cert.Pre_finite_inputs.Facts]
    (a0 : FVec Ideal S100000x128 .f32) (a1 : FVec Ideal S1600000 .f32) (a2 : FVec Ideal S128x128 .f32)
    (a3 : FVec Ideal S128 .f32) (a4 : FVec Ideal S128x128 .f32) (a5 : FVec Ideal S128 .f32) (a6 : FVec Ideal S128x128 .f32)
    (a7 : FVec Ideal S128 .f32) (a8 : FVec Ideal S128x128 .f32) (a9 : FVec Ideal S128 .f32) (a10 : FVec Ideal S128x128 .f32)
    (a11 : FVec Ideal S128 .f32) (a12 : FVec Ideal S128x128 .f32) (a13 : FVec Ideal S128 .f32)
    (a14 a15 : IVec S1600000 32) (a16 : IVec S100000 32)
    (h : Cert.Pre_finite_inputs.fn (F := Ideal) a0 a1 a2 a3 a4 a5 a6 a7 a8 a9 a10 a11 a12 a13 a14 a15 a16 = fun _ => 1#1) :
    ∀ r : Fin 100000, 0 ≤ (a16 (ix1 r)).toInt ∧ (a16 (ix1 r)).toInt < 256 := by
  -- The whole precondition, read at the scalar index, is its last part applied to the graph ids and to two bits that
  -- depend only on the float inputs; those two bits are never inspected.
  intro r
  have h0 : fn_part4 (F := Ideal) a16 _ _ ix0 = 1#1 := congrFun h ix0
  exact part4_range a16 _ _ h0 r

end Cert.PreDecode

end
-- ==== Proof.lean ====
/-
  The kernel program and its reference compute one function of their arguments over the extended reals.

  The network: two graph-convolution layers (a dense projection, then the sparse adjacency's weighted sum of the
  gathered source rows at the destination rows; bias and ReLU after the first, bias after the second), a per-graph mean
  readout repeated back to the nodes, a three-layer ReLU block with a linear shortcut, and a logistic.
  The kernel program runs the dense parts in four tiled regions and the two adjacency sums between them on the host,
  by the same operations as the reference. It differs from the reference in three places, none of which changes a
  value: a product of narrowed operands is the product (a change of float format is the identity on the extended
  reals); the per-graph sums and counts are accumulated tile by tile as products with the tile's one-hot matrix
  [gid r = g], where the reference adds rows up at their graph, and the rows are read back as a product with the same
  one-hot matrix, where the reference gathers row gid r — equal when every graph id lies in [0, 256), which the
  precondition says (outside that range the reference's scatter drops a row and its gather clamps, the one-hot does
  neither); and sums are taken in another order (addition of extended reals is commutative and associative).
  So both results are `Cert.Spec.G` of the arguments, the adjacency's action entering as one shared function.
  The three frames are the generated ones; the kernel's run with its result named is the same launch read once more.
-/
import proofs.«409535_j90245852823923_1_alg».proof.Defs
import proofs.«409535_j90245852823923_1_alg».proof.Proof.Gen.Kernel
import proofs.«409535_j90245852823923_1_alg».proof.Proof.Gen.Kernel.Frame
import proofs.«409535_j90245852823923_1_alg».proof.Proof.Gen.KernelIdeal
import proofs.«409535_j90245852823923_1_alg».proof.Proof.Gen.KernelIdeal.Frame
import proofs.«409535_j90245852823923_1_alg».proof.Proof.Gen.ReferenceIdeal
import proofs.«409535_j90245852823923_1_alg».proof.Proof.Gen.Pre_finite_inputs
import proofs.«409535_j90245852823923_1_alg».proof.Proof.Gen.ReferenceIdeal.Run
import proofs.«409535_j90245852823923_1_alg».proof.Proof.Gen.ReferenceIdeal.Read
import proofs.«409535_j90245852823923_1_alg».proof.Proof.RunValue
import proofs.«409535_j90245852823923_1_alg».proof.Proof.KernelValue
import proofs.«409535_j90245852823923_1_alg».proof.Proof.RefValue
import proofs.«409535_j90245852823923_1_alg».proof.Proof.PreDecode
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, both programs end with their result at G of the arguments. -/
theorem algebraic : Cert.algebraic_KernelIdeal_ReferenceIdeal := by
  intro m ρ m' ρ' hpre hagree
  have hg : ∀ c : Dev Cert.KernelIdeal.nD, ∀ r : Fin 100000,
      0 ≤ ((m ((c.tc : Thread Cert.KernelIdeal.nD Cert.KernelIdeal.τ).loc Cert.KernelIdeal.main_arg16)) (ValueIdx.ix1 r)).toInt ∧ ((m ((c.tc : Thread Cert.KernelIdeal.nD Cert.KernelIdeal.τ).loc Cert.KernelIdeal.main_arg16)) (ValueIdx.ix1 r)).toInt < 256 :=
    fun c => Cert.PreDecode.gid_range _ _ _ _ _ _ _ _ _ _ _ _ _ _ _ _ _ (hpre c)
  refine ⟨fun c => Cert.Spec.G (Cert.Adj.adj (m ((c.tc : Thread Cert.KernelIdeal.nD Cert.KernelIdeal.τ).loc Cert.KernelIdeal.main_arg1)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg16)), ?_, ?_⟩
  · exact (θ_run Cert.KernelIdeal.defs _ _).mono
      (fun r h c => ⟨(h c).1.trans (Cert.KernelIdeal.KernelValue.result m ρ c), (h c).2⟩)
      (Cert.KernelIdeal.RunValue.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15, e16⟩ := hagree c
    rw [Cert.ReferenceIdeal.Read.val_main_v79_eq, e0, e1, e2, e3, e4, e5, e6, e7, e8, e9, e10, e11, e12, e13, e14, e15, e16]
    exact Cert.RefValue.result _ _ _ _ _ _ _ _ _ _ _ _ _ _ _ _ _ (hg c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
